-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x256 : Shape := ⟨3, ![64, 256, 256]⟩
abbrev S64x2048x3 : Shape := ⟨3, ![64, 2048, 3]⟩
abbrev S256x512 : Shape := ⟨2, ![256, 512]⟩
abbrev S512 : Shape := ⟨1, ![512]⟩
abbrev S512x256 : Shape := ⟨2, ![512, 256]⟩
abbrev S256 : Shape := ⟨1, ![256]⟩
abbrev S_ : Shape := ⟨0, ![]⟩

class Facts : Prop where
  bcast_S_S64x256x256 : S_.BroadcastsInDim S64x256x256 (![] : Fin 0 → Fin S64x256x256.rank)
  reducesTo_S64x256x256_S_d0_1_2 : S64x256x256.ReducesTo [0, 1, 2] S_
  h_S_ : 0 < S_.numel
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S64x2048x3 : S_.BroadcastsInDim S64x2048x3 (![] : Fin 0 → Fin S64x2048x3.rank)
  reducesTo_S64x2048x3_S_d0_1_2 : S64x2048x3.ReducesTo [0, 1, 2] S_

variable [Facts]

def fn_part2 {F : FTy → Type} [FloatOps F] (main_arg1 : IVec S64x2048x3 32) (main_v33 : IVec S_ 1) : IVec S_ 1 :=
  let main_c_12 : IVec S_ 32 := constantI S_ 32 0#32
  let main_v34 : IVec S64x2048x3 32 := broadcastInDim S64x2048x3 ![] bcast_S_S64x2048x3 main_c_12
  let main_v35 : IVec S64x2048x3 1 := cmpi .sge main_arg1 main_v34
  let main_c_13 : IVec S_ 1 := constantI S_ 1 1#1
  let main_v36 : IVec S_ 1 := (fun x v => Host.reduce IntOp.andi x v reducesTo_S64x2048x3_S_d0_1_2 h_S_) main_v35 main_c_13
  let main_v37 : IVec S_ 1 := andi main_v33 main_v36
  let main_c_14 : IVec S_ 32 := constantI S_ 32 256#32
  let main_v38 : IVec S64x2048x3 32 := broadcastInDim S64x2048x3 ![] bcast_S_S64x2048x3 main_c_14
  let main_v39 : IVec S64x2048x3 1 := cmpi .slt main_arg1 main_v38
  let main_c_15 : IVec S_ 1 := constantI S_ 1 1#1
  let main_v40 : IVec S_ 1 := (fun x v => Host.reduce IntOp.andi x v reducesTo_S64x2048x3_S_d0_1_2 h_S_) main_v39 main_c_15
  let main_v41 : IVec S_ 1 := andi main_v37 main_v40
  main_v41

def fn_part1 {F : FTy → Type} [FloatOps F] (main_arg1 : IVec S64x2048x3 32) (main_arg5 : FVec F S512 .f32) (main_arg6 : FVec F S512x256 .f32) (main_arg7 : FVec F S256 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x256 .f32 := Host.absf main_arg6
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg1 main_v33

def fn {F : FTy → Type} [FloatOps F] (main_arg0 : FVec F S64x256x256 .f32) (main_arg1 : IVec S64x2048x3 32) (main_arg2 : FVec F S256x512 .f32) (main_arg3 : FVec F S512 .f32) (main_arg4 : FVec F S512 .f32) (main_arg5 : FVec F S512 .f32) (main_arg6 : FVec F S512x256 .f32) (main_arg7 : FVec F S256 .f32) : IVec S_ 1 :=
  let main_v0 : FVec F S64x256x256 .f32 := Host.absf main_arg0
  let main_cst : FVec F S_ .f32 := constant S_ .f32 0x7F800000#32
  let main_v1 : FVec F S64x256x256 .f32 := broadcastInDim S64x256x256 ![] bcast_S_S64x256x256 main_cst
  let main_v2 : IVec S64x256x256 1 := cmpf .olt main_v0 main_v1
  let main_c : IVec S_ 1 := constantI S_ 1 1#1
  let main_v3 : IVec S_ 1 := (fun x v => Host.reduce IntOp.andi x v reducesTo_S64x256x256_S_d0_1_2 h_S_) main_v2 main_c
  let main_v4 : FVec F S256x512 .f32 := Host.absf main_arg2
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512 .f32 := Host.absf main_arg4
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg1 main_arg5 main_arg6 main_arg7 main_v13 main_v16
-- ==== Kernel.lean ====
abbrev S64x256x256 : Shape := ⟨3, ![64, 256, 256]⟩
abbrev S64x2048x3 : Shape := ⟨3, ![64, 2048, 3]⟩
abbrev S256x512 : Shape := ⟨2, ![256, 512]⟩
abbrev S512 : Shape := ⟨1, ![512]⟩
abbrev S512x256 : Shape := ⟨2, ![512, 256]⟩
abbrev S256 : Shape := ⟨1, ![256]⟩
abbrev S1x512 : Shape := ⟨2, ![1, 512]⟩
abbrev S1x256 : Shape := ⟨2, ![1, 256]⟩
abbrev S131072x512 : Shape := ⟨2, ![131072, 512]⟩
abbrev S2x512 : Shape := ⟨2, ![2, 512]⟩
abbrev S1x2048x3 : Shape := ⟨3, ![1, 2048, 3]⟩
abbrev S1x256x256 : Shape := ⟨3, ![1, 256, 256]⟩
abbrev S2048x512 : Shape := ⟨2, ![2048, 512]⟩
abbrev S2048x3 : Shape := ⟨2, ![2048, 3]⟩
abbrev S2048x1 : Shape := ⟨2, ![2048, 1]⟩
abbrev S2048 : Shape := ⟨1, ![2048]⟩
abbrev S2048x256 : Shape := ⟨2, ![2048, 256]⟩
abbrev S256x256 : Shape := ⟨2, ![256, 256]⟩
abbrev S_ : Shape := ⟨0, ![]⟩
abbrev S131072x256 : Shape := ⟨2, ![131072, 256]⟩

abbrev nBuf : Space → Nat
  | .hbm => 29
  | .vmem => 19
  | .smem => 0
  | _ => 0

abbrev bufTy : (tb : Table) → Fin (tcTables nBuf tb) → BufTy
  | .hbm, ⟨0, _⟩ => ⟨S64x256x256, .f32⟩
  | .hbm, ⟨1, _⟩ => ⟨S64x2048x3, .i32⟩
  | .hbm, ⟨2, _⟩ => ⟨S256x512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S512x256, .f32⟩
  | .hbm, ⟨7, _⟩ => ⟨S256, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S1x256, .f32⟩
  | .hbm, ⟨12, _⟩ => ⟨S131072x512, .f32⟩
  | .hbm, ⟨13, _⟩ => ⟨S2x512, .f32⟩
  | .hbm, ⟨14, _⟩ => ⟨S1x512, .f32⟩
  | .hbm, ⟨15, _⟩ => ⟨S1x512, .f32⟩
  | .hbm, ⟨16, _⟩ => ⟨S_, .f32⟩
  | .hbm, ⟨17, _⟩ => ⟨S1x512, .f32⟩
  | .hbm, ⟨18, _⟩ => ⟨S1x512, .f32⟩
  | .hbm, ⟨19, _⟩ => ⟨S_, .f32⟩
  | .hbm, ⟨20, _⟩ => ⟨S1x512, .f32⟩
  | .hbm, ⟨21, _⟩ => ⟨S1x512, .f32⟩
  | .hbm, ⟨22, _⟩ => ⟨S1x512, .f32⟩
  | .hbm, ⟨23, _⟩ => ⟨S1x512, .f32⟩
  | .hbm, ⟨24, _⟩ => ⟨S_, .f32⟩
  | .hbm, ⟨25, _⟩ => ⟨S1x512, .f32⟩
  | .hbm, ⟨26, _⟩ => ⟨S1x512, .f32⟩
  | .hbm, ⟨27, _⟩ => ⟨S1x512, .f32⟩
  | .hbm, ⟨28, _⟩ => ⟨S131072x256, .f32⟩
  | .local _ .vmem, ⟨0, _⟩ => ⟨S1x2048x3, .i32⟩
  | .local _ .vmem, ⟨1, _⟩ => ⟨S1x2048x3, .i32⟩
  | .local _ .vmem, ⟨2, _⟩ => ⟨S1x256x256, .f32⟩
  | .local _ .vmem, ⟨3, _⟩ => ⟨S1x256x256, .f32⟩
  | .local _ .vmem, ⟨4, _⟩ => ⟨S256x512, .f32⟩
  | .local _ .vmem, ⟨5, _⟩ => ⟨S1x512, .f32⟩
  | .local _ .vmem, ⟨6, _⟩ => ⟨S2048x512, .f32⟩
  | .local _ .vmem, ⟨7, _⟩ => ⟨S2048x512, .f32⟩
  | .local _ .vmem, ⟨8, _⟩ => ⟨S2x512, .f32⟩
  | .local _ .vmem, ⟨9, _⟩ => ⟨S2048x512, .f32⟩
  | .local _ .vmem, ⟨10, _⟩ => ⟨S2048x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S512x256, .f32⟩
  | .local _ .vmem, ⟨16, _⟩ => ⟨S1x256, .f32⟩
  | .local _ .vmem, ⟨17, _⟩ => ⟨S2048x256, .f32⟩
  | .local _ .vmem, ⟨18, _⟩ => ⟨S2048x256, .f32⟩
  | _, _ => ⟨S64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg7_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem7_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x3 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2048x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  shapeCasts_S512_S1x512 : S512.ShapeCasts S1x512
  shapeCasts_S256_S1x256 : S256.ShapeCasts S1x256
  inb_S2x512_S2x512_0_0 : ∀ a, (![0, 0] : Fin 2 → Nat) a + S2x512.size a ≤ S2x512.size a
  h_S2x512 : 0 < S2x512.numel
  inb_S1x2048x3_S1x2048x3_0_0_0 : ∀ a, (![0, 0, 0] : Fin 3 → Nat) a + S1x2048x3.size a ≤ S1x2048x3.size a
  h_S1x2048x3 : 0 < S1x2048x3.numel
  shapeCasts_S1x2048x3_S2048x3 : S1x2048x3.ShapeCasts S2048x3
  slices_S2048x3_o0_0_S2048x1 : S2048x3.Slices ![0, 0] S2048x1
  shapeCasts_S2048x1_S2048 : S2048x1.ShapeCasts S2048
  slices_S2048x3_o0_1_S2048x1 : S2048x3.Slices ![0, 1] S2048x1
  slices_S2048x3_o0_2_S2048x1 : S2048x3.Slices ![0, 2] S2048x1
  iota_S2048x256_d1_w32 : S2048x256.Iotas .tc 32 [1]
  shapeCasts_S2048_S2048x1 : S2048.ShapeCasts S2048x1
  broadcasts_S2048x1_S2048x256 : S2048x1.Broadcasts S2048x256
  natLt_1_32 : 1 < 32
  bitsLt_bf16_f32 : FTy.bits .bf16 < FTy.bits .f32
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  inb_S256x512_S256x512_0_0 : ∀ a, (![0, 0] : Fin 2 → Nat) a + S256x512.size a ≤ S256x512.size a
  h_S256x512 : 0 < S256x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  reduces_S2048x512_S512 : S2048x512.Reduces [0] S512
  inb_S2x512_S1x512_0_0 : ∀ a, (![0, 0] : Fin 2 → Nat) a + S1x512.size a ≤ S2x512.size a
  inb_S2x512_S1x512_1_0 : ∀ a, (![1, 0] : Fin 2 → Nat) a + S1x512.size a ≤ S2x512.size a
  slices_S2x512_S1x512_0_0 : S2x512.Slices ![0, 0] S1x512
  slices_S2x512_S1x512_1_0 : S2x512.Slices ![1, 0] S1x512
  bcast_S_S1x512 : S_.BroadcastsInDim S1x512 (![] : Fin 0 → Fin S1x512.rank)
  shapeCasts_S2048x512_S2048x512 : S2048x512.ShapeCasts S2048x512
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  dot_S2048x256_S256x256_S2048x256_1_0_0_1_n_n_wf : DotDims.WF S2048x256 S256x256 S2048x256 [1] [0] [0] [1] [] []
  dot_S2048x256_S256x512_S2048x512_1_0_0_1_n_n_wf : DotDims.WF S2048x256 S256x512 S2048x512 [1] [0] [0] [1] [] []
  dot_S2048x512_S512x256_S2048x256_1_0_0_1_n_n_wf : DotDims.WF S2048x512 S512x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x3.size a ≤ S64x2048x3.size a
  hwx0_0 : ∀ i : grid0.Coords, EltTy.bits .i32 = 32 ∨ (Rect.block (s := S64x2048x3) S1x2048x3.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x256.size a ≤ S64x256x256.size a
  hwx0_1 : ∀ i : grid0.Coords, EltTy.bits .f32 = 32 ∨ (Rect.block (s := S64x256x256) S1x256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .f32 = 32 ∨ (Rect.block (s := S256x512) S256x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S131072x512.size a
  hwx0_4 : ∀ i : grid0.Coords, EltTy.bits .f32 = 32 ∨ (Rect.block (s := S131072x512) S2048x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x512.size a ≤ S2x512.size a
  hwx0_5 : ∀ i : grid0.Coords, EltTy.bits .f32 = 32 ∨ (Rect.block (s := S2x512) S2x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S131072x512.size a
  hwx1_0 : ∀ i : grid1.Coords, EltTy.bits .f32 = 32 ∨ (Rect.block (s := S131072x512) S2048x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x512.size a ≤ S1x512.size a
  hwx1_1 : ∀ i : grid1.Coords, EltTy.bits .f32 = 32 ∨ (Rect.block (s := S1x512) S1x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x512.size a ≤ S1x512.size a
  hwx1_4 : ∀ i : grid1.Coords, EltTy.bits .f32 = 32 ∨ (Rect.block (s := S1x512) S1x512.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S512x256.size a ≤ S512x256.size a
  hwx1_5 : ∀ i : grid1.Coords, EltTy.bits .f32 = 32 ∨ (Rect.block (s := S512x256) S512x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2048x256.size a ≤ S131072x256.size a
  hwx1_7 : ∀ i : grid1.Coords, EltTy.bits .f32 = 32 ∨ (Rect.block (s := S131072x256) S2048x256.size (cc1_transform_7 i) (hinb1_7 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf

abbrev win0_0 : Pipeline.Window sig grid0 :=
  Pipeline.Window.ofSpec (Memref.whole main_arg1) S1x2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S2048x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S2x512.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v4_0) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S1x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x512.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S512x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v3) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v16) S2048x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S64x256x256 : Shape := ⟨3, ![64, 256, 256]⟩
abbrev S64x2048x3 : Shape := ⟨3, ![64, 2048, 3]⟩
abbrev S256x512 : Shape := ⟨2, ![256, 512]⟩
abbrev S512 : Shape := ⟨1, ![512]⟩
abbrev S512x256 : Shape := ⟨2, ![512, 256]⟩
abbrev S256 : Shape := ⟨1, ![256]⟩
abbrev S64 : Shape := ⟨1, ![64]⟩
abbrev S64x1 : Shape := ⟨2, ![64, 1]⟩
abbrev S64x2048x1 : Shape := ⟨3, ![64, 2048, 1]⟩
abbrev S64x2048 : Shape := ⟨2, ![64, 2048]⟩
abbrev S_ : Shape := ⟨0, ![]⟩
abbrev S64x2048x2 : Shape := ⟨3, ![64, 2048, 2]⟩
abbrev S64x2048x256 : Shape := ⟨3, ![64, 2048, 256]⟩
abbrev S131072x256 : Shape := ⟨2, ![131072, 256]⟩
abbrev S131072x512 : Shape := ⟨2, ![131072, 512]⟩
abbrev S1x512 : Shape := ⟨2, ![1, 512]⟩
abbrev S1x256 : Shape := ⟨2, ![1, 256]⟩

abbrev nBuf : Space → Nat
  | .hbm => 131
  | .vmem => 0
  | .smem => 0
  | _ => 0

abbrev hbmTy0_0 (i : Nat) : BufTy := match i % 128 with
  | 0 => ⟨S64x256x256, .f32⟩
  | 1 => ⟨S64x2048x3, .i32⟩
  | 2 => ⟨S256x512, .f32⟩
  | 3 => ⟨S512, .f32⟩
  | 4 => ⟨S512, .f32⟩
  | 5 => ⟨S512, .f32⟩
  | 6 => ⟨S512x256, .f32⟩
  | 7 => ⟨S256, .f32⟩
  | 8 => ⟨S64, .i32⟩
  | 9 => ⟨S64x1, .i32⟩
  | 10 => ⟨S64x2048x1, .i32⟩
  | 11 => ⟨S64x2048, .i32⟩
  | 12 => ⟨S_, .i32⟩
  | 13 => ⟨S64x1, .i32⟩
  | 14 => ⟨S64x1, .i1⟩
  | 15 => ⟨S_, .i32⟩
  | 16 => ⟨S64x1, .i32⟩
  | 17 => ⟨S64x1, .i32⟩
  | 18 => ⟨S64x1, .i32⟩
  | 19 => ⟨S_, .i32⟩
  | 20 => ⟨S64x2048, .i32⟩
  | 21 => ⟨S64x2048, .i1⟩
  | 22 => ⟨S_, .i32⟩
  | 23 => ⟨S64x2048, .i32⟩
  | 24 => ⟨S64x2048, .i32⟩
  | 25 => ⟨S64x2048, .i32⟩
  | 26 => ⟨S64x2048, .i32⟩
  | 27 => ⟨S64x2048x1, .i32⟩
  | 28 => ⟨S64x2048x1, .i32⟩
  | 29 => ⟨S64x2048x2, .i32⟩
  | 30 => ⟨S64x2048x256, .f32⟩
  | 31 => ⟨S64x2048x1, .i32⟩
  | 32 => ⟨S64x2048, .i32⟩
  | 33 => ⟨S_, .i32⟩
  | 34 => ⟨S64x1, .i32⟩
  | 35 => ⟨S64x1, .i1⟩
  | 36 => ⟨S_, .i32⟩
  | 37 => ⟨S64x1, .i32⟩
  | 38 => ⟨S64x1, .i32⟩
  | 39 => ⟨S64x1, .i32⟩
  | 40 => ⟨S_, .i32⟩
  | 41 => ⟨S64x2048, .i32⟩
  | 42 => ⟨S64x2048, .i1⟩
  | 43 => ⟨S_, .i32⟩
  | 44 => ⟨S64x2048, .i32⟩
  | 45 => ⟨S64x2048, .i32⟩
  | 46 => ⟨S64x2048, .i32⟩
  | 47 => ⟨S64x2048, .i32⟩
  | 48 => ⟨S64x2048x1, .i32⟩
  | 49 => ⟨S64x2048x1, .i32⟩
  | 50 => ⟨S64x2048x2, .i32⟩
  | 51 => ⟨S64x2048x256, .f32⟩
  | 52 => ⟨S64x2048x256, .f32⟩
  | 53 => ⟨S64x2048x1, .i32⟩
  | 54 => ⟨S64x2048, .i32⟩
  | 55 => ⟨S_, .i32⟩
  | 56 => ⟨S64x1, .i32⟩
  | 57 => ⟨S64x1, .i1⟩
  | 58 => ⟨S_, .i32⟩
  | 59 => ⟨S64x1, .i32⟩
  | 60 => ⟨S64x1, .i32⟩
  | 61 => ⟨S64x1, .i32⟩
  | 62 => ⟨S_, .i32⟩
  | 63 => ⟨S64x2048, .i32⟩
  | 64 => ⟨S64x2048, .i1⟩
  | 65 => ⟨S_, .i32⟩
  | 66 => ⟨S64x2048, .i32⟩
  | 67 => ⟨S64x2048, .i32⟩
  | 68 => ⟨S64x2048, .i32⟩
  | 69 => ⟨S64x2048, .i32⟩
  | 70 => ⟨S64x2048x1, .i32⟩
  | 71 => ⟨S64x2048x1, .i32⟩
  | 72 => ⟨S64x2048x2, .i32⟩
  | 73 => ⟨S64x2048x256, .f32⟩
  | 74 => ⟨S64x2048x256, .f32⟩
  | 75 => ⟨S131072x256, .f32⟩
  | 76 => ⟨S131072x512, .f32⟩
  | 77 => ⟨S1x512, .f32⟩
  | 78 => ⟨S131072x512, .f32⟩
  | 79 => ⟨S131072x512, .f32⟩
  | 80 => ⟨S_, .f32⟩
  | 81 => ⟨S512, .f32⟩
  | 82 => ⟨S_, .f32⟩
  | 83 => ⟨S512, .f32⟩
  | 84 => ⟨S512, .f32⟩
  | 85 => ⟨S_, .i32⟩
  | 86 => ⟨S_, .f32⟩
  | 87 => ⟨S512, .f32⟩
  | 88 => ⟨S1x512, .f32⟩
  | 89 => ⟨S_, .f32⟩
  | 90 => ⟨S1x512, .f32⟩
  | 91 => ⟨S1x512, .f32⟩
  | 92 => ⟨S131072x512, .f32⟩
  | 93 => ⟨S131072x512, .f32⟩
  | 94 => ⟨S131072x512, .f32⟩
  | 95 => ⟨S_, .f32⟩
  | 96 => ⟨S_, .f32⟩
  | 97 => ⟨S_, .f32⟩
  | 98 => ⟨S_, .f32⟩
  | 99 => ⟨S512, .f32⟩
  | 100 => ⟨S512, .f32⟩
  | 101 => ⟨S512, .f32⟩
  | 102 => ⟨S_, .f32⟩
  | 103 => ⟨S_, .i1⟩
  | 104 => ⟨S_, .f32⟩
  | 105 => ⟨S_, .f32⟩
  | 106 => ⟨S512, .f32⟩
  | 107 => ⟨S512, .f32⟩
  | 108 => ⟨S1x512, .f32⟩
  | 109 => ⟨S131072x512, .f32⟩
  | 110 => ⟨S131072x512, .f32⟩
  | 111 => ⟨S_, .f32⟩
  | 112 => ⟨S512, .f32⟩
  | 113 => ⟨S512, .f32⟩
  | 114 => ⟨S512, .f32⟩
  | 115 => ⟨S1x512, .f32⟩
  | 116 => ⟨S131072x512, .f32⟩
  | 117 => ⟨S131072x512, .f32⟩
  | 118 => ⟨S1x512, .f32⟩
  | 119 => ⟨S131072x512, .f32⟩
  | 120 => ⟨S131072x512, .f32⟩
  | 121 => ⟨S1x512, .f32⟩
  | 122 => ⟨S131072x512, .f32⟩
  | 123 => ⟨S131072x512, .f32⟩
  | 124 => ⟨S_, .f32⟩
  | 125 => ⟨S131072x512, .f32⟩
  | 126 => ⟨S131072x512, .f32⟩
  | 127 => ⟨S131072x256, .f32⟩
  | _ => ⟨S64x256x256, .f32⟩

abbrev hbmTy0_1 (i : Nat) : BufTy := match i % 128 with
  | 0 => ⟨S1x256, .f32⟩
  | 1 => ⟨S131072x256, .f32⟩
  | 2 => ⟨S131072x256, .f32⟩
  | _ => ⟨S64x256x256, .f32⟩

abbrev hbmTy (i : Nat) : BufTy := match i / 128 with
  | 0 => hbmTy0_0 i
  | 1 => hbmTy0_1 i
  | _ => ⟨S64x256x256, .f32⟩

abbrev bufTy : (tb : Table) → Fin (tcTables nBuf tb) → BufTy
  | .hbm, ⟨i, _⟩ => hbmTy i
  | _, _ => ⟨S64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_c_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_7 : Ref sig .tc := ⟨.hbm, 55, rfl⟩
abbrev main_v39 : Ref sig .tc := ⟨.hbm, 56, rfl⟩
abbrev main_v40 : Ref sig .tc := ⟨.hbm, 57, rfl⟩
abbrev main_c_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_9 : Ref sig .tc := ⟨.hbm, 62, rfl⟩
abbrev main_v44 : Ref sig .tc := ⟨.hbm, 63, rfl⟩
abbrev main_v45 : Ref sig .tc := ⟨.hbm, 64, rfl⟩
abbrev main_c_10 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst : Ref sig .tc := ⟨.hbm, 80, rfl⟩
abbrev main_v60 : Ref sig .tc := ⟨.hbm, 81, rfl⟩
abbrev main_cst_11 : Ref sig .tc := ⟨.hbm, 82, rfl⟩
abbrev main_v61 : Ref sig .tc := ⟨.hbm, 83, rfl⟩
abbrev main_v62 : Ref sig .tc := ⟨.hbm, 84, rfl⟩
abbrev main_c_12 : Ref sig .tc := ⟨.hbm, 85, rfl⟩
abbrev main_call0_cst : Ref sig .tc := ⟨.hbm, 86, rfl⟩
abbrev main_call0_v0 : Ref sig .tc := ⟨.hbm, 87, rfl⟩
abbrev main_call0_v1 : Ref sig .tc := ⟨.hbm, 88, rfl⟩
abbrev main_call0_cst_0 : Ref sig .tc := ⟨.hbm, 89, rfl⟩
abbrev main_call0_v2 : Ref sig .tc := ⟨.hbm, 90, rfl⟩
abbrev main_call0_v3 : Ref sig .tc := ⟨.hbm, 91, rfl⟩
abbrev main_call0_v4 : Ref sig .tc := ⟨.hbm, 92, rfl⟩
abbrev main_call0_v5 : Ref sig .tc := ⟨.hbm, 93, rfl⟩
abbrev main_call0_v6 : Ref sig .tc := ⟨.hbm, 94, rfl⟩
abbrev main_call0_v7 : Ref sig .tc := ⟨.hbm, 95, rfl⟩
abbrev main_call0_cst_1 : Ref sig .tc := ⟨.hbm, 96, rfl⟩
abbrev main_call0_v8 : Ref sig .tc := ⟨.hbm, 97, rfl⟩
abbrev main_call0_cst_2 : Ref sig .tc := ⟨.hbm, 98, rfl⟩
abbrev main_call0_v9 : Ref sig .tc := ⟨.hbm, 99, rfl⟩
abbrev main_call0_v10 : Ref sig .tc := ⟨.hbm, 100, rfl⟩
abbrev main_call0_v11 : Ref sig .tc := ⟨.hbm, 101, rfl⟩
abbrev main_call0_cst_3 : Ref sig .tc := ⟨.hbm, 102, rfl⟩
abbrev main_call0_v12 : Ref sig .tc := ⟨.hbm, 103, rfl⟩
abbrev main_call0_cst_4 : Ref sig .tc := ⟨.hbm, 104, rfl⟩
abbrev main_call0_call0_v0 : Ref sig .tc := ⟨.hbm, 105, rfl⟩
abbrev main_call0_call0_v1 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_cst_13 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_call1_cst : Ref sig .tc := ⟨.hbm, 124, rfl⟩
abbrev main_call1_v0 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩

abbrev nD : Nat := 1
abbrev τ : Topo := Topo.v7x

variable {F : FTy → Type} [FloatOps F]

class Facts₀ : Prop where
  bcast_S64_S64x1_0 : S64.BroadcastsInDim S64x1 (![0] : Fin 1 → Fin S64x1.rank)
  slices_S64x2048x3_S64x2048x1_0_0_0 : S64x2048x3.Slices ![0, 0, 0] S64x2048x1
  shapeCasts_S64x2048x1_S64x2048 : S64x2048x1.ShapeCasts S64x2048
  bcast_S_S64x1 : S_.BroadcastsInDim S64x1 (![] : Fin 0 → Fin S64x1.rank)
  bcast_S_S64x2048 : S_.BroadcastsInDim S64x2048 (![] : Fin 0 → Fin S64x2048.rank)
  bcast_S64x1_S64x2048_0_1 : S64x1.BroadcastsInDim S64x2048 (![0, 1] : Fin 2 → Fin S64x2048.rank)
  bcast_S64x2048_S64x2048x1_0_1 : S64x2048.BroadcastsInDim S64x2048x1 (![0, 1] : Fin 2 → Fin S64x2048x1.rank)
  concatenates_S64x2048x1_S64x2048x1_S64x2048x2_d2 : Shape.Concatenates [S64x2048x1, S64x2048x1] S64x2048x2 2
  slices_S64x2048x3_S64x2048x1_0_0_1 : S64x2048x3.Slices ![0, 0, 1] S64x2048x1
  slices_S64x2048x3_S64x2048x1_0_0_2 : S64x2048x3.Slices ![0, 0, 2] S64x2048x1
  shapeCasts_S64x2048x256_S131072x256 : S64x2048x256.ShapeCasts S131072x256
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  reducesTo_S131072x512_S512_d0 : S131072x512.ReducesTo [0] S512
  h_S_ : 0 < S_.numel
  bcast_S_S512 : S_.BroadcastsInDim S512 (![] : Fin 0 → Fin S512.rank)
  bcast_S_S1x512 : S_.BroadcastsInDim S1x512 (![] : Fin 0 → Fin S1x512.rank)
  bcast_S_S131072x512 : S_.BroadcastsInDim S131072x512 (![] : Fin 0 → Fin S131072x512.rank)
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  gather_S64x256x256_S64x2048x2_S64x2048x256_2_01_n_n_01_2_11256_wf : GatherDims.WF S64x256x256 S64x2048x2 S64x2048x256 [2] [0, 1] [] [0, 1] [] 2 ![1, 1, 256]
  dot_S131072x256_S256x512_S131072x512_1_0_0_1_n_n_wf : DotDims.WF S131072x256 S256x512 S131072x512 [1] [0] [0] [1] [] []
  dot_S131072x512_S512x256_S131072x256_1_0_0_1_n_n_wf : DotDims.WF S131072x512 S512x256 S131072x256 [1] [0] [0] [1] [] []

variable [Facts₀]

def gather_S64x256x256_S64x2048x2_S64x2048x256_2_01_n_n_01_2_11256 : GatherDims S64x256x256 S64x2048x2 S64x2048x256 where
  offsetDims := [2]
  collapsedSliceDims := [0, 1]
  operandBatchingDims := []
  startIndicesBatchingDims := []
  startIndexMap := [0, 1]
  indexVectorDim := 2
  sliceSizes := ![1, 1, 256]
  wf := gather_S64x256x256_S64x2048x2_S64x2048x256_2_01_n_n_01_2_11256_wf
def dot_S131072x256_S256x512_S131072x512_1_0_0_1_n_n : DotDims S131072x256 S256x512 S131072x512 where
  lhsContracting := [1]
  rhsContracting := [0]
  lhsNonContracting := [0]
  rhsNonContracting := [1]
  lhsBatch := []
  rhsBatch := []
  wf := dot_S131072x256_S256x512_S131072x512_1_0_0_1_n_n_wf
def dot_S131072x512_S512x256_S131072x256_1_0_0_1_n_n : DotDims S131072x512 S512x256 S131072x256 where
  lhsContracting := [1]
  rhsContracting := [0]
  lhsNonContracting := [0]
  rhsNonContracting := [1]
  lhsBatch := []
  rhsBatch := []
  wf := dot_S131072x512_S512x256_S131072x256_1_0_0_1_n_n_wf

class Facts : Prop extends Facts₀ where

variable [Facts]
-- ==== Proof.Spec.lean ====
/-
  The mathematics both programs compute, as functions of the argument arrays at the extended reals.
  For angle row r = 2048·b + t of batch b, the three atoms its table row names are read out of z and added
  (X); a linear layer H = X·W1 + b1 over all 131072 rows; the column mean μ and a column variance of H; the
  normalised, scaled, shifted and rectified H; a second linear layer. The two programs differ in the variance:
  the mean of squares minus the squared mean on one side (varK), the mean of squared deviations on the other (varR).
  They agree wherever every entry of H is a real number.
-/
import Idealize.ShloMosaic.PureOps.Ideal
import Idealize.ShloMosaic.Lib.ValueIdx

noncomputable section

open scoped BigOperators

namespace Cert.Spec

open Idealize.ShloMosaic Idealize.ShloMosaic.ValueIdx

abbrev SZ : Shape := ⟨3, ![64, 256, 256]⟩
abbrev ST : Shape := ⟨3, ![64, 2048, 3]⟩
abbrev SW1 : Shape := ⟨2, ![256, 512]⟩
abbrev SV512 : Shape := ⟨1, ![512]⟩
abbrev SW2 : Shape := ⟨2, ![512, 256]⟩
abbrev SV256 : Shape := ⟨1, ![256]⟩
abbrev SOut : Shape := ⟨2, ![131072, 256]⟩

/-- The atom a table word names: the word's value, folded into 0 … 255 (the identity on words in that range). -/
def atom (w : BitVec 32) : Fin 256 := ⟨w.toNat % 256, Nat.mod_lt _ (by decide)⟩

/-- The batch of angle row r. -/
def rowB (r : Fin 131072) : Fin 64 := ⟨r.val / 2048, by have := r.isLt; omega⟩
/-- The angle of angle row r within its batch. -/
def rowT (r : Fin 131072) : Fin 2048 := ⟨r.val % 2048, Nat.mod_lt _ (by decide)⟩

/-- The three atom embeddings of angle t of batch b, added, at feature d. -/
def X (z : SZ.Idx → EReal) (tbl : ST.Idx → BitVec 32) (b : Fin 64) (t : Fin 2048) (d : Fin 256) : EReal :=
  z (ix3 b (atom (tbl (ix3 b t (0 : Fin 3)))) d) + z (ix3 b (atom (tbl (ix3 b t (1 : Fin 3)))) d)
    + z (ix3 b (atom (tbl (ix3 b t (2 : Fin 3)))) d)

/-- The first linear layer at angle row r, hidden feature f. -/
def H (z : SZ.Idx → EReal) (tbl : ST.Idx → BitVec 32) (W1 : SW1.Idx → EReal) (b1 : SV512.Idx → EReal)
    (r : Fin 131072) (f : Fin 512) : EReal :=
  (∑ d : Fin 256, X z tbl (rowB r) (rowT r) d * W1 (ix2 d f)) + b1 (ix1 f)

/-- The number of angle rows, 131072, as both programs spell it. -/
def cnt : EReal := Ideal.ofBits .f32 0x48000000#32
/-- The variance's guard, the float nearest 1e-5, as both programs spell it. -/
def eps : EReal := Ideal.ofBits .f32 0x3727C5AC#32

/-- The column mean. -/
def meanOf (A : Fin 131072 → Fin 512 → EReal) (f : Fin 512) : EReal := Ideal.div (∑ r : Fin 131072, A r f) cnt
/-- The column variance as mean of squares minus squared mean. -/
def varK (A : Fin 131072 → Fin 512 → EReal) (f : Fin 512) : EReal :=
  Ideal.div (∑ r : Fin 131072, A r f * A r f) cnt - meanOf A f * meanOf A f
/-- The column variance as mean of squared deviations from the mean. -/
def varR (A : Fin 131072 → Fin 512 → EReal) (f : Fin 512) : EReal :=
  Ideal.div (∑ r : Fin 131072, (A r f - meanOf A f) * (A r f - meanOf A f)) cnt

/-- Normalise by mean and inverse deviation, scale, shift, rectify, second linear layer: row r, output feature o. -/
def tail (A : Fin 131072 → Fin 512 → EReal) (μ inv : Fin 512 → EReal) (γ β : SV512.Idx → EReal)
    (W2 : SW2.Idx → EReal) (b2 : SV256.Idx → EReal) (r : Fin 131072) (o : Fin 256) : EReal :=
  (∑ f : Fin 512, max ((A r f - μ f) * inv f * γ (ix1 f) + β (ix1 f)) 0 * W2 (ix2 f o)) + b2 (ix1 o)

/-- The whole result with the variance `v` of the first layer's columns left open. -/
def outWith (v : (Fin 131072 → Fin 512 → EReal) → Fin 512 → EReal)
    (z : SZ.Idx → EReal) (tbl : ST.Idx → BitVec 32) (W1 : SW1.Idx → EReal) (b1 γ β : SV512.Idx → EReal)
    (W2 : SW2.Idx → EReal) (b2 : SV256.Idx → EReal) : SOut.Idx → EReal := fun j =>
  tail (H z tbl W1 b1) (meanOf (H z tbl W1 b1)) (fun f => Ideal.rsqrt (v (H z tbl W1 b1) f + eps)) γ β W2 b2 (j 0) (j 1)

/-- The row count's pattern has sign bit 0, biased exponent 144, fraction 0: it denotes 2^23 · 2^(144 − 127 − 23) = 2^17. -/
theorem cnt_eq : cnt = ((131072 : ℝ) : EReal) := by
  unfold cnt
  simp [Ideal.ofBits, Ideal.ieee, -EReal.coe_mul]; norm_num

/-- A finite sum of real numbers, each read as an extended real, is the real sum read as an extended real. -/
theorem coe_sum {ι : Type*} (s : Finset ι) (g : ι → ℝ) :
    ∑ i ∈ s, ((g i : ℝ) : EReal) = ((∑ i ∈ s, g i : ℝ) : EReal) := by
  classical
  induction s using Finset.induction_on with
  | empty => simp
  | insert a s ha ih => rw [Finset.sum_insert ha, Finset.sum_insert ha, ih, EReal.coe_add]

/-- Over the reals, with N the number of terms and μ = (∑ a)/N: ∑ (a − μ)² = ∑ a² − 2μ·∑ a + N·μ², and ∑ a = N·μ,
    so the mean of squared deviations is the mean of squares minus μ². Division is spelt as the product with 1/N. -/
private theorem real_var {ι : Type*} [Fintype ι] (N : ℝ) (hN : N ≠ 0) (hc : (Fintype.card ι : ℝ) = N) (a : ι → ℝ) :
    (∑ i, (a i - (∑ j, a j) * (1 / N)) * (a i - (∑ j, a j) * (1 / N))) * (1 / N)
      = (∑ i, a i * a i) * (1 / N) - ((∑ j, a j) * (1 / N)) * ((∑ j, a j) * (1 / N)) := by
  set S := ∑ j, a j with hS
  have h1 : ∑ i, (a i - S * (1 / N)) * (a i - S * (1 / N))
      = (∑ i, a i * a i) - 2 * (S * (1 / N)) * S + N * ((S * (1 / N)) * (S * (1 / N))) := by
    have : ∀ i, (a i - S * (1 / N)) * (a i - S * (1 / N))
        = a i * a i - 2 * (S * (1 / N)) * a i + (S * (1 / N)) * (S * (1 / N)) := fun i => by ring
    simp only [this]
    rw [Finset.sum_add_distrib, Finset.sum_sub_distrib, ← Finset.mul_sum, Finset.sum_const, Finset.card_univ,
      nsmul_eq_mul, hc]
  rw [h1]
  field_simp
  ring

/-- The same identity at the extended reals, for real data over any finite index type with N ≠ 0 elements:
    each division by the real N is the product with 1/N, every sum and product stays real, and the real identity closes it. -/
private theorem var_eq {ι : Type*} [Fintype ι] (N : ℝ) (hN : N ≠ 0) (hc : (Fintype.card ι : ℝ) = N) (a : ι → ℝ) :
    Ideal.div (∑ i, ((a i : EReal) - Ideal.div (∑ j, (a j : EReal)) (N : EReal))
        * ((a i : EReal) - Ideal.div (∑ j, (a j : EReal)) (N : EReal))) (N : EReal)
      = Ideal.div (∑ i, (a i : EReal) * (a i : EReal)) (N : EReal)
        - Ideal.div (∑ j, (a j : EReal)) (N : EReal) * Ideal.div (∑ j, (a j : EReal)) (N : EReal) := by
  simp only [Ideal.div_coe hN, coe_sum, ← EReal.coe_mul, ← EReal.coe_sub]
  rw [real_var N hN hc a]

/-- Sums of products of real numbers are real: every entry of the first layer is. -/
theorem H_real (z : SZ.Idx → EReal) (tbl : ST.Idx → BitVec 32) (W1 : SW1.Idx → EReal) (b1 : SV512.Idx → EReal)
    (hz : ∀ i, ∃ x : ℝ, z i = (x : EReal)) (hW : ∀ i, ∃ x : ℝ, W1 i = (x : EReal)) (hb : ∀ i, ∃ x : ℝ, b1 i = (x : EReal))
    (r : Fin 131072) (f : Fin 512) : ∃ x : ℝ, H z tbl W1 b1 r f = (x : EReal) := by
  choose zr hzr using hz
  choose wr hwr using hW
  choose br hbr using hb
  unfold H X
  simp only [hzr, hwr, hbr, ← EReal.coe_add, ← EReal.coe_mul, coe_sum]
  exact ⟨_, rfl⟩

/-- On real data the mean of squared deviations is the mean of squares minus the squared mean. -/
theorem varR_eq_varK (A : Fin 131072 → Fin 512 → EReal) (hA : ∀ r f, ∃ x : ℝ, A r f = (x : EReal)) (f : Fin 512) :
    varR A f = varK A f := by
  choose a ha using hA
  unfold varR varK meanOf
  simp only [ha, cnt_eq]
  exact var_eq 131072 (by norm_num) (by simp) (fun r => a r f)

/-- The two results are one function where the float inputs of the first layer are real. -/
theorem outWith_varR_eq (z : SZ.Idx → EReal) (tbl : ST.Idx → BitVec 32) (W1 : SW1.Idx → EReal) (b1 γ β : SV512.Idx → EReal)
    (W2 : SW2.Idx → EReal) (b2 : SV256.Idx → EReal)
    (hz : ∀ i, ∃ x : ℝ, z i = (x : EReal)) (hW : ∀ i, ∃ x : ℝ, W1 i = (x : EReal)) (hb : ∀ i, ∃ x : ℝ, b1 i = (x : EReal)) :
    outWith varR z tbl W1 b1 γ β W2 b2 = outWith varK z tbl W1 b1 γ β W2 b2 := by
  funext j
  unfold outWith
  have h : (fun f => Ideal.rsqrt (varR (H z tbl W1 b1) f + eps)) = fun f => Ideal.rsqrt (varK (H z tbl W1 b1) f + eps) :=
    funext fun f => by rw [varR_eq_varK _ (H_real z tbl W1 b1 hz hW hb) f]
  rw [h]

end Cert.Spec

end
-- ==== Proof.PreRead.lean ====
/-
  What the precondition says of the argument arrays: every entry of z, W1 and b1 is a real number (not an
  infinity), and every word of the atom table, read as a signed integer, lies in 0 … 255, so that its unsigned
  value is below 256.
-/
import proofs.«415157_j83416854823432_1_alg».proof.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.PreRead

open Idealize.ShloMosaic Idealize.ShloMosaic.ValueIdx Cert.Pre_finite_inputs

variable [Cert.Pre_finite_inputs.Facts]

/-- The word 0x7F800000 (sign 0, exponent all ones, fraction 0), read as a float, is +∞. -/
theorem inf_word : Ideal.ofBits .f32 0x7F800000#32 = (⊤ : EReal) := by
  simp [Ideal.ofBits, Ideal.ieee]

/-- An extended real whose absolute value max(x, −x) is strictly below +∞ is a real number: −∞ and +∞ both
    have absolute value +∞. -/
theorem real_of_abs_lt (x : EReal) (h : Ideal.cmp .olt (max x (-x)) (Ideal.ofBits .f32 0x7F800000#32) = 1#1) :
    ∃ r : ℝ, x = (r : EReal) := by
  rw [inf_word] at h
  induction x using EReal.rec with
  | bot => simp [Ideal.cmp] at h
  | coe r => exact ⟨r, rfl⟩
  | top => simp [Ideal.cmp] at h

/-- A 32-bit word that is, signed, at least 0 and below 256 has unsigned value below 256: a word whose
    unsigned value is 2³¹ or more reads negative. -/
theorem word_lt (w : BitVec 32) (h0 : IntOp.cmpi .sge w 0#32 = 1#1) (h1 : IntOp.cmpi .slt w 256#32 = 1#1) :
    w.toNat < 256 := by
  rw [IntOp.cmpi_sge] at h0
  rw [IntOp.cmpi_slt] at h1
  have e0 : (0#32 : BitVec 32).toInt = 0 := by decide
  have e1 : (256#32 : BitVec 32).toInt = 256 := by decide
  rw [e0] at h0
  rw [e1] at h1
  rw [BitVec.toInt_eq_toNat_cond] at h0 h1
  have := w.isLt
  split at h0 <;> omega

/-- The rank-0 shape has one index. -/
instance : Subsingleton S_.Idx := ⟨fun a b => funext fun d => d.elim0⟩

/-- A conjunction of one-bit vectors that is 1 at an index has both sides 1 there. -/
theorem andi_one {s : Shape} {x y : IVec s 1} {i : s.Idx} (h : andi x y i = 1#1) : x i = 1#1 ∧ y i = 1#1 :=
  IntOp.andi_eq_one.1 h

/-- The precondition, all ones, gives: z, W1, b1 real entry by entry, and every table word below 256. -/
theorem of_pre (z : FVec Ideal S64x256x256 .f32) (tbl : IVec S64x2048x3 32) (W1 : FVec Ideal S256x512 .f32)
    (b1 γ β : FVec Ideal S512 .f32) (W2 : FVec Ideal S512x256 .f32) (b2 : FVec Ideal S256 .f32)
    (h : Cert.Pre_finite_inputs.fn (F := Ideal) z tbl W1 b1 γ β W2 b2 = fun _ => 1#1) :
    (∀ i, ∃ x : ℝ, z i = (x : EReal)) ∧ (∀ i, ∃ x : ℝ, W1 i = (x : EReal)) ∧ (∀ i, ∃ x : ℝ, b1 i = (x : EReal))
      ∧ (∀ i, (tbl i).toNat < 256) := by
  -- the predicate at its one index is a left-nested conjunction of nine "for all entries" claims
  have h0 := congrFun h ValueIdx.ix0
  dsimp only [fn, fn_part1, fn_part2] at h0
  -- peel the conjuncts from the outside: table < 256, table ≥ 0, then b2, W2, β, γ (not needed), b1, W1, z
  obtain ⟨h1, hlt⟩ := andi_one h0
  obtain ⟨h2, hge⟩ := andi_one h1
  obtain ⟨h3, -⟩ := andi_one h2
  obtain ⟨h4, -⟩ := andi_one h3
  obtain ⟨h5, -⟩ := andi_one h4
  obtain ⟨h6, -⟩ := andi_one h5
  obtain ⟨h7, hb1⟩ := andi_one h6
  obtain ⟨hz, hW1⟩ := andi_one h7
  -- each "for all entries" claim holds at every entry; an entry's claim is |x| < +∞, or the two signed bounds
  refine ⟨fun i => ?_, fun i => ?_, fun i => ?_, fun i => ?_⟩
  · exact real_of_abs_lt (z i) (Host.reduce_andi_all _ _ _ _ _ hz i)
  · exact real_of_abs_lt (W1 i) (Host.reduce_andi_all _ _ _ _ _ hW1 i)
  · exact real_of_abs_lt (b1 i) (Host.reduce_andi_all _ _ _ _ _ hb1 i)
  · exact word_lt (tbl i) (Host.reduce_andi_all _ _ _ _ _ hge i) (Host.reduce_andi_all _ _ _ _ _ hlt i)

end Cert.PreRead

end
-- ==== Proof.KHost.lean ====
/-
  What the host operations around the two kernel regions leave in the buffers the regions read. Before the first
  region only the four vectors are laid out as one-row matrices; the first region therefore reads the launch
  contents of z, the atom table and W1, and the bias as a row. Between the regions the host takes row 0 and row 1 of
  the statistics array, divides each by the row count, and forms the inverse deviation
  rsqrt(squares/count − mean·mean + guard); the hidden array passes through unchanged.
-/
import proofs.«415157_j83416854823432_1_alg».proof.Proof.Gen.KernelIdeal.Frame
import proofs.«415157_j83416854823432_1_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

open scoped BigOperators

open Idealize.ShloMosaic Idealize.ShloMosaic.TcCoe Idealize.SL.Sem
open Idealize.ShloMosaic.Pipeline (Dat)

namespace Cert.KernelIdeal.Host

open Cert.KernelIdeal Cert.KernelIdeal.Gen Idealize.ShloMosaic.ValueIdx Idealize.ShloMosaic.StableHlo

variable (m : (ℓ : Loc nD τ sig) → Buf (Elt Ideal) ℓ) (ρ : Dev nD → PrngReg)

/-- A buffer no operation of the first stretch writes holds its launch contents when the first region is entered. -/
theorem W1_keep (c : Dev nD) (B : Ref sig .tc)
    (h : (hostOps0 : List (HloOp τ sig (Elt Ideal))).Forall fun op => Proc.devRef .tc B ∉ op.writes) :
    W1 m ρ c (Proc.devRef .tc B) = m ((c : Thread nD τ).loc B) :=
  (StableHlo.after_of_forall_not_mem (b := Proc.devRef .tc B) _ _ (List.forall_iff_forall_mem.mp h)).trans rfl

theorem V1_arg0 (c : Dev nD) : V1 m ρ c main_arg0 = m ((c : Thread nD τ).loc main_arg0) :=
  (StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl
theorem V1_arg1 (c : Dev nD) : V1 m ρ c main_arg1 = m ((c : Thread nD τ).loc main_arg1) :=
  (StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl
theorem V1_arg2 (c : Dev nD) : V1 m ρ c main_arg2 = m ((c : Thread nD τ).loc main_arg2) :=
  (StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl

/-- The bias row the first region reads is the bias vector. -/
theorem V1_v0 (c : Dev nD) (f : Fin 512) :
    (V1 m ρ c main_v0 : FVec Ideal S1x512 .f32) (ix2 (0 : Fin 1) f) = (m ((c : Thread nD τ).loc main_arg3) : FVec Ideal S512 .f32) (ix1 f) := by
  have e : (V1 m ρ c main_v0 : FVec Ideal S1x512 .f32)
      = shapeCast S1x512 (m ((c : Thread nD τ).loc main_arg3) : FVec Ideal S512 .f32) shapeCasts_S512_S1x512 := by
    show StableHlo.after hostOps0 (W0 m ρ c) (Proc.devRef .tc main_v0) = _
    after_results
    rfl
  rw [e]
  exact shapeCast_a_1a_apply _ _ _ _

/-! ## At the second region's entry -/

/-- The statistics array as the first region leaves it. -/
abbrev stats (c : Dev nD) : FVec Ideal S2x512 .f32 := (dat0 (V1 m ρ) c).arrAt 5 cfg0.N

theorem W2_stats (c : Dev nD) : (W2 m ρ c (Proc.devRef .tc main_v4_1) : FVec Ideal S2x512 .f32) = stats m ρ c := W2_arr m ρ c 5

/-- The hidden array passes through the host operations between the regions. -/
theorem V3_h (c : Dev nD) : V3 m ρ c main_v4_0 = (dat0 (V1 m ρ) c).arrAt 4 cfg0.N :=
  (StableHlo.after_of_forall_not_mem (b := Proc.devRef .tc main_v4_0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W2_arr m ρ c 4)

/-- A rank-0 constant broadcast to a row reads as its word's value everywhere. -/
theorem bcast_const_apply (w : BitVec 32) (j : S1x512.Idx) :
    broadcastInDim S1x512 ![] bcast_S_S1x512 (constant (F := Ideal) S_ .f32 w) j = Ideal.ofBits .f32 w :=
  broadcastInDim_apply _ _ _ j ix0 (fun a => a.elim0)

/-- The mean row: the sums row over the row count. -/
theorem V3_mean (c : Dev nD) (f : Fin 512) :
    (V3 m ρ c main_v8 : FVec Ideal S1x512 .f32) (ix2 (0 : Fin 1) f)
      = Ideal.div (stats m ρ c (ix2 (0 : Fin 2) f)) Cert.Spec.cnt := by
  have e : (V3 m ρ c main_v8 : FVec Ideal S1x512 .f32) = (Host.divf (extractStridedSlice S1x512 ![0, 0] (W2 m ρ c (Proc.devRef .tc main_v4_1) : FVec Ideal S2x512 .f32) slices_S2x512_S1x512_0_0) (broadcastInDim S1x512 ![] bcast_S_S1x512 (constant (F := Ideal) S_ .f32 0x48000000#32))) := by
    show StableHlo.after hostOps1 (W2 m ρ c) (Proc.devRef .tc main_v8) = _
    after_results
  rw [e, W2_stats]
  show Ideal.div (extractStridedSlice S1x512 ![0, 0] (stats m ρ c) slices_S2x512_S1x512_0_0 (ix2 (0 : Fin 1) f)) ((broadcastInDim S1x512 ![] bcast_S_S1x512 (constant (F := Ideal) S_ .f32 0x48000000#32)) (ix2 (0 : Fin 1) f)) = _
  rw [bcast_const_apply, slice2_axis0_apply 0 (stats m ρ c) slices_S2x512_S1x512_0_0 (0 : Fin 1) f (0 : Fin 2) rfl]
  rfl

/-- The inverse deviation row: rsqrt of squares row over count, minus the squared mean, plus the guard. -/
theorem V3_inv (c : Dev nD) (f : Fin 512) :
    (V3 m ρ c main_v15 : FVec Ideal S1x512 .f32) (ix2 (0 : Fin 1) f)
      = Ideal.rsqrt (Ideal.div (stats m ρ c (ix2 (1 : Fin 2) f)) Cert.Spec.cnt
          - Ideal.div (stats m ρ c (ix2 (0 : Fin 2) f)) Cert.Spec.cnt * Ideal.div (stats m ρ c (ix2 (0 : Fin 2) f)) Cert.Spec.cnt
          + Cert.Spec.eps) := by
  have e : (V3 m ρ c main_v15 : FVec Ideal S1x512 .f32)
      = Host.rsqrt (addf (subf (Host.divf (extractStridedSlice S1x512 ![1, 0] (W2 m ρ c (Proc.devRef .tc main_v4_1) : FVec Ideal S2x512 .f32) slices_S2x512_S1x512_1_0) (broadcastInDim S1x512 ![] bcast_S_S1x512 (constant (F := Ideal) S_ .f32 0x48000000#32))) (mulf (Host.divf (extractStridedSlice S1x512 ![0, 0] (W2 m ρ c (Proc.devRef .tc main_v4_1) : FVec Ideal S2x512 .f32) slices_S2x512_S1x512_0_0) (broadcastInDim S1x512 ![] bcast_S_S1x512 (constant (F := Ideal) S_ .f32 0x48000000#32))) (Host.divf (extractStridedSlice S1x512 ![0, 0] (W2 m ρ c (Proc.devRef .tc main_v4_1) : FVec Ideal S2x512 .f32) slices_S2x512_S1x512_0_0) (broadcastInDim S1x512 ![] bcast_S_S1x512 (constant (F := Ideal) S_ .f32 0x48000000#32)))))
          (broadcastInDim S1x512 ![] bcast_S_S1x512 (constant (F := Ideal) S_ .f32 0x3727C5AC#32))) := by
    show StableHlo.after hostOps1 (W2 m ρ c) (Proc.devRef .tc main_v15) = _
    after_results
  rw [e, W2_stats]
  show Ideal.rsqrt (Ideal.div (extractStridedSlice S1x512 ![1, 0] (stats m ρ c) slices_S2x512_S1x512_1_0 (ix2 (0 : Fin 1) f)) ((broadcastInDim S1x512 ![] bcast_S_S1x512 (constant (F := Ideal) S_ .f32 0x48000000#32)) (ix2 (0 : Fin 1) f))
      - Ideal.div (extractStridedSlice S1x512 ![0, 0] (stats m ρ c) slices_S2x512_S1x512_0_0 (ix2 (0 : Fin 1) f)) ((broadcastInDim S1x512 ![] bcast_S_S1x512 (constant (F := Ideal) S_ .f32 0x48000000#32)) (ix2 (0 : Fin 1) f))
        * Ideal.div (extractStridedSlice S1x512 ![0, 0] (stats m ρ c) slices_S2x512_S1x512_0_0 (ix2 (0 : Fin 1) f)) ((broadcastInDim S1x512 ![] bcast_S_S1x512 (constant (F := Ideal) S_ .f32 0x48000000#32)) (ix2 (0 : Fin 1) f))
      + broadcastInDim S1x512 ![] bcast_S_S1x512 (constant (F := Ideal) S_ .f32 0x3727C5AC#32) (ix2 (0 : Fin 1) f)) = _
  rw [bcast_const_apply, bcast_const_apply,
    slice2_axis0_apply 0 (stats m ρ c) slices_S2x512_S1x512_0_0 (0 : Fin 1) f (0 : Fin 2) rfl,
    slice2_axis0_apply 1 (stats m ρ c) slices_S2x512_S1x512_1_0 (0 : Fin 1) f (1 : Fin 2) rfl]
  rfl

/-- A row laid out before the first region reaches the second region unchanged. -/
theorem V3_gamma (c : Dev nD) (f : Fin 512) :
    (V3 m ρ c main_v1 : FVec Ideal S1x512 .f32) (ix2 (0 : Fin 1) f) = (m ((c : Thread nD τ).loc main_arg4) : FVec Ideal S512 .f32) (ix1 f) := by
  have e : (V3 m ρ c main_v1 : FVec Ideal S1x512 .f32)
      = shapeCast S1x512 (m ((c : Thread nD τ).loc main_arg4) : FVec Ideal S512 .f32) shapeCasts_S512_S1x512 := by
    refine ((StableHlo.after_of_forall_not_mem (b := Proc.devRef .tc main_v1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans ((W2_of_ne m ρ c main_v1 (by decide)).trans ?_))
    show StableHlo.after hostOps0 (W0 m ρ c) (Proc.devRef .tc main_v1) = _
    after_results
    rfl
  rw [e]
  exact shapeCast_a_1a_apply _ _ _ _

theorem V3_beta (c : Dev nD) (f : Fin 512) :
    (V3 m ρ c main_v2 : FVec Ideal S1x512 .f32) (ix2 (0 : Fin 1) f) = (m ((c : Thread nD τ).loc main_arg5) : FVec Ideal S512 .f32) (ix1 f) := by
  have e : (V3 m ρ c main_v2 : FVec Ideal S1x512 .f32)
      = shapeCast S1x512 (m ((c : Thread nD τ).loc main_arg5) : FVec Ideal S512 .f32) shapeCasts_S512_S1x512 := by
    refine ((StableHlo.after_of_forall_not_mem (b := Proc.devRef .tc main_v2) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans ((W2_of_ne m ρ c main_v2 (by decide)).trans ?_))
    show StableHlo.after hostOps0 (W0 m ρ c) (Proc.devRef .tc main_v2) = _
    after_results
    rfl
  rw [e]
  exact shapeCast_a_1a_apply _ _ _ _

theorem V3_b2 (c : Dev nD) (o : Fin 256) :
    (V3 m ρ c main_v3 : FVec Ideal S1x256 .f32) (ix2 (0 : Fin 1) o) = (m ((c : Thread nD τ).loc main_arg7) : FVec Ideal S256 .f32) (ix1 o) := by
  have e : (V3 m ρ c main_v3 : FVec Ideal S1x256 .f32)
      = shapeCast S1x256 (m ((c : Thread nD τ).loc main_arg7) : FVec Ideal S256 .f32) shapeCasts_S256_S1x256 := by
    refine ((StableHlo.after_of_forall_not_mem (b := Proc.devRef .tc main_v3) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans ((W2_of_ne m ρ c main_v3 (by decide)).trans ?_))
    show StableHlo.after hostOps0 (W0 m ρ c) (Proc.devRef .tc main_v3) = _
    after_results
    rfl
  rw [e]
  exact shapeCast_a_1a_apply _ _ _ _

theorem V3_w2 (c : Dev nD) : V3 m ρ c main_arg6 = m ((c : Thread nD τ).loc main_arg6) :=
  (StableHlo.after_of_forall_not_mem (b := Proc.devRef .tc main_arg6) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans ((W2_of_ne m ρ c main_arg6 (by decide)).trans ((StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl))

end Cert.KernelIdeal.Host

end
-- ==== Proof.KBody0.lean ====
/-
  The first kernel's arithmetic, read at one entry. Its hidden block at angle t and feature f is the sum over the
  atom feature d of (the three named atoms' rows of the batch's z block, added) times W1, plus the bias: the
  one-hot rows (a word equal to the lane number gives 1, else 0), added and multiplied into z, pick exactly the
  three named rows when every word is below 256. The two statistics rows gain the column sum and the column sum
  of squares of the hidden block.
-/
import proofs.«415157_j83416854823432_1_alg».proof.Proof.Gen.KernelIdeal.Skeleton
import proofs.«415157_j83416854823432_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body0

open Cert.KernelIdeal Cert.KernelIdeal.Gen Idealize.ShloMosaic Idealize.ShloMosaic.ValueIdx

/-! ## Words: the one-hot entry -/

/-- A word below 256 is the 32-bit word of lane a exactly when a is the atom the word names. -/
theorem word_eq_iff (w : BitVec 32) (hw : w.toNat < 256) (a : Fin 256) :
    w = BitVec.ofNat 32 a.val ↔ a = Cert.Spec.atom w := by
  constructor
  · intro h
    apply Fin.ext
    show a.val = w.toNat % 256
    rw [h, BitVec.toNat_ofNat]
    have := a.isLt
    omega
  · intro h
    apply BitVec.eq_of_toNat_eq
    rw [BitVec.toNat_ofNat, h]
    show w.toNat = (w.toNat % 256) % 2 ^ 32
    omega

/-- The comparison bit of two words, widened to 32 bits and read as a signed integer at the extended reals,
    is 1 where the words are equal and 0 where they are not. -/
theorem onehot_word (w v : BitVec 32) :
    (FloatOps.sitofp (F := Ideal) .f32 ((IntOp.cmpi .eq w v).setWidth 32) : EReal) = if w = v then 1 else 0 := by
  show ((((IntOp.cmpi .eq w v).setWidth 32).toInt : ℝ) : EReal) = _
  by_cases h : w = v
  · have hb : IntOp.cmpi .eq w v = 1#1 := by simp [IntOp.cmpi, h]
    have h1 : ((1#1 : BitVec 1).setWidth 32).toInt = 1 := by decide
    rw [if_pos h, hb, h1]
    simp
  · have hb : IntOp.cmpi .eq w v = 0#1 := by
      show BitVec.ofBool (w == v) = 0#1
      rw [beq_eq_false_iff_ne.mpr h]
      rfl
    have h0 : ((0#1 : BitVec 1).setWidth 32).toInt = 0 := by decide
    rw [if_neg h, hb, h0]
    simp

/-! ## Layout: a column kept as [a, 1], spread over b lanes -/

/-- An [a, 1] column broadcast to [a, b] reads, at (p, c), the column at (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column o of the table block: cut out of the [2048, 3] view, flattened to [2048], restored to a [2048, 1] column and
    spread over the 256 lanes. -/
def col (tb : Vec Ideal S1x2048x3 .i32) (o : ℕ) (hs : S2048x3.Slices ![0, o] S2048x1) : IVec S2048x256 32 :=
  broadcastTo S2048x256 (shapeCast S2048x1 (shapeCast S2048 (extractStridedSlice S2048x1 ![0, o]
    (shapeCast S2048x3 tb shapeCasts_S1x2048x3_S2048x3) hs) shapeCasts_S2048x1_S2048) shapeCasts_S2048_S2048x1)
    broadcasts_S2048x1_S2048x256

/-- It reads, at (t, a), the table word (0, t, o). -/
theorem col_apply (tb : Vec Ideal S1x2048x3 .i32) (o : ℕ) (ho : o < 3) (hs : S2048x3.Slices ![0, o] S2048x1)
    (t : Fin 2048) (a : Fin 256) : col tb o hs (ix2 t a) = tb (ix3 (0 : Fin 1) t (⟨o, ho⟩ : Fin 3)) := by
  unfold col
  rw [broadcastTo_a1_ab_apply, shapeCast_shapeCast]
  refine (slice2_axis1_apply o _ hs t (0 : Fin 1) (⟨o, ho⟩ : Fin 3) rfl).trans ?_
  exact shapeCast_1ab_ab_apply tb _ t _

/-- The one-hot block of column o: 1 in the lane whose number the table word equals, else 0, as a bf16 block. -/
def hot (tb : Vec Ideal S1x2048x3 .i32) (o : ℕ) (hs : S2048x3.Slices ![0, o] S2048x1) : FVec Ideal S2048x256 .bf16 :=
  truncf .bf16 (sitofp (F := Ideal) .f32 (extui 32 (cmpi .eq (col tb o hs)
    (iota .tc S2048x256 32 [1] iota_S2048x256_d1_w32)) natLt_1_32)) bitsLt_bf16_f32

/-- With every table word below 256 it reads, at (t, a), 1 if a is the atom the word (0, t, o) names, else 0. -/
theorem hot_apply (tb : Vec Ideal S1x2048x3 .i32) (hidx : ∀ i, (tb i).toNat < 256) (o : ℕ) (ho : o < 3)
    (hs : S2048x3.Slices ![0, o] S2048x1) (t : Fin 2048) (a : Fin 256) :
    hot tb o hs (ix2 t a) = if a = Cert.Spec.atom (tb (ix3 (0 : Fin 1) t (⟨o, ho⟩ : Fin 3))) then 1 else 0 := by
  have hi : iota .tc S2048x256 32 [1] iota_S2048x256_d1_w32 (ix2 t a) = BitVec.ofNat 32 a.val :=
    iota_single_apply .tc S2048x256 32 1 iota_S2048x256_d1_w32 (ix2 t a)
  show FloatOps.sitofp (F := Ideal) .f32 ((IntOp.cmpi .eq (col tb o hs (ix2 t a))
    (iota .tc S2048x256 32 [1] iota_S2048x256_d1_w32 (ix2 t a))).setWidth 32) = _
  rw [hi, col_apply tb o ho hs t a, onehot_word]
  by_cases h : a = Cert.Spec.atom (tb (ix3 (0 : Fin 1) t (⟨o, ho⟩ : Fin 3)))
  · rw [if_pos h, if_pos ((word_eq_iff _ (hidx _) a).mpr h)]
  · rw [if_neg h, if_neg (fun h' => h ((word_eq_iff _ (hidx _) a).mp h'))]

/-! ## The mathematics of the pick -/

/-- A sum against an indicator of one index is the summand there. -/
theorem sum_pick (g : Fin 256 → EReal) (a₀ : Fin 256) :
    ∑ a : Fin 256, (if a = a₀ then (1 : EReal) else 0) * g a = g a₀ := by
  simp only [ite_mul, one_mul, zero_mul]
  rw [Finset.sum_ite_eq' Finset.univ a₀ g, if_pos (Finset.mem_univ _)]

/-- Three indicators, added and multiplied into g, pick the three summands: the indicators are 0 or 1, never negative,
    so the product distributes over their sum. -/
theorem sum_pick3 (g : Fin 256 → EReal) (a₀ a₁ a₂ : Fin 256) :
    ∑ a : Fin 256, ((if a = a₀ then (1 : EReal) else 0) + (if a = a₁ then 1 else 0) + (if a = a₂ then 1 else 0)) * g a
      = g a₀ + g a₁ + g a₂ := by
  have nn : ∀ (a b : Fin 256), (0 : EReal) ≤ if a = b then (1 : EReal) else 0 := fun a b => by
    split
    · exact zero_le_one
    · exact le_refl _
  have step : ∀ a : Fin 256,
      ((if a = a₀ then (1 : EReal) else 0) + (if a = a₁ then 1 else 0) + (if a = a₂ then 1 else 0)) * g a
        = (if a = a₀ then (1 : EReal) else 0) * g a + (if a = a₁ then (1 : EReal) else 0) * g a
          + (if a = a₂ then (1 : EReal) else 0) * g a := fun a => by
    rw [EReal.right_distrib_of_nonneg (add_nonneg (nn a a₀) (nn a a₁)) (nn a a₂),
      EReal.right_distrib_of_nonneg (nn a a₀) (nn a a₁)]
  rw [Finset.sum_congr rfl fun a _ => step a, Finset.sum_add_distrib, Finset.sum_add_distrib,
    sum_pick, sum_pick, sum_pick]

/-! ## The two products read at an index -/

/-- On the left operand's row axis the index is the result's row. -/
theorem lhs_z_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide),
    dif_pos (show (0 : Fin S2048x256.rank) ∈ dot_S2048x256_S256x256_S2048x256_1_0_0_1_n_n.lhsNonContracting by decide)]
  rfl
/-- On the left operand's column axis the index is the contraction's one coordinate. -/
theorem lhs_z_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
/-- On the right operand's row axis the index is the contraction's one coordinate. -/
theorem rhs_z_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
/-- On the right operand's column axis the index is the result's column. -/
theorem rhs_z_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide),
    dif_pos (show (1 : Fin S256x256.rank) ∈ dot_S2048x256_S256x256_S2048x256_1_0_0_1_n_n.rhsNonContracting by decide)]
  rfl

/-- The product into a zero accumulator, read at (p, q): the sum over the 256 contracted coordinates k of the left operand at
    (p, k) times the right operand at (k, q). -/
theorem matmul_z_apply (l : FVec Ideal S2048x256 .bf16) (r : FVec Ideal S256x256 .bf16) (p : Fin 2048) (q : Fin 256) :
    matmul (F := Ideal) dot_S2048x256_S256x256_S2048x256_1_0_0_1_n_n none l r (constant (F := Ideal) S2048x256 .f32 0x00000000#32) (ix2 p q)
      = ∑ k : Fin 256, l (ix2 p k) * r (ix2 k q) := by
  simp only [matmul]
  rw [Ideal.matmul_constant_zero_apply, ← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 p q) ((contrEquiv1 dot_S2048x256_S256x256_S2048x256_1_0_0_1_n_n 256 rfl rfl).symm k) = ix2 p k :=
    funext fun a => Fin.ext (by
      match a with
      | ⟨0, _⟩ => exact lhs_z_0 _ _
      | ⟨1, _⟩ => exact (lhs_z_1 _ _).trans hk)
  have er : dot_S2048x256_S256x256_S2048x256_1_0_0_1_n_n.rhsIdx (ix2 p q) ((contrEquiv1 dot_S2048x256_S256x256_S2048x256_1_0_0_1_n_n 256 rfl rfl).symm k) = ix2 k q :=
    funext fun a => Fin.ext (by
      match a with
      | ⟨0, _⟩ => exact (rhs_z_0 _ _).trans hk
      | ⟨1, _⟩ => exact rhs_z_1 _ _)
  rw [el, er]

/-- On the left operand's row axis the index is the result's row. -/
theorem lhs_w_0 (i : S2048x512.Idx) (q : dot_S2048x256_S256x512_S2048x512_1_0_0_1_n_n.contr.Idx) :
    (dot_S2048x256_S256x512_S2048x512_1_0_0_1_n_n.lhsIdx i q 0).val = (i 0).val := by
  unfold DotDims.lhsIdx
  rw [dif_neg (show ¬(0 : Fin S2048x256.rank) ∈ dot_S2048x256_S256x512_S2048x512_1_0_0_1_n_n.lhsBatch by decide),
    dif_pos (show (0 : Fin S2048x256.rank) ∈ dot_S2048x256_S256x512_S2048x512_1_0_0_1_n_n.lhsNonContracting by decide)]
  rfl
/-- On the left operand's column axis the index is the contraction's one coordinate. -/
theorem lhs_w_1 (i : S2048x512.Idx) (q : dot_S2048x256_S256x512_S2048x512_1_0_0_1_n_n.contr.Idx) :
    (dot_S2048x256_S256x512_S2048x512_1_0_0_1_n_n.lhsIdx i q 1).val = (q ⟨0, by decide⟩).val :=
  dot_S2048x256_S256x512_S2048x512_1_0_0_1_n_n.lhsIdx_val_of_single rfl i q
/-- On the right operand's row axis the index is the contraction's one coordinate. -/
theorem rhs_w_0 (i : S2048x512.Idx) (q : dot_S2048x256_S256x512_S2048x512_1_0_0_1_n_n.contr.Idx) :
    (dot_S2048x256_S256x512_S2048x512_1_0_0_1_n_n.rhsIdx i q 0).val = (q ⟨0, by decide⟩).val :=
  dot_S2048x256_S256x512_S2048x512_1_0_0_1_n_n.rhsIdx_val_of_single rfl i q
/-- On the right operand's column axis the index is the result's column. -/
theorem rhs_w_1 (i : S2048x512.Idx) (q : dot_S2048x256_S256x512_S2048x512_1_0_0_1_n_n.contr.Idx) :
    (dot_S2048x256_S256x512_S2048x512_1_0_0_1_n_n.rhsIdx i q 1).val = (i 1).val := by
  unfold DotDims.rhsIdx
  rw [dif_neg (show ¬(1 : Fin S256x512.rank) ∈ dot_S2048x256_S256x512_S2048x512_1_0_0_1_n_n.rhsBatch by decide),
    dif_pos (show (1 : Fin S256x512.rank) ∈ dot_S2048x256_S256x512_S2048x512_1_0_0_1_n_n.rhsNonContracting by decide)]
  rfl

/-- The product into a zero accumulator, read at (p, q): the sum over the 256 contracted coordinates k of the left operand at
    (p, k) times the right operand at (k, q). -/
theorem matmul_w_apply (l : FVec Ideal S2048x256 .bf16) (r : FVec Ideal S256x512 .bf16) (p : Fin 2048) (q : Fin 512) :
    matmul (F := Ideal) dot_S2048x256_S256x512_S2048x512_1_0_0_1_n_n none l r (constant (F := Ideal) S2048x512 .f32 0x00000000#32) (ix2 p q)
      = ∑ k : Fin 256, l (ix2 p k) * r (ix2 k q) := by
  simp only [matmul]
  rw [Ideal.matmul_constant_zero_apply, ← Equiv.sum_comp (contrEquiv1 dot_S2048x256_S256x512_S2048x512_1_0_0_1_n_n 256 rfl rfl).symm]
  refine Finset.sum_congr rfl fun k _ => ?_
  have hk := contrEquiv1_symm_val dot_S2048x256_S256x512_S2048x512_1_0_0_1_n_n 256 rfl rfl k
  have el : dot_S2048x256_S256x512_S2048x512_1_0_0_1_n_n.lhsIdx (ix2 p q) ((contrEquiv1 dot_S2048x256_S256x512_S2048x512_1_0_0_1_n_n 256 rfl rfl).symm k) = ix2 p k :=
    funext fun a => Fin.ext (by
      match a with
      | ⟨0, _⟩ => exact lhs_w_0 _ _
      | ⟨1, _⟩ => exact (lhs_w_1 _ _).trans hk)
  have er : dot_S2048x256_S256x512_S2048x512_1_0_0_1_n_n.rhsIdx (ix2 p q) ((contrEquiv1 dot_S2048x256_S256x512_S2048x512_1_0_0_1_n_n 256 rfl rfl).symm k) = ix2 k q :=
    funext fun a => Fin.ext (by
      match a with
      | ⟨0, _⟩ => exact (rhs_w_0 _ _).trans hk
      | ⟨1, _⟩ => exact rhs_w_1 _ _)
  rw [el, er]

/-! ## The hidden block -/

/-- The payload as its two products over the named blocks, plus the bias row spread over the rows. -/
theorem pay4_eq (tb : Vec Ideal S1x2048x3 .i32) (zb : Vec Ideal S1x256x256 .f32) (w1 : Vec Ideal S256x512 .f32)
    (bb : Vec Ideal S1x512 .f32) :
    k0_pay4 (F := Ideal) tb zb w1 bb
      = addf (matmul (F := Ideal) dot_S2048x256_S256x512_S2048x512_1_0_0_1_n_n none
            (truncf .bf16 (matmul (F := Ideal) dot_S2048x256_S256x256_S2048x256_1_0_0_1_n_n none
              (addf (addf (hot tb 0 slices_S2048x3_o0_0_S2048x1) (hot tb 1 slices_S2048x3_o0_1_S2048x1))
                (hot tb 2 slices_S2048x3_o0_2_S2048x1))
              (truncf .bf16 (shapeCast S256x256 zb shapeCasts_S1x256x256_S256x256) bitsLt_bf16_f32)
              (constant (F := Ideal) S2048x256 .f32 0x00000000#32)) bitsLt_bf16_f32)
            (truncf .bf16 w1 bitsLt_bf16_f32)
            (constant (F := Ideal) S2048x512 .f32 0x00000000#32))
          (broadcastTo S2048x512 (shapeCast S1x512 bb shapeCasts_S1x512_S1x512) broadcasts_S1x512_S2048x512) := rfl

/-- The hidden block at (t, f), the table block's words all below 256. -/
theorem pay4_apply (tb : Vec Ideal S1x2048x3 .i32) (zb : Vec Ideal S1x256x256 .f32) (w1 : Vec Ideal S256x512 .f32)
    (bb : Vec Ideal S1x512 .f32) (hidx : ∀ i, (tb i).toNat < 256) (t : Fin 2048) (f : Fin 512) :
    k0_pay4 (F := Ideal) tb zb w1 bb (ix2 t f)
      = (∑ d : Fin 256, (zb (ix3 (0 : Fin 1) (Cert.Spec.atom (tb (ix3 (0 : Fin 1) t (0 : Fin 3)))) d)
            + zb (ix3 (0 : Fin 1) (Cert.Spec.atom (tb (ix3 (0 : Fin 1) t (1 : Fin 3)))) d)
            + zb (ix3 (0 : Fin 1) (Cert.Spec.atom (tb (ix3 (0 : Fin 1) t (2 : Fin 3)))) d)) * w1 (ix2 d f))
        + bb (ix2 (0 : Fin 1) f) := by
  rw [pay4_eq, addf_apply, broadcastTo_1b_ab_apply, shapeCast_self, matmul_w_apply]
  refine congrArg (fun x => x + bb (ix2 (0 : Fin 1) f)) ?_
  refine Finset.sum_congr rfl fun d _ => ?_
  rw [truncf_apply, truncf_apply, matmul_z_apply]
  refine congrArg (fun x => x * w1 (ix2 d f)) ?_
  have step : ∀ a : Fin 256,
      (addf (addf (hot tb 0 slices_S2048x3_o0_0_S2048x1) (hot tb 1 slices_S2048x3_o0_1_S2048x1))
          (hot tb 2 slices_S2048x3_o0_2_S2048x1)) (ix2 t a)
        * (truncf .bf16 (shapeCast S256x256 zb shapeCasts_S1x256x256_S256x256) bitsLt_bf16_f32
            : FVec Ideal S256x256 .bf16) (ix2 a d)
      = ((if a = Cert.Spec.atom (tb (ix3 (0 : Fin 1) t (0 : Fin 3))) then (1 : EReal) else 0)
          + (if a = Cert.Spec.atom (tb (ix3 (0 : Fin 1) t (1 : Fin 3))) then 1 else 0)
          + (if a = Cert.Spec.atom (tb (ix3 (0 : Fin 1) t (2 : Fin 3))) then 1 else 0)) * zb (ix3 (0 : Fin 1) a d) :=
    fun a => by
      rw [addf_apply, addf_apply, truncf_apply, shapeCast_1ab_ab_apply, hot_apply tb hidx 0 (by decide),
        hot_apply tb hidx 1 (by decide), hot_apply tb hidx 2 (by decide)]
      rfl
  refine (Finset.sum_congr rfl fun a _ => step a).trans ?_
  exact sum_pick3 (fun a => zb (ix3 (0 : Fin 1) a d)) _ _ _

/-! ## The two statistics rows and the reset block -/

/-- Over the rows of a [2048, 512] block, the index above column f with row t inserted is (t, f). -/
theorem lift_rows (h : S2048x512.Reduces [0] S512) (f : Fin 512) (t : Fin 2048) :
    h.lift (ix1 f) t = ix2 t f := by
  funext c
  match c with
  | ⟨0, _⟩ => rfl
  | ⟨1, _⟩ => rfl

/-- The sum over the rows, kept as a [1, 512] row, reads at (0, f) the sum over t of the block at (t, f). -/
theorem colsum_apply (v : FVec Ideal S2048x512 .f32) (h : S2048x512.Reduces [0] S512) (hφ : FKind.Formats .f32)
    (hacc : (0x00000000#32 : BitVec 32) = 0x00000000#32) (hc : S512.ShapeCasts S1x512) (f : Fin 512) :
    shapeCast S1x512 (multiReduction (F := Ideal) .add [0] S512 v 0x00000000#32 h hφ hacc) hc (ix2 (0 : Fin 1) f)
      = ∑ t : Fin 2048, v (ix2 t f) := by
  refine (shapeCast_a_1a_apply _ hc (0 : Fin 1) f).trans ?_
  refine (Ideal.multiReduction_add_single v 0x00000000#32 h hφ hacc (ix1 f)).trans ?_
  exact Finset.sum_congr rfl fun t _ => congrArg v (lift_rows h f t)

/-- The sums row gains the column sum of the hidden block. -/
theorem pay1_apply (v43 : FVec Ideal S2048x512 .f32) (v50 : Vec Ideal S1x512 .f32) (f : Fin 512) :
    k0_pay1 (F := Ideal) v43 v50 (ix2 (0 : Fin 1) f) = v50 (ix2 (0 : Fin 1) f) + ∑ t : Fin 2048, v43 (ix2 t f) := by
  unfold k0_pay1
  rw [addf_apply, shapeCast_self, colsum_apply]

/-- The squares row gains the column sum of squares of the hidden block. -/
theorem pay2_apply (v43 : FVec Ideal S2048x512 .f32) (v54 : Vec Ideal S1x512 .f32) (f : Fin 512) :
    k0_pay2 (F := Ideal) v43 v54 (ix2 (0 : Fin 1) f) = v54 (ix2 (0 : Fin 1) f) + ∑ t : Fin 2048, v43 (ix2 t f) * v43 (ix2 t f) := by
  unfold k0_pay2
  rw [addf_apply, shapeCast_self, colsum_apply]
  rfl

/-- The reset block is zero everywhere. -/
theorem pay3_apply (j : S2x512.Idx) : k0_pay3 (F := Ideal) j = 0 := by
  unfold k0_pay3
  exact Ideal.ofBits_zero_f32

end Cert.KernelIdeal.Body0

end
-- ==== Proof.KCase0.lean ====
/-
  What the first kernel's body leaves in its two output buffers, case by case. In both cases the hidden block's
  buffer holds the body's hidden block. At the first grid point the statistics buffer is reset to zero and then
  holds the column sums and the column sums of squares of that block; at every later point each row gains them
  over what the point before left.
-/
import proofs.«415157_j83416854823432_1_alg».proof.Proof.Gen.KernelIdeal.Frame
import proofs.«415157_j83416854823432_1_alg».proof.Proof.KBody0
import Idealize.ShloMosaic.Lib.Pipeline.Value
import Idealize.ShloMosaic.Lib.Tactic

noncomputable section

open scoped BigOperators

open Idealize.ShloMosaic Idealize.ShloMosaic.TcCoe Idealize.SL.Sem

namespace Cert.KernelIdeal.Case0

open Cert.KernelIdeal Cert.KernelIdeal.Gen Idealize.ShloMosaic.ValueIdx

/-- The zero offsets of a rank-two block, as the constant function. -/
theorem hz2 : (![0, 0] : Fin 2 → Nat) = fun _ => 0 := funext fun a => by fin_cases a <;> rfl

/-- The zero offsets of a rank-three block, as the constant function. -/
theorem hz3 : (![0, 0, 0] : Fin 3 → Nat) = fun _ => 0 := funext fun a => by fin_cases a <;> rfl

section Rows

variable {Val : EltTy → Type} [∀ e, Nonempty (Val e)] {e : EltTy}

/-- Column f of the one-row block placed at row r of a two-row array is the array's entry (r, f). -/
theorem row_idx (o : Nat) (r : Fin 2) (ho : o = r.val)
    (inb : ∀ a, (![o, 0] : Fin 2 → Nat) a + (![1, 512] : Fin 2 → Nat) a ≤ S2x512.size a) (f : Fin 512) :
    (Rect.unit (s := S2x512) ![o, 0] ![1, 512] inb).idx (ix2 (0 : Fin 1) f) = ix2 r f := by
  subst ho
  funext x; apply Fin.ext
  fin_cases x
  · show r.val + 1 * 0 = r.val; omega
  · show 0 + 1 * f.val = f.val; omega

/-- A row stored last is what the array holds on that row. -/
theorem canon_row_hit (o : Nat) (r : Fin 2) (ho : o = r.val)
    (inb : ∀ a, (![o, 0] : Fin 2 → Nat) a + (![1, 512] : Fin 2 → Nat) a ≤ S2x512.size a)
    (w : (Rect.unit (s := S2x512) ![o, 0] ![1, 512] inb).shape.Idx → Val e) (L : List (View.Piece Val S2x512 e)) (f : Fin 512) :
    View.canon (⟨Rect.unit (s := S2x512) ![o, 0] ![1, 512] inb, w⟩ :: L) (ix2 r f) = w (ix2 (0 : Fin 1) f) :=
  (congrArg (View.canon _) (row_idx o r ho inb f).symm).trans
    (View.canon_cons_emb (Rect.unit (s := S2x512) ![o, 0] ![1, 512] inb) w L (ix2 (0 : Fin 1) f))

/-- A row stored last leaves the other row as the earlier stores left it. -/
theorem canon_row_miss (o : Nat) (r : Fin 2) (ho : o ≠ r.val)
    (inb : ∀ a, (![o, 0] : Fin 2 → Nat) a + (![1, 512] : Fin 2 → Nat) a ≤ S2x512.size a)
    (w : (Rect.unit (s := S2x512) ![o, 0] ![1, 512] inb).shape.Idx → Val e) (L : List (View.Piece Val S2x512 e)) (f : Fin 512) :
    View.canon (⟨Rect.unit (s := S2x512) ![o, 0] ![1, 512] inb, w⟩ :: L) (ix2 r f) = View.canon L (ix2 r f) := by
  refine View.canon_cons_of_not_mem _ L ?_
  intro h
  have h' : ix2 r f ∈ (Rect.unit (s := S2x512) ![o, 0] ![1, 512] inb).set := h
  have h0 := (Rect.mem_set_unit.mp h') 0
  change o ≤ r.val ∧ r.val < o + 1 at h0
  omega

/-- A load of row r reads, at column f, the array's entry (r, f). -/
theorem ld_row (o : Nat) (r : Fin 2) (ho : o = r.val)
    (inb : ∀ a, (![o, 0] : Fin 2 → Nat) a + (![1, 512] : Fin 2 → Nat) a ≤ S2x512.size a)
    (X : S2x512.Idx → Val e) (f : Fin 512) :
    View.ld X (Rect.unit (s := S2x512) ![o, 0] ![1, 512] inb) (ix2 (0 : Fin 1) f) = X (ix2 r f) :=
  congrArg X (row_idx o r ho inb f)

/-- A load of row r after stores reads, at column f, what the stores left at (r, f). -/
theorem readCov_row {sig : RefSig} {κ : Kind} {sp : Space} (v : View sig κ sp S2x512 e) (L : List (View.Piece Val S2x512 e))
    (o : Nat) (r : Fin 2) (ho : o = r.val)
    (inb : ∀ a, (![o, 0] : Fin 2 → Nat) a + (![1, 512] : Fin 2 → Nat) a ≤ S2x512.size a) (f : Fin 512) :
    v.readCov L (Rect.unit (s := S2x512) ![o, 0] ![1, 512] inb).toLoadRect (ix2 (0 : Fin 1) f) = View.canon L (ix2 r f) := by
  rw [View.readCov_eq_canon']
  exact congrArg (View.canon L) (row_idx o r ho inb f)

end Rows

/-- Adding to zero. -/
theorem add_of_eq_zero {a s : Ideal .f32} (h : a = 0) : a + s = s := by rw [h, zero_add]

/-- The first point leaves the hidden block in output 4's buffer. -/
theorem outA4 (c : Dev nD) (i : grid0.Coords) (a1 : Memref sig .tc .vmem S1x2048x3 .i32) (h1 : a1.IsWhole) (a2 : Memref sig .tc .vmem S1x256x256 .f32) (h2 : a2.IsWhole) (a3 : Memref sig .tc .vmem S256x512 .f32) (h3 : a3.IsWhole) (a4 : Memref sig .tc .vmem S1x512 .f32) (h4 : a4.IsWhole) (a5 : Memref sig .tc .vmem S2048x512 .f32) (h5 : a5.IsWhole) (a6 : Memref sig .tc .vmem S2x512 .f32) (h6 : a6.IsWhole) (hc : cond0_0 i) (x0 : Vec Ideal S1x2048x3 .i32) (x1 : Vec Ideal S1x256x256 .f32) (x2 : Vec Ideal S256x512 .f32) (x3 : Vec Ideal S1x512 .f32) :
    out0_A_4 (F := Ideal) c i a1 h1 a2 h2 a3 h3 a4 h4 a5 h5 a6 h6 hc x0 x1 x2 x3 = k0_pay4 x0 x1 x2 x3 := by
  unfold out0_A_4
  rw [View.read_writes_eq_canon _ _ _ (cover0_A_4 c i a1 h1 a2 h2 a3 h3 a4 h4 a5 h5 a6 h6 hc x0 x1 x2 x3)]
  unfold kernelRun0_A
  dsimp only
  sl_unfold_words
  rw [View.canon_unit_zero hz2]
  simp only [View.readAt_eq_ld, h1.read_unread, h2.read_unread, h3.read_unread, h4.read_unread,
    View.ld_unit_zero (S := S1x2048x3) hz3, View.ld_unit_zero (S := S1x256x256) hz3,
    View.ld_unit_zero (S := S256x512) hz2, View.ld_unit_zero (S := S1x512) hz2]

/-- A later point leaves the hidden block in output 4's buffer. -/
theorem outB4 (c : Dev nD) (i : grid0.Coords) (a1 : Memref sig .tc .vmem S1x2048x3 .i32) (h1 : a1.IsWhole) (a2 : Memref sig .tc .vmem S1x256x256 .f32) (h2 : a2.IsWhole) (a3 : Memref sig .tc .vmem S256x512 .f32) (h3 : a3.IsWhole) (a4 : Memref sig .tc .vmem S1x512 .f32) (h4 : a4.IsWhole) (a5 : Memref sig .tc .vmem S2048x512 .f32) (h5 : a5.IsWhole) (a6 : Memref sig .tc .vmem S2x512 .f32) (h6 : a6.IsWhole) (hc : ¬cond0_0 i) (x0 : Vec Ideal S1x2048x3 .i32) (x1 : Vec Ideal S1x256x256 .f32) (x2 : Vec Ideal S256x512 .f32) (x3 : Vec Ideal S1x512 .f32) (xo5 : Vec Ideal S2x512 .f32) :
    out0_B_4 (F := Ideal) c i a1 h1 a2 h2 a3 h3 a4 h4 a5 h5 a6 h6 hc x0 x1 x2 x3 xo5 = k0_pay4 x0 x1 x2 x3 := by
  unfold out0_B_4
  rw [View.read_writes_eq_canon _ _ _ (cover0_B_4 c i a1 h1 a2 h2 a3 h3 a4 h4 a5 h5 a6 h6 hc x0 x1 x2 x3 xo5)]
  unfold kernelRun0_B
  dsimp only
  sl_unfold_words
  rw [View.canon_unit_zero hz2]
  simp only [View.readAt_eq_ld, h1.read_unread, h2.read_unread, h3.read_unread, h4.read_unread,
    View.ld_unit_zero (S := S1x2048x3) hz3, View.ld_unit_zero (S := S1x256x256) hz3,
    View.ld_unit_zero (S := S256x512) hz2, View.ld_unit_zero (S := S1x512) hz2]

/-- The first point leaves, in the statistics buffer, the block's column sums in row 0 and column sums of squares in row 1. -/
theorem outA5 (c : Dev nD) (i : grid0.Coords) (a1 : Memref sig .tc .vmem S1x2048x3 .i32) (h1 : a1.IsWhole) (a2 : Memref sig .tc .vmem S1x256x256 .f32) (h2 : a2.IsWhole) (a3 : Memref sig .tc .vmem S256x512 .f32) (h3 : a3.IsWhole) (a4 : Memref sig .tc .vmem S1x512 .f32) (h4 : a4.IsWhole) (a5 : Memref sig .tc .vmem S2048x512 .f32) (h5 : a5.IsWhole) (a6 : Memref sig .tc .vmem S2x512 .f32) (h6 : a6.IsWhole) (hc : cond0_0 i) (x0 : Vec Ideal S1x2048x3 .i32) (x1 : Vec Ideal S1x256x256 .f32) (x2 : Vec Ideal S256x512 .f32) (x3 : Vec Ideal S1x512 .f32) (f : Fin 512) :
    out0_A_5 (F := Ideal) c i a1 h1 a2 h2 a3 h3 a4 h4 a5 h5 a6 h6 hc x0 x1 x2 x3 (ix2 (0 : Fin 2) f) = ∑ t : Fin 2048, k0_pay4 (F := Ideal) x0 x1 x2 x3 (ix2 t f)
    ∧ out0_A_5 (F := Ideal) c i a1 h1 a2 h2 a3 h3 a4 h4 a5 h5 a6 h6 hc x0 x1 x2 x3 (ix2 (1 : Fin 2) f)
        = ∑ t : Fin 2048, k0_pay4 (F := Ideal) x0 x1 x2 x3 (ix2 t f) * k0_pay4 (F := Ideal) x0 x1 x2 x3 (ix2 t f) := by
  unfold out0_A_5
  rw [View.read_writes_eq_canon _ _ _ (cover0_A_5 c i a1 h1 a2 h2 a3 h3 a4 h4 a5 h5 a6 h6 hc x0 x1 x2 x3)]
  unfold kernelRun0_A
  dsimp only
  sl_unfold_words
  simp only [View.readAt_eq_ld, h1.read_unread, h2.read_unread, h3.read_unread, h4.read_unread,
    View.ld_unit_zero (S := S1x2048x3) hz3, View.ld_unit_zero (S := S1x256x256) hz3,
    View.ld_unit_zero (S := S256x512) hz2, View.ld_unit_zero (S := S1x512) hz2]
  constructor
  · refine (canon_row_miss 1 (0 : Fin 2) (by decide) _ _ _ f).trans ?_
    refine (canon_row_hit 0 (0 : Fin 2) rfl _ _ _ f).trans ?_
    refine (Body0.pay1_apply _ _ f).trans ?_
    refine add_of_eq_zero ?_
    refine (readCov_row _ _ 0 (0 : Fin 2) rfl _ f).trans ?_
    refine (congrFun (View.canon_unit_zero hz2 _ _) (ix2 (0 : Fin 2) f)).trans ?_
    exact Body0.pay3_apply _
  · refine (canon_row_hit 1 (1 : Fin 2) rfl _ _ _ f).trans ?_
    refine (Body0.pay2_apply _ _ f).trans ?_
    refine add_of_eq_zero ?_
    refine (readCov_row _ _ 1 (1 : Fin 2) rfl _ f).trans ?_
    refine (canon_row_miss 0 (1 : Fin 2) (by decide) _ _ _ f).trans ?_
    refine (congrFun (View.canon_unit_zero hz2 _ _) (ix2 (1 : Fin 2) f)).trans ?_
    exact Body0.pay3_apply _

/-- A later point adds them to what the buffer held. -/
theorem outB5 (c : Dev nD) (i : grid0.Coords) (a1 : Memref sig .tc .vmem S1x2048x3 .i32) (h1 : a1.IsWhole) (a2 : Memref sig .tc .vmem S1x256x256 .f32) (h2 : a2.IsWhole) (a3 : Memref sig .tc .vmem S256x512 .f32) (h3 : a3.IsWhole) (a4 : Memref sig .tc .vmem S1x512 .f32) (h4 : a4.IsWhole) (a5 : Memref sig .tc .vmem S2048x512 .f32) (h5 : a5.IsWhole) (a6 : Memref sig .tc .vmem S2x512 .f32) (h6 : a6.IsWhole) (hc : ¬cond0_0 i) (x0 : Vec Ideal S1x2048x3 .i32) (x1 : Vec Ideal S1x256x256 .f32) (x2 : Vec Ideal S256x512 .f32) (x3 : Vec Ideal S1x512 .f32) (xo5 : Vec Ideal S2x512 .f32) (f : Fin 512) :
    out0_B_5 (F := Ideal) c i a1 h1 a2 h2 a3 h3 a4 h4 a5 h5 a6 h6 hc x0 x1 x2 x3 xo5 (ix2 (0 : Fin 2) f)
        = xo5 (ix2 (0 : Fin 2) f) + ∑ t : Fin 2048, k0_pay4 (F := Ideal) x0 x1 x2 x3 (ix2 t f)
    ∧ out0_B_5 (F := Ideal) c i a1 h1 a2 h2 a3 h3 a4 h4 a5 h5 a6 h6 hc x0 x1 x2 x3 xo5 (ix2 (1 : Fin 2) f)
        = xo5 (ix2 (1 : Fin 2) f) + ∑ t : Fin 2048, k0_pay4 (F := Ideal) x0 x1 x2 x3 (ix2 t f) * k0_pay4 (F := Ideal) x0 x1 x2 x3 (ix2 t f) := by
  unfold out0_B_5
  rw [View.read_writes_eq_canon _ _ _ (cover0_B_5 c i a1 h1 a2 h2 a3 h3 a4 h4 a5 h5 a6 h6 hc x0 x1 x2 x3 xo5)]
  unfold kernelRun0_B
  dsimp only
  sl_unfold_words
  simp only [View.readAt_eq_ld, h1.read_unread, h2.read_unread, h3.read_unread, h4.read_unread, h6.read_unread,
    View.ld_unit_zero (S := S1x2048x3) hz3, View.ld_unit_zero (S := S1x256x256) hz3,
    View.ld_unit_zero (S := S256x512) hz2, View.ld_unit_zero (S := S1x512) hz2]
  constructor
  · refine (canon_row_miss 1 (0 : Fin 2) (by decide) _ _ _ f).trans ?_
    refine (canon_row_hit 0 (0 : Fin 2) rfl _ _ _ f).trans ?_
    refine (Body0.pay1_apply _ _ f).trans ?_
    exact congrArg (fun z => z + _) (ld_row 0 (0 : Fin 2) rfl _ xo5 f)
  · refine (canon_row_hit 1 (1 : Fin 2) rfl _ _ _ f).trans ?_
    refine (Body0.pay2_apply _ _ f).trans ?_
    exact congrArg (fun z => z + _) (ld_row 1 (1 : Fin 2) rfl _ xo5 f)

end Cert.KernelIdeal.Case0

end
-- ==== Proof.KReg0.lean ====
/-
  What the first region leaves in its two output arrays, for any contents V it is entered at whose atom table has
  every word below 256. The hidden array's block b is the hidden block of batch b, so its entry at row
  r = 2048·b + t and feature f is the first layer of the specification read off V's arrays. The statistics array is
  written back once, after the last point, holding the running column sums over all 64 blocks: all 131072 rows.
-/
import proofs.«415157_j83416854823432_1_alg».proof.Proof.Gen.KernelIdeal.Frame
import proofs.«415157_j83416854823432_1_alg».proof.Proof.KCase0
import proofs.«415157_j83416854823432_1_alg».proof.Proof.Spec
import Idealize.ShloMosaic.Lib.Pipeline.Value
import Idealize.ShloMosaic.Lib.Tactic

noncomputable section

open scoped BigOperators

open Idealize.ShloMosaic Idealize.ShloMosaic.TcCoe Idealize.SL.Sem
open Idealize.ShloMosaic.Pipeline (Dat)

namespace Cert.KernelIdeal.Reg0

open Cert.KernelIdeal Cert.KernelIdeal.Gen Idealize.ShloMosaic.ValueIdx

variable (V : (c : Dev nD) → (b : Ref sig .tc) → Buf (Elt Ideal) ((c : Thread nD τ).loc b))

/-- The arrays the region reads, at their literal types. -/
abbrev tblA (c : Dev nD) : IVec S64x2048x3 32 := V c main_arg1
abbrev zA (c : Dev nD) : FVec Ideal S64x256x256 .f32 := V c main_arg0
abbrev w1A (c : Dev nD) : FVec Ideal S256x512 .f32 := V c main_arg2
abbrev b1A (c : Dev nD) : FVec Ideal S1x512 .f32 := V c main_v0

/-- The first layer at row r, feature f, read off the arrays the region is entered at. -/
def hOf (c : Dev nD) (r : Fin 131072) (f : Fin 512) : EReal :=
  (∑ d : Fin 256, Cert.Spec.X (zA V c) (tblA V c) (Cert.Spec.rowB r) (Cert.Spec.rowT r) d * w1A V c (ix2 d f))
    + b1A V c (ix2 (0 : Fin 1) f)

/-! ## The index maps, decided once over the grid -/

/-- The block index of every window at every point: the table, z, the hidden array move with the point along their
    first axis; the weights, the bias and the statistics stay at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0 :=
  (by decide +kernel : ∀ t : Fin grid0.N, _)

/-- The point as a batch. -/
abbrev ptB (t : Fin cfg0.N) : Fin 64 := ⟨t.val, lt_of_lt_of_eq t.isLt N_0⟩

/-! ## The input blocks, read off the arrays -/

/-- The table's block at point t is batch t of the table. -/
theorem tbl_blk (c : Dev nD) (t : Fin cfg0.N) (s : Fin 2048) (k : Fin 3) :
    (iblk0 V c 0 t : Vec Ideal S1x2048x3 .i32) (ix3 (0 : Fin 1) s k) = tblA V c (ix3 (ptB t) s k) := by
  obtain ⟨e0, e1, e2, -⟩ := idx_facts t
  unfold iblk0
  rw [View.read_apply]
  show V c main_arg1 _ = V c main_arg1 _
  congr 1
  funext a
  apply Fin.ext
  match a with
  | ⟨0, _⟩ => show win0_0.index t (0 : Fin 3) * 1 + 1 * 0 = t.val; omega
  | ⟨1, _⟩ => show win0_0.index t (1 : Fin 3) * 2048 + 1 * s.val = s.val; omega
  | ⟨2, _⟩ => show win0_0.index t (2 : Fin 3) * 3 + 1 * k.val = k.val; omega

/-- z's block at point t is batch t of z. -/
theorem z_blk (c : Dev nD) (t : Fin cfg0.N) (a : Fin 256) (d : Fin 256) :
    (iblk0 V c 1 t : Vec Ideal S1x256x256 .f32) (ix3 (0 : Fin 1) a d) = zA V c (ix3 (ptB t) a d) := by
  obtain ⟨-, -, -, e0, e1, e2, -⟩ := idx_facts t
  unfold iblk0
  rw [View.read_apply]
  show V c main_arg0 _ = V c main_arg0 _
  congr 1
  funext x
  apply Fin.ext
  match x with
  | ⟨0, _⟩ => show win0_1.index t (0 : Fin 3) * 1 + 1 * 0 = t.val; omega
  | ⟨1, _⟩ => show win0_1.index t (1 : Fin 3) * 256 + 1 * a.val = a.val; omega
  | ⟨2, _⟩ => show win0_1.index t (2 : Fin 3) * 256 + 1 * d.val = d.val; omega

/-- The weights' block is the whole weight array at every point. -/
theorem w1_blk (c : Dev nD) (t : Fin cfg0.N) : (iblk0 V c 2 t : Vec Ideal S256x512 .f32) = w1A V c := by
  obtain ⟨-, -, -, -, -, -, e0, e1, -⟩ := idx_facts t
  funext j
  unfold iblk0
  rw [View.read_apply]
  show V c main_arg2 _ = V c main_arg2 _
  congr 1
  funext x
  apply Fin.ext
  match x with
  | ⟨0, _⟩ => show win0_2.index t (0 : Fin 2) * 256 + 1 * (j 0).val = (j 0).val; omega
  | ⟨1, _⟩ => show win0_2.index t (1 : Fin 2) * 512 + 1 * (j 1).val = (j 1).val; omega

/-- The bias's block is the whole bias at every point. -/
theorem b1_blk (c : Dev nD) (t : Fin cfg0.N) : (iblk0 V c 3 t : Vec Ideal S1x512 .f32) = b1A V c := by
  obtain ⟨-, -, -, -, -, -, -, -, e0, e1, -⟩ := idx_facts t
  funext j
  unfold iblk0
  rw [View.read_apply]
  show V c main_v0 _ = V c main_v0 _
  congr 1
  funext x
  apply Fin.ext
  match x with
  | ⟨0, _⟩ => show win0_3.index t (0 : Fin 2) * 1 + 1 * (j 0).val = (j 0).val; omega
  | ⟨1, _⟩ => show win0_3.index t (1 : Fin 2) * 512 + 1 * (j 1).val = (j 1).val; omega

/-! ## The hidden block of a point -/

/-- The hidden block the body computes at point t, from the point's four input blocks. -/
abbrev hblk (c : Dev nD) (t : Fin cfg0.N) : Vec Ideal S2048x512 .f32 :=
  k0_pay4 (F := Ideal) (iblk0 V c 0 t) (iblk0 V c 1 t) (iblk0 V c 2 t) (iblk0 V c 3 t)

/-- Row 2048·t + s is angle s of batch t. -/
theorem rowB_of (t : Fin cfg0.N) (s : Fin 2048) (r : Fin 131072) (hr : r.val = 2048 * t.val + s.val) :
    Cert.Spec.rowB r = ptB t := by
  apply Fin.ext
  show r.val / 2048 = t.val
  have := s.isLt
  omega

theorem rowT_of (t : Fin cfg0.N) (s : Fin 2048) (r : Fin 131072) (hr : r.val = 2048 * t.val + s.val) :
    Cert.Spec.rowT r = s := by
  apply Fin.ext
  show r.val % 2048 = s.val
  have := s.isLt
  omega

/-- Entry (s, f) of point t's hidden block is the first layer at row 2048·t + s, feature f. -/
theorem hblk_apply (c : Dev nD) (hidx : ∀ i, (tblA V c i).toNat < 256) (t : Fin cfg0.N) (s : Fin 2048) (f : Fin 512)
    (r : Fin 131072) (hr : r.val = 2048 * t.val + s.val) (f' : Fin 512) (hf : f'.val = f.val) :
    hblk V c t (ix2 s f) = hOf V c r f' := by
  obtain rfl : f' = f := Fin.ext hf
  refine (Cert.KernelIdeal.Body0.pay4_apply (iblk0 V c 0 t) (iblk0 V c 1 t) (iblk0 V c 2 t) (iblk0 V c 3 t)
    (fun i => hidx (((cfg0.win 0).blk t).view.emb i)) s f').trans ?_
  unfold hOf Cert.Spec.X
  rw [rowB_of t s r hr, rowT_of t s r hr, w1_blk, b1_blk]
  refine congrArg (fun x => x + b1A V c (ix2 (0 : Fin 1) f')) (Finset.sum_congr rfl fun d _ => ?_)
  rw [tbl_blk, tbl_blk, tbl_blk, z_blk, z_blk, z_blk]

/-! ## The hidden array -/

/-- After the body at any point, the hidden output's buffer holds the point's hidden block. -/
theorem out4_eq (c : Dev nD) (t : Fin cfg0.N) : (outsAt0 V c t.val t.isLt).1 = hblk V c t := by
  by_cases h0 : t.val % 64 = 0
  · rw [outsAt0_A V c t h0]
    dsimp only
    exact Cert.KernelIdeal.Case0.outA4 c (grid0.coords t) (ms0_0 t) (hs0_0 t) (ms0_1 t) (hs0_1 t) (ms0_2 t) (hs0_2 t)
      (ms0_3 t) (hs0_3 t) (ms0_4 t) (hs0_4 t) (ms0_5 t) (hs0_5 t) ((hcond0_0 t).mpr h0)
      (iblk0 V c 0 t) (iblk0 V c 1 t) (iblk0 V c 2 t) (iblk0 V c 3 t)
  · rw [outsAt0_B V c t h0]
    dsimp only
    exact Cert.KernelIdeal.Case0.outB4 c (grid0.coords t) (ms0_0 t) (hs0_0 t) (ms0_1 t) (hs0_1 t) (ms0_2 t) (hs0_2 t)
      (ms0_3 t) (hs0_3 t) (ms0_4 t) (hs0_4 t) (ms0_5 t) (hs0_5 t) (fun h => h0 ((hcond0_0 t).mp h))
      (iblk0 V c 0 t) (iblk0 V c 1 t) (iblk0 V c 2 t) (iblk0 V c 3 t)
      (outsAt0 V c (t.val - 1) (Nat.lt_of_le_of_lt (Nat.sub_le _ _) t.isLt)).2

/-- The first layer as one array of rows and features. -/
abbrev hArr (c : Dev nD) : FVec Ideal S131072x512 .f32 := fun i => hOf V c (i 0) (i 1)

/-- What point t writes back to the hidden array is block t of the first layer. -/
theorem flushed4_eq (c : Dev nD) (hidx : ∀ i, (tblA V c i).toNat < 256) (t : Fin cfg0.N) :
    (dat0 V c).flushed 4 t = ((cfg0.win 4).blk t).view.read (Elt Ideal) (hArr V c) := by
  obtain ⟨-, -, -, -, -, -, -, -, -, -, e0, e1, -⟩ := idx_facts t
  show (cfg0.win 4).cut (grid0.coords t) ((dat0 V c).after 4 t) = _
  rw [after0_4, out4_eq]
  refine funext fun (j : S2048x512.Idx) => ?_
  show hblk V c t j = hOf V c ((((cfg0.win 4).blk t).view.emb j) 0) ((((cfg0.win 4).blk t).view.emb j) 1)
  have hj0 : (j 0).val < 2048 := (j 0).isLt
  have hj1 : (j 1).val < 512 := (j 1).isLt
  rw [eq_ix2 j]
  exact hblk_apply V c hidx t (j 0) (j 1) _
    (by show win0_4.index t (0 : Fin 2) * 2048 + 1 * (j 0).val = 2048 * t.val + (j 0).val; omega) _
    (by show win0_4.index t (1 : Fin 2) * 512 + 1 * (j 1).val = (j 1).val; omega)

/-- A row and feature are in point t's block of the hidden array iff each is in the block's range. -/
theorem mem_blk4 (t : Fin cfg0.N) (i : S131072x512.Idx) :
    i ∈ ((cfg0.win 4).blk t).view.set ↔ ∀ a : Fin 2, win0_4.index t a * S2048x512.size a ≤ (i a).val ∧ (i a).val < win0_4.index t a * S2048x512.size a + S2048x512.size a := by
  show i ∈ ((View.whole main_v4_0).slice (win0_4.rect t)).set ↔ _
  rw [View.set_slice_whole, Rect.mem_set_unit]
  exact Iff.rfl

/-- Row r is in the block of point r / 2048. -/
theorem cover4 (i : S131072x512.Idx) :
    ∃ t : Fin cfg0.N, (cfg0.win 4).flush t = true ∧ i ∈ ((cfg0.win 4).blk t).view.set := by
  have hi0 : (i 0).val < 131072 := (i 0).isLt
  have hi1 : (i 1).val < 512 := (i 1).isLt
  obtain ⟨t, ht⟩ : ∃ t : Fin cfg0.N, t.val = (i 0).val / 2048 :=
    ⟨⟨(i 0).val / 2048, by rw [show cfg0.N = 64 from N_0]; omega⟩, rfl⟩
  obtain ⟨-, -, -, -, -, -, -, -, -, -, e0, e1, -⟩ := idx_facts t
  refine ⟨t, flush0_4 t, ?_⟩
  rw [mem_blk4]
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 512 ≤ (i 1).val ∧ (i 1).val < win0_4.index t (1 : Fin 2) * 512 + 512; omega

/-- The hidden array after the region. -/
theorem h_arr (c : Dev nD) (hidx : ∀ i, (tblA V c i).toNat < 256) (r : Fin 131072) (f : Fin 512) :
    ((dat0 V c).arrAt 4 cfg0.N : FVec Ideal S131072x512 .f32) (ix2 r f) = hOf V c r f :=
  congrFun ((dat0 V c).arrAt_eq_of_cover 4 (hArr V c) (fun t _ => flushed4_eq V c hidx t) cover4) (ix2 r f)

/-! ## The statistics array -/

/-- Row 2048·p + s: angle s of batch p. -/
abbrev rowOf (p : Fin 64) (s : Fin 2048) : Fin 131072 :=
  ⟨2048 * p.val + s.val, by have := p.isLt; have := s.isLt; omega⟩

/-- Column f of the first layer summed over batch p's rows. -/
def bsum (c : Dev nD) (f : Fin 512) (p : Fin 64) : EReal := ∑ s : Fin 2048, hOf V c (rowOf p s) f
/-- Column f's squares summed over batch p's rows. -/
def bsq (c : Dev nD) (f : Fin 512) (p : Fin 64) : EReal :=
  ∑ s : Fin 2048, hOf V c (rowOf p s) f * hOf V c (rowOf p s) f

/-- The column sums of point t's hidden block are batch t's. -/
theorem blk_sum (c : Dev nD) (hidx : ∀ i, (tblA V c i).toNat < 256) (t : Fin cfg0.N) (f : Fin 512) :
    ∑ s : Fin 2048, hblk V c t (ix2 s f) = bsum V c f (ptB t) :=
  Finset.sum_congr rfl fun s _ => hblk_apply V c hidx t s f (rowOf (ptB t) s) rfl f rfl

theorem blk_sq (c : Dev nD) (hidx : ∀ i, (tblA V c i).toNat < 256) (t : Fin cfg0.N) (f : Fin 512) :
    ∑ s : Fin 2048, hblk V c t (ix2 s f) * hblk V c t (ix2 s f) = bsq V c f (ptB t) :=
  Finset.sum_congr rfl fun s _ => by rw [hblk_apply V c hidx t s f (rowOf (ptB t) s) rfl f rfl]

/-- At the first point the statistics buffer holds the first batch's column sums and sums of squares. -/
theorem out5_first (c : Dev nD) (hidx : ∀ i, (tblA V c i).toNat < 256) (t : Fin cfg0.N) (h0 : t.val % 64 = 0)
    (f : Fin 512) :
    (outsAt0 V c t.val t.isLt).2 (ix2 (0 : Fin 2) f) = bsum V c f (ptB t)
    ∧ (outsAt0 V c t.val t.isLt).2 (ix2 (1 : Fin 2) f) = bsq V c f (ptB t) := by
  rw [outsAt0_A V c t h0]
  dsimp only
  have h := Cert.KernelIdeal.Case0.outA5 c (grid0.coords t) (ms0_0 t) (hs0_0 t) (ms0_1 t) (hs0_1 t) (ms0_2 t) (hs0_2 t)
      (ms0_3 t) (hs0_3 t) (ms0_4 t) (hs0_4 t) (ms0_5 t) (hs0_5 t) ((hcond0_0 t).mpr h0)
      (iblk0 V c 0 t) (iblk0 V c 1 t) (iblk0 V c 2 t) (iblk0 V c 3 t) f
  exact ⟨h.1.trans (blk_sum V c hidx t f), h.2.trans (blk_sq V c hidx t f)⟩

/-- At a later point each row gains the point's batch over what the point before left. -/
theorem out5_later (c : Dev nD) (hidx : ∀ i, (tblA V c i).toNat < 256) (t : Fin cfg0.N) (h0 : ¬t.val % 64 = 0)
    (f : Fin 512) :
    (outsAt0 V c t.val t.isLt).2 (ix2 (0 : Fin 2) f)
      = (outsAt0 V c (t.val - 1) (Nat.lt_of_le_of_lt (Nat.sub_le _ _) t.isLt)).2 (ix2 (0 : Fin 2) f) + bsum V c f (ptB t)
    ∧ (outsAt0 V c t.val t.isLt).2 (ix2 (1 : Fin 2) f)
      = (outsAt0 V c (t.val - 1) (Nat.lt_of_le_of_lt (Nat.sub_le _ _) t.isLt)).2 (ix2 (1 : Fin 2) f) + bsq V c f (ptB t) := by
  rw [outsAt0_B V c t h0]
  dsimp only
  have h := Cert.KernelIdeal.Case0.outB5 c (grid0.coords t) (ms0_0 t) (hs0_0 t) (ms0_1 t) (hs0_1 t) (ms0_2 t) (hs0_2 t)
      (ms0_3 t) (hs0_3 t) (ms0_4 t) (hs0_4 t) (ms0_5 t) (hs0_5 t) (fun h => h0 ((hcond0_0 t).mp h))
      (iblk0 V c 0 t) (iblk0 V c 1 t) (iblk0 V c 2 t) (iblk0 V c 3 t)
      (outsAt0 V c (t.val - 1) (Nat.lt_of_le_of_lt (Nat.sub_le _ _) t.isLt)).2 f
  exact ⟨h.1.trans (congrArg _ (blk_sum V c hidx t f)), h.2.trans (congrArg _ (blk_sq V c hidx t f))⟩

/-- The running total of g over the points 0 … n. -/
def tally (g : Fin 64 → EReal) : (n : ℕ) → n < 64 → EReal
  | 0, h => g ⟨0, h⟩
  | n + 1, h => tally g n (Nat.lt_of_succ_lt h) + g ⟨n + 1, h⟩

/-- After point n the statistics buffer holds the running totals of the batches' column sums and sums of squares. -/
theorem stats_tally (c : Dev nD) (hidx : ∀ i, (tblA V c i).toNat < 256) (f : Fin 512) : ∀ (n : ℕ) (h : n < cfg0.N),
    (outsAt0 V c n h).2 (ix2 (0 : Fin 2) f) = tally (bsum V c f) n (lt_of_lt_of_eq h N_0)
    ∧ (outsAt0 V c n h).2 (ix2 (1 : Fin 2) f) = tally (bsq V c f) n (lt_of_lt_of_eq h N_0)
  | 0, h => out5_first V c hidx ⟨0, h⟩ rfl f
  | n + 1, h => by
    have hN : cfg0.N = 64 := N_0
    have hB : ¬(⟨n + 1, h⟩ : Fin cfg0.N).val % 64 = 0 := by dsimp only; omega
    obtain ⟨a, b⟩ := out5_later V c hidx ⟨n + 1, h⟩ hB f
    obtain ⟨ia, ib⟩ := stats_tally c hidx f n (Nat.lt_of_succ_lt h)
    exact ⟨a.trans (congrArg (fun x => x + bsum V c f (ptB ⟨n + 1, h⟩)) ia),
      b.trans (congrArg (fun x => x + bsq V c f (ptB ⟨n + 1, h⟩)) ib)⟩

/-- The running total is the sum over the points passed. -/
theorem tally_eq (g : Fin 64 → EReal) : ∀ (n : ℕ) (h : n < 64),
    tally g n h = ∑ p : Fin (n + 1), g ⟨p.val, lt_of_lt_of_le p.isLt h⟩
  | 0, h => by rw [Fin.sum_univ_one]; rfl
  | n + 1, h => by
    rw [Fin.sum_univ_castSucc]
    show tally g n _ + g ⟨n + 1, h⟩ = _
    rw [tally_eq g n]
    rfl

/-- After the last point it is the sum over all 64 points. -/
theorem tally_total (g : Fin 64 → EReal) (n : ℕ) (h : n < 64) (hn : n = 63) : tally g n h = ∑ p : Fin 64, g p := by
  subst hn
  exact (tally_eq g 63 h).trans (Finset.sum_congr rfl fun p _ => rfl)

/-- A sum over batches and angles is the sum over rows. -/
theorem sum_rows (φ : Fin 131072 → EReal) : ∑ p : Fin 64, ∑ s : Fin 2048, φ (rowOf p s) = ∑ r : Fin 131072, φ r := by
  rw [← Fintype.sum_prod_type' (fun p s => φ (rowOf p s))]
  exact Fintype.sum_equiv (finProdFinEquiv : Fin 64 × Fin 2048 ≃ Fin 131072) _ _ fun x =>
    congrArg φ (Fin.ext (by show 2048 * x.1.val + x.2.val = x.2.val + 2048 * x.1.val; omega))

/-- The statistics over all rows as one array: row 0 the column sums, row 1 the column sums of squares. -/
abbrev statArr (c : Dev nD) : FVec Ideal S2x512 .f32 := fun i =>
  if (i 0).val = 0 then ∑ r : Fin 131072, hOf V c r (i 1) else ∑ r : Fin 131072, hOf V c r (i 1) * hOf V c r (i 1)

/-- The one write-back of the statistics, after the last point, writes the totals over all rows: the block is the
    whole array. -/
theorem flushed5_eq (c : Dev nD) (hidx : ∀ i, (tblA V c i).toNat < 256) (t : Fin cfg0.N)
    (hf : (cfg0.win 5).flush t = true) :
    (dat0 V c).flushed 5 t = ((cfg0.win 5).blk t).view.read (Elt Ideal) (statArr V c) := by
  have hN : cfg0.N = 64 := N_0
  have h63 : t.val = 63 := by have := (flush0_5 t).mp hf; have := t.isLt; omega
  obtain ⟨-, -, -, -, -, -, -, -, -, -, -, -, e0, e1⟩ := idx_facts t
  show (cfg0.win 5).cut (grid0.coords t) ((dat0 V c).after 5 t) = _
  rw [after0_5]
  refine funext fun (j : S2x512.Idx) => ?_
  show (outsAt0 V c t.val t.isLt).2 j = statArr V c (((cfg0.win 5).blk t).view.emb j)
  have hj0 : (j 0).val < 2 := (j 0).isLt
  have hj1 : (j 1).val < 512 := (j 1).isLt
  have hemb : ((cfg0.win 5).blk t).view.emb j = j := by
    funext a
    apply Fin.ext
    match a with
    | ⟨0, _⟩ => show win0_5.index t (0 : Fin 2) * 2 + 1 * (j 0).val = (j 0).val; omega
    | ⟨1, _⟩ => show win0_5.index t (1 : Fin 2) * 512 + 1 * (j 1).val = (j 1).val; omega
  rw [hemb]
  obtain ⟨s0, s1⟩ := stats_tally V c hidx (j 1) t.val t.isLt
  rw [eq_ix2 j]
  rcases (show (j 0).val = 0 ∨ (j 0).val = 1 by omega) with h | h
  · rw [show j 0 = (0 : Fin 2) from Fin.ext h]
    refine s0.trans ?_
    rw [tally_total _ _ _ h63]
    exact (sum_rows (fun r => hOf V c r (j 1))).trans (if_pos rfl).symm
  · rw [show j 0 = (1 : Fin 2) from Fin.ext h]
    refine s1.trans ?_
    rw [tally_total _ _ _ h63]
    exact (sum_rows (fun r => hOf V c r (j 1) * hOf V c r (j 1))).trans (if_neg (by show ¬(1 : ℕ) = 0; omega)).symm

/-- An index is in point t's block of the statistics array iff each coordinate is in the block's range. -/
theorem mem_blk5 (t : Fin cfg0.N) (i : S2x512.Idx) :
    i ∈ ((cfg0.win 5).blk t).view.set ↔ ∀ a : Fin 2, win0_5.index t a * S2x512.size a ≤ (i a).val ∧ (i a).val < win0_5.index t a * S2x512.size a + S2x512.size a := by
  show i ∈ ((View.whole main_v4_1).slice (win0_5.rect t)).set ↔ _
  rw [View.set_slice_whole, Rect.mem_set_unit]
  exact Iff.rfl

/-- The last point's block covers the statistics array. -/
theorem cover5 (i : S2x512.Idx) :
    ∃ t : Fin cfg0.N, (cfg0.win 5).flush t = true ∧ i ∈ ((cfg0.win 5).blk t).view.set := by
  have hi0 : (i 0).val < 2 := (i 0).isLt
  have hi1 : (i 1).val < 512 := (i 1).isLt
  obtain ⟨t, ht⟩ : ∃ t : Fin cfg0.N, t.val = 63 := ⟨⟨63, by rw [show cfg0.N = 64 from N_0]; decide⟩, rfl⟩
  obtain ⟨-, -, -, -, -, -, -, -, -, -, -, -, e0, e1⟩ := idx_facts t
  refine ⟨t, (flush0_5 t).mpr (by omega), ?_⟩
  rw [mem_blk5]
  intro a
  match a with
  | ⟨0, _⟩ => show win0_5.index t (0 : Fin 2) * 2 ≤ (i 0).val ∧ (i 0).val < win0_5.index t (0 : Fin 2) * 2 + 2; omega
  | ⟨1, _⟩ => show win0_5.index t (1 : Fin 2) * 512 ≤ (i 1).val ∧ (i 1).val < win0_5.index t (1 : Fin 2) * 512 + 512; omega

/-- So the statistics array ends holding the totals over all rows. -/
theorem stats_last (c : Dev nD) (hidx : ∀ i, (tblA V c i).toNat < 256) : (dat0 V c).arrAt 5 cfg0.N = statArr V c :=
  (dat0 V c).arrAt_eq_of_cover 5 (statArr V c) (fun t hf => flushed5_eq V c hidx t hf) cover5

/-- The statistics array after the region: the column sums and the column sums of squares over all rows. -/
theorem stats_arr (c : Dev nD) (hidx : ∀ i, (tblA V c i).toNat < 256) (f : Fin 512) :
    ((dat0 V c).arrAt 5 cfg0.N : FVec Ideal S2x512 .f32) (ix2 (0 : Fin 2) f) = ∑ r : Fin 131072, hOf V c r f
    ∧ ((dat0 V c).arrAt 5 cfg0.N : FVec Ideal S2x512 .f32) (ix2 (1 : Fin 2) f) = ∑ r : Fin 131072, hOf V c r f * hOf V c r f := by
  have hA := stats_last V c hidx
  exact ⟨(congrFun hA (ix2 (0 : Fin 2) f)).trans (if_pos rfl),
    (congrFun hA (ix2 (1 : Fin 2) f)).trans (if_neg (by show ¬(1 : ℕ) = 0; omega))⟩

end Cert.KernelIdeal.Reg0

end
-- ==== Proof.KReg1.lean ====
/-
  What the second region leaves in the result array, for any contents V it is entered at: block b of the result is
  the body's block of block b of the hidden array, so at row r and output feature o it is the sum over the hidden
  feature f of max((h − mean)·inv·γ + β, 0) times W2, plus the bias — the specification's tail read off V's arrays.
-/
import proofs.«415157_j83416854823432_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Tactic

noncomputable section

open scoped BigOperators

open Idealize.ShloMosaic Idealize.ShloMosaic.TcCoe Idealize.SL.Sem
open Idealize.ShloMosaic.Pipeline (Dat)

namespace Cert.KernelIdeal.Reg1

open Cert.KernelIdeal Cert.KernelIdeal.Gen Idealize.ShloMosaic.ValueIdx

/-! ## The body's block at an index -/

/-- The dot's operand indices at output index j and contraction index k, axis by axis: the left operand is read at
    (row of j, k), the right operand at (k, column of j). -/
theorem lhs_ax0 (j : S2048x256.Idx) (k : dot_S2048x512_S512x256_S2048x256_1_0_0_1_n_n.contr.Idx) :
    (dot_S2048x512_S512x256_S2048x256_1_0_0_1_n_n.lhsIdx j k 0).val = (j 0).val := rfl
theorem lhs_ax1 (j : S2048x256.Idx) (k : dot_S2048x512_S512x256_S2048x256_1_0_0_1_n_n.contr.Idx) :
    (dot_S2048x512_S512x256_S2048x256_1_0_0_1_n_n.lhsIdx j k 1).val = (k ⟨0, by decide⟩).val := rfl
theorem rhs_ax0 (j : S2048x256.Idx) (k : dot_S2048x512_S512x256_S2048x256_1_0_0_1_n_n.contr.Idx) :
    (dot_S2048x512_S512x256_S2048x256_1_0_0_1_n_n.rhsIdx j k 0).val = (k ⟨0, by decide⟩).val := rfl
theorem rhs_ax1 (j : S2048x256.Idx) (k : dot_S2048x512_S512x256_S2048x256_1_0_0_1_n_n.contr.Idx) :
    (dot_S2048x512_S512x256_S2048x256_1_0_0_1_n_n.rhsIdx j k 1).val = (j 1).val := rfl

/-- The contraction index set is the hidden feature's range. -/
abbrev contrE : dot_S2048x512_S512x256_S2048x256_1_0_0_1_n_n.contr.Idx ≃ Fin 512 :=
  contrEquiv1 dot_S2048x512_S512x256_S2048x256_1_0_0_1_n_n 512 rfl rfl

theorem lhsIdx_eq (s : Fin 2048) (o : Fin 256) (f : Fin 512) :
    dot_S2048x512_S512x256_S2048x256_1_0_0_1_n_n.lhsIdx (ix2 s o) (contrE.symm f) = ix2 s f := by
  funext a
  apply Fin.ext
  match a with
  | ⟨0, _⟩ => exact lhs_ax0 _ _
  | ⟨1, _⟩ => exact (lhs_ax1 _ _).trans (contrEquiv1_symm_val _ 512 rfl rfl f)

theorem rhsIdx_eq (s : Fin 2048) (o : Fin 256) (f : Fin 512) :
    dot_S2048x512_S512x256_S2048x256_1_0_0_1_n_n.rhsIdx (ix2 s o) (contrE.symm f) = ix2 f o := by
  funext a
  apply Fin.ext
  match a with
  | ⟨0, _⟩ => exact (rhs_ax0 _ _).trans (contrEquiv1_symm_val _ 512 rfl rfl f)
  | ⟨1, _⟩ => exact rhs_ax1 _ _

/-- A matrix product into the zero accumulator, read at (s, o): the sum over the hidden feature. -/
theorem matmul_zero_apply (A : FVec Ideal S2048x512 .bf16) (B : FVec Ideal S512x256 .bf16) (s : Fin 2048) (o : Fin 256) :
    matmul dot_S2048x512_S512x256_S2048x256_1_0_0_1_n_n none A B (constant (F := Ideal) S2048x256 .f32 0x00000000#32) (ix2 s o)
      = ∑ f : Fin 512, A (ix2 s f) * B (ix2 f o) := by
  show FloatOps.matmul dot_S2048x512_S512x256_S2048x256_1_0_0_1_n_n none A B (constant S2048x256 .f32 0x00000000#32) (ix2 s o) = _
  rw [Ideal.matmul_constant_zero_apply, ← Equiv.sum_comp contrE.symm]
  refine Finset.sum_congr rfl fun f _ => ?_
  rw [lhsIdx_eq, rhsIdx_eq]

/-- The body's block at (s, o): the sum over the hidden feature f of max((h − mean)·inv·γ + β, 0) at (s, f) times
    W2 at (f, o), plus the bias at o. -/
theorem pay_apply (x0 : Vec Ideal S2048x512 .f32) (x1 x2 x3 x4 : Vec Ideal S1x512 .f32) (x5 : Vec Ideal S512x256 .f32)
    (x6 : Vec Ideal S1x256 .f32) (s : Fin 2048) (o : Fin 256) :
    k1_pay1 (F := Ideal) x0 x1 x2 x3 x4 x5 x6 (ix2 s o)
      = (∑ f : Fin 512, max ((x0 (ix2 s f) - x1 (ix2 (0 : Fin 1) f)) * x2 (ix2 (0 : Fin 1) f) * x3 (ix2 (0 : Fin 1) f)
            + x4 (ix2 (0 : Fin 1) f)) 0 * x5 (ix2 f o))
        + x6 (ix2 (0 : Fin 1) o) := by
  unfold k1_pay1
  simp only [shapeCast_self]
  rw [addf_apply, matmul_zero_apply, broadcastTo_1b_ab_apply]
  congr 1
  refine Finset.sum_congr rfl fun f _ => ?_
  rw [truncf_apply, truncf_apply, maximumf_apply, addf_apply, mulf_apply, mulf_apply, subf_apply, broadcast_apply,
    broadcastTo_1b_ab_apply, broadcastTo_1b_ab_apply, broadcastTo_1b_ab_apply, broadcastTo_1b_ab_apply,
    Ideal.ofBits_def, Ideal.ofBits_zero_f32]

/-! ## From blocks to the array -/

variable (V : (c : Dev nD) → (b : Ref sig .tc) → Buf (Elt Ideal) ((c : Thread nD τ).loc b))

/-- The arrays the region reads, at their literal types. -/
abbrev hA (c : Dev nD) : FVec Ideal S131072x512 .f32 := V c main_v4_0
abbrev meanA (c : Dev nD) : FVec Ideal S1x512 .f32 := V c main_v8
abbrev invA (c : Dev nD) : FVec Ideal S1x512 .f32 := V c main_v15
abbrev gammaA (c : Dev nD) : FVec Ideal S1x512 .f32 := V c main_v1
abbrev betaA (c : Dev nD) : FVec Ideal S1x512 .f32 := V c main_v2
abbrev w2A (c : Dev nD) : FVec Ideal S512x256 .f32 := V c main_arg6
abbrev b2A (c : Dev nD) : FVec Ideal S1x256 .f32 := V c main_v3

theorem hz : (![0, 0] : Fin 2 → Nat) = fun _ => 0 := funext fun a => by fin_cases a <;> rfl

/-- The windows' block indices over the grid: the hidden array's and the result's blocks move down the rows with the
    point, every other window stays on its one block. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Block t of the hidden array is its rows 2048·t … 2048·t + 2047. -/
theorem blk0_apply (c : Dev nD) (t : Fin cfg1.N) (s : Fin 2048) (f : Fin 512) (r : Fin 131072)
    (hr : r.val = 2048 * t.val + s.val) :
    (iblk1 V c 0 t : Vec Ideal S2048x512 .f32) (ix2 s f) = hA V c (ix2 r f) := by
  obtain ⟨e0, e1, -⟩ := idx_facts t
  unfold iblk1
  rw [View.read_apply]
  show V c main_v4_0 _ = V c main_v4_0 _
  congr 1
  funext a
  apply Fin.ext
  match a with
  | ⟨0, _⟩ => show win1_0.index t (0 : Fin 2) * 2048 + 1 * s.val = r.val; omega
  | ⟨1, _⟩ => show win1_0.index t (1 : Fin 2) * 512 + 1 * f.val = f.val; omega

/-- The mean's one block is the whole row. -/
theorem blk1_eq (c : Dev nD) (t : Fin cfg1.N) : (iblk1 V c 1 t : Vec Ideal S1x512 .f32) = meanA V c := by
  obtain ⟨-, -, e0, e1, -⟩ := idx_facts t
  funext y
  unfold iblk1
  rw [View.read_apply]
  show V c main_v8 _ = V c main_v8 y
  congr 1
  funext a
  apply Fin.ext
  match a with
  | ⟨0, _⟩ => show win1_1.index t (0 : Fin 2) * 1 + 1 * (y 0).val = (y 0).val; omega
  | ⟨1, _⟩ => show win1_1.index t (1 : Fin 2) * 512 + 1 * (y 1).val = (y 1).val; omega

/-- The inverse deviation's one block is the whole row. -/
theorem blk2_eq (c : Dev nD) (t : Fin cfg1.N) : (iblk1 V c 2 t : Vec Ideal S1x512 .f32) = invA V c := by
  obtain ⟨-, -, -, -, e0, e1, -⟩ := idx_facts t
  funext y
  unfold iblk1
  rw [View.read_apply]
  show V c main_v15 _ = V c main_v15 y
  congr 1
  funext a
  apply Fin.ext
  match a with
  | ⟨0, _⟩ => show win1_2.index t (0 : Fin 2) * 1 + 1 * (y 0).val = (y 0).val; omega
  | ⟨1, _⟩ => show win1_2.index t (1 : Fin 2) * 512 + 1 * (y 1).val = (y 1).val; omega

/-- The scale's one block is the whole row. -/
theorem blk3_eq (c : Dev nD) (t : Fin cfg1.N) : (iblk1 V c 3 t : Vec Ideal S1x512 .f32) = gammaA V c := by
  obtain ⟨-, -, -, -, -, -, e0, e1, -⟩ := idx_facts t
  funext y
  unfold iblk1
  rw [View.read_apply]
  show V c main_v1 _ = V c main_v1 y
  congr 1
  funext a
  apply Fin.ext
  match a with
  | ⟨0, _⟩ => show win1_3.index t (0 : Fin 2) * 1 + 1 * (y 0).val = (y 0).val; omega
  | ⟨1, _⟩ => show win1_3.index t (1 : Fin 2) * 512 + 1 * (y 1).val = (y 1).val; omega

/-- The shift's one block is the whole row. -/
theorem blk4_eq (c : Dev nD) (t : Fin cfg1.N) : (iblk1 V c 4 t : Vec Ideal S1x512 .f32) = betaA V c := by
  obtain ⟨-, -, -, -, -, -, -, -, e0, e1, -⟩ := idx_facts t
  funext y
  unfold iblk1
  rw [View.read_apply]
  show V c main_v2 _ = V c main_v2 y
  congr 1
  funext a
  apply Fin.ext
  match a with
  | ⟨0, _⟩ => show win1_4.index t (0 : Fin 2) * 1 + 1 * (y 0).val = (y 0).val; omega
  | ⟨1, _⟩ => show win1_4.index t (1 : Fin 2) * 512 + 1 * (y 1).val = (y 1).val; omega

/-- The second weight matrix's one block is the whole matrix. -/
theorem blk5_eq (c : Dev nD) (t : Fin cfg1.N) : (iblk1 V c 5 t : Vec Ideal S512x256 .f32) = w2A V c := by
  obtain ⟨-, -, -, -, -, -, -, -, -, -, e0, e1, -⟩ := idx_facts t
  funext y
  unfold iblk1
  rw [View.read_apply]
  show V c main_arg6 _ = V c main_arg6 y
  congr 1
  funext a
  apply Fin.ext
  match a with
  | ⟨0, _⟩ => show win1_5.index t (0 : Fin 2) * 512 + 1 * (y 0).val = (y 0).val; omega
  | ⟨1, _⟩ => show win1_5.index t (1 : Fin 2) * 256 + 1 * (y 1).val = (y 1).val; omega

/-- The bias's one block is the whole row. -/
theorem blk6_eq (c : Dev nD) (t : Fin cfg1.N) : (iblk1 V c 6 t : Vec Ideal S1x256 .f32) = b2A V c := by
  obtain ⟨-, -, -, -, -, -, -, -, -, -, -, -, e0, e1, -⟩ := idx_facts t
  funext y
  unfold iblk1
  rw [View.read_apply]
  show V c main_v3 _ = V c main_v3 y
  congr 1
  funext a
  apply Fin.ext
  match a with
  | ⟨0, _⟩ => show win1_6.index t (0 : Fin 2) * 1 + 1 * (y 0).val = (y 0).val; omega
  | ⟨1, _⟩ => show win1_6.index t (1 : Fin 2) * 256 + 1 * (y 1).val = (y 1).val; omega

/-- What the result array ends holding: at row r and output feature o, the sum over the hidden feature f of
    max((h − mean)·inv·γ + β, 0) times W2, plus the bias. -/
def outG (c : Dev nD) : FVec Ideal S131072x256 .f32 := fun j =>
  (∑ f : Fin 512, max ((hA V c (ix2 (j 0 : Fin 131072) f) - meanA V c (ix2 (0 : Fin 1) f)) * invA V c (ix2 (0 : Fin 1) f)
      * gammaA V c (ix2 (0 : Fin 1) f) + betaA V c (ix2 (0 : Fin 1) f)) 0 * w2A V c (ix2 f (j 1 : Fin 256)))
    + b2A V c (ix2 (0 : Fin 1) (j 1 : Fin 256))

theorem outG_apply (c : Dev nD) (r : Fin 131072) (o : Fin 256) :
    outG V c (ix2 r o)
      = (∑ f : Fin 512, max ((hA V c (ix2 r f) - meanA V c (ix2 (0 : Fin 1) f)) * invA V c (ix2 (0 : Fin 1) f)
            * gammaA V c (ix2 (0 : Fin 1) f) + betaA V c (ix2 (0 : Fin 1) f)) 0 * w2A V c (ix2 f o))
        + b2A V c (ix2 (0 : Fin 1) o) := rfl

/-- Where block t of the result sits in the array: rows 2048·t … 2048·t + 2047, every column. -/
theorem emb7_eq (t : Fin cfg1.N) (s : Fin 2048) (o : Fin 256) (r : Fin 131072) (hr : r.val = 2048 * t.val + s.val) :
    ((cfg1.win 7).blk t).view.emb (ix2 s o) = (ix2 r o : S131072x256.Idx) := by
  obtain ⟨-, -, -, -, -, -, -, -, -, -, -, -, -, -, e0, e1⟩ := idx_facts t
  funext a
  apply Fin.ext
  match a with
  | ⟨0, _⟩ => show win1_7.index t (0 : Fin 2) * 2048 + 1 * s.val = r.val; omega
  | ⟨1, _⟩ => show win1_7.index t (1 : Fin 2) * 256 + 1 * o.val = o.val; omega

/-- What point t writes back is block t of `outG`. -/
theorem flushed_eq (c : Dev nD) (t : Fin cfg1.N) :
    (dat1 V c).flushed 7 t = ((cfg1.win 7).blk t).view.read (Elt Ideal) (outG V c) := by
  show (cfg1.win 7).cut (grid1.coords t) ((dat1 V c).after 7 t) = _
  rw [after1_7]
  unfold out1_7
  rw [View.canon_unit_zero hz]
  simp only [View.ld_unit_zero (S := S2048x512) hz, View.ld_unit_zero (S := S1x512) hz, View.ld_unit_zero (S := S512x256) hz,
    View.ld_unit_zero (S := S1x256) hz]
  rw [blk1_eq, blk2_eq, blk3_eq, blk4_eq, blk5_eq, blk6_eq]
  funext y
  obtain ⟨s, o, rfl⟩ : ∃ (s : Fin 2048) (o : Fin 256), y = ix2 s o := ⟨y 0, y 1, eq_ix2 y⟩
  have ht : t.val < 64 := by have h := t.isLt; have hN : cfg1.N = 64 := N_1; omega
  have hr : 2048 * t.val + s.val < 131072 := by have := s.isLt; omega
  show k1_pay1 (F := Ideal) (iblk1 V c 0 t) (meanA V c) (invA V c) (gammaA V c) (betaA V c) (w2A V c) (b2A V c) (ix2 s o)
    = outG V c (((cfg1.win 7).blk t).view.emb (ix2 s o))
  rw [emb7_eq t s o ⟨2048 * t.val + s.val, hr⟩ rfl, outG_apply]
  refine (pay_apply (iblk1 V c 0 t) (meanA V c) (invA V c) (gammaA V c) (betaA V c) (w2A V c) (b2A V c) s o).trans ?_
  refine congrArg (· + b2A V c (ix2 (0 : Fin 1) o)) ?_
  refine Finset.sum_congr rfl fun f _ => ?_
  rw [blk0_apply V c t s f ⟨2048 * t.val + s.val, hr⟩ rfl]

/-- An index of the result is in point t's block iff each coordinate is in the block's range on its axis. -/
theorem mem_blk7 (t : Fin cfg1.N) (i : S131072x256.Idx) :
    i ∈ ((cfg1.win 7).blk t).view.set ↔ ∀ a : Fin 2, win1_7.index t a * S2048x256.size a ≤ (i a).val ∧ (i a).val < win1_7.index t a * S2048x256.size a + S2048x256.size a := by
  show i ∈ ((View.whole main_v16).slice (win1_7.rect t)).set ↔ _
  rw [View.set_slice_whole, Rect.mem_set_unit]
  exact Iff.rfl

/-- Row r of the result is in the block of point r / 2048. -/
theorem cover7 (i : S131072x256.Idx) : ∃ t : Fin cfg1.N, (cfg1.win 7).flush t = true ∧ i ∈ ((cfg1.win 7).blk t).view.set := by
  have hi0 : (i 0).val < 131072 := (i 0).isLt
  have hi1 : (i 1).val < 256 := (i 1).isLt
  have hN : cfg1.N = 64 := N_1
  let t : Fin cfg1.N := ⟨(i 0).val / 2048, by rw [hN]; omega⟩
  obtain ⟨-, -, -, -, -, -, -, -, -, -, -, -, -, -, e0, e1⟩ := idx_facts t
  have e0' : win1_7.index t (0 : Fin 2) = (i 0).val / 2048 := e0
  refine ⟨t, flush1_7 t, ?_⟩
  rw [mem_blk7]
  intro a
  match a with
  | ⟨0, _⟩ => show win1_7.index t (0 : Fin 2) * 2048 ≤ (i 0).val ∧ (i 0).val < win1_7.index t (0 : Fin 2) * 2048 + 2048; omega
  | ⟨1, _⟩ => show win1_7.index t (1 : Fin 2) * 256 ≤ (i 1).val ∧ (i 1).val < win1_7.index t (1 : Fin 2) * 256 + 256; omega

/-- The result array after the region is `outG`. -/
theorem final7 (c : Dev nD) : (dat1 V c).arrAt 7 cfg1.N = outG V c :=
  (dat1 V c).arrAt_eq_of_cover 7 (outG V c) (fun t _ => flushed_eq V c t) cover7

/-- The result array after the region, at row r and output feature o. -/
theorem out_arr (c : Dev nD) (r : Fin 131072) (o : Fin 256) :
    ((dat1 V c).arrAt 7 cfg1.N : FVec Ideal S131072x256 .f32) (ix2 r o)
      = (∑ f : Fin 512, max ((hA V c (ix2 r f) - meanA V c (ix2 (0 : Fin 1) f)) * invA V c (ix2 (0 : Fin 1) f)
            * gammaA V c (ix2 (0 : Fin 1) f) + betaA V c (ix2 (0 : Fin 1) f)) 0 * w2A V c (ix2 f o))
        + b2A V c (ix2 (0 : Fin 1) o) := by
  rw [final7, outG_apply]

end Cert.KernelIdeal.Reg1

end
-- ==== Proof.KValue.lean ====
/-
  The idealized kernel program's result as the specification. The result array is the second region's array, read
  off the contents it is entered at: the hidden array is the first region's, which is the specification's first layer
  of the launch arrays; the mean row is the first region's sums row over the count; the inverse deviation row is
  rsqrt of (squares row over the count, minus the squared mean, plus the guard), which is the specification's variance
  as the mean of squares minus the squared mean; γ, β, W2 and the bias are the launch arrays.
-/
import proofs.«415157_j83416854823432_1_alg».proof.Proof.KRun
import proofs.«415157_j83416854823432_1_alg».proof.Proof.KHost
import proofs.«415157_j83416854823432_1_alg».proof.Proof.KReg0
import proofs.«415157_j83416854823432_1_alg».proof.Proof.KReg1
import proofs.«415157_j83416854823432_1_alg».proof.Proof.Spec

noncomputable section

open scoped BigOperators

open Idealize.ShloMosaic Idealize.ShloMosaic.TcCoe Idealize.SL.Sem

namespace Cert.KernelIdeal.KValue

open Cert.KernelIdeal Cert.KernelIdeal.Gen Idealize.ShloMosaic.ValueIdx

variable (m : (ℓ : Loc nD τ sig) → Buf (Elt Ideal) ℓ) (ρ : Dev nD → PrngReg)

/-- The launch arrays at their literal types. -/
abbrev zM (c : Dev nD) : FVec Ideal S64x256x256 .f32 := m ((c : Thread nD τ).loc main_arg0)
abbrev tblM (c : Dev nD) : IVec S64x2048x3 32 := m ((c : Thread nD τ).loc main_arg1)
abbrev w1M (c : Dev nD) : FVec Ideal S256x512 .f32 := m ((c : Thread nD τ).loc main_arg2)
abbrev b1M (c : Dev nD) : FVec Ideal S512 .f32 := m ((c : Thread nD τ).loc main_arg3)
abbrev gM (c : Dev nD) : FVec Ideal S512 .f32 := m ((c : Thread nD τ).loc main_arg4)
abbrev beM (c : Dev nD) : FVec Ideal S512 .f32 := m ((c : Thread nD τ).loc main_arg5)
abbrev w2M (c : Dev nD) : FVec Ideal S512x256 .f32 := m ((c : Thread nD τ).loc main_arg6)
abbrev b2M (c : Dev nD) : FVec Ideal S256 .f32 := m ((c : Thread nD τ).loc main_arg7)

/-- The first region's hidden entries are the specification's first layer of the launch arrays. -/
theorem hOf_eq (c : Dev nD) (r : Fin 131072) (f : Fin 512) :
    Reg0.hOf (V1 m ρ) c r f = Cert.Spec.H (zM m c) (tblM m c) (w1M m c) (b1M m c) r f := by
  unfold Reg0.hOf Cert.Spec.H
  show (∑ d : Fin 256, Cert.Spec.X (V1 m ρ c main_arg0) (V1 m ρ c main_arg1) (Cert.Spec.rowB r) (Cert.Spec.rowT r) d
      * (V1 m ρ c main_arg2 : FVec Ideal S256x512 .f32) (ix2 d f)) + (V1 m ρ c main_v0 : FVec Ideal S1x512 .f32) (ix2 (0 : Fin 1) f) = _
  rw [Host.V1_arg0, Host.V1_arg1, Host.V1_arg2, Host.V1_v0]

/-- The kernel program's result array is the specification, the variance as mean of squares minus squared mean. -/
theorem result (c : Dev nD) (hidx : ∀ i, (tblM m c i).toNat < 256) :
    W4 m ρ c (Proc.devRef .tc main_v16)
      = Cert.Spec.outWith Cert.Spec.varK (zM m c) (tblM m c) (w1M m c) (b1M m c) (gM m c) (beM m c) (w2M m c) (b2M m c) := by
  have hidx1 : ∀ i, (Reg0.tblA (V1 m ρ) c i).toNat < 256 := by
    intro i
    show ((V1 m ρ c main_arg1 : IVec S64x2048x3 32) i).toNat < 256
    rw [Host.V1_arg1]
    exact hidx i
  have hS0 : ∀ f : Fin 512, Host.stats m ρ c (ix2 (0 : Fin 2) f) = ∑ r : Fin 131072, Cert.Spec.H (zM m c) (tblM m c) (w1M m c) (b1M m c) r f := fun f => by
    have h2 : (∑ r : Fin 131072, Reg0.hOf (V1 m ρ) c r f : EReal) = ∑ r : Fin 131072, Cert.Spec.H (zM m c) (tblM m c) (w1M m c) (b1M m c) r f :=
      Finset.sum_congr rfl fun r _ => hOf_eq m ρ c r f
    exact ((Reg0.stats_arr (V1 m ρ) c hidx1 f).1).trans h2
  have hS1 : ∀ f : Fin 512, Host.stats m ρ c (ix2 (1 : Fin 2) f) = ∑ r : Fin 131072, Cert.Spec.H (zM m c) (tblM m c) (w1M m c) (b1M m c) r f * Cert.Spec.H (zM m c) (tblM m c) (w1M m c) (b1M m c) r f := fun f => by
    have h2 : (∑ r : Fin 131072, Reg0.hOf (V1 m ρ) c r f * Reg0.hOf (V1 m ρ) c r f : EReal)
        = ∑ r : Fin 131072, Cert.Spec.H (zM m c) (tblM m c) (w1M m c) (b1M m c) r f * Cert.Spec.H (zM m c) (tblM m c) (w1M m c) (b1M m c) r f :=
      Finset.sum_congr rfl fun r _ => by rw [hOf_eq m ρ c r f]
    exact ((Reg0.stats_arr (V1 m ρ) c hidx1 f).2).trans h2
  funext j
  obtain ⟨r, o, rfl⟩ : ∃ (r : Fin 131072) (o : Fin 256), j = ix2 r o := ⟨j 0, j 1, eq_ix2 j⟩
  have e_h : ∀ f : Fin 512, Reg1.hA (V3 m ρ) c (ix2 r f) = Cert.Spec.H (zM m c) (tblM m c) (w1M m c) (b1M m c) r f := fun f =>
    (congrFun (Host.V3_h m ρ c) (ix2 r f)).trans ((Reg0.h_arr (V1 m ρ) c hidx1 r f).trans (hOf_eq m ρ c r f))
  have e_mean : ∀ f : Fin 512, Reg1.meanA (V3 m ρ) c (ix2 (0 : Fin 1) f) = Cert.Spec.meanOf (Cert.Spec.H (zM m c) (tblM m c) (w1M m c) (b1M m c)) f := fun f =>
    (Host.V3_mean m ρ c f).trans (by rw [hS0]; rfl)
  have e_inv : ∀ f : Fin 512, Reg1.invA (V3 m ρ) c (ix2 (0 : Fin 1) f)
      = Ideal.rsqrt (Cert.Spec.varK (Cert.Spec.H (zM m c) (tblM m c) (w1M m c) (b1M m c)) f + Cert.Spec.eps) := fun f =>
    (Host.V3_inv m ρ c f).trans (by rw [hS0, hS1]; rfl)
  have e_g : ∀ f : Fin 512, Reg1.gammaA (V3 m ρ) c (ix2 (0 : Fin 1) f) = gM m c (ix1 f) := Host.V3_gamma m ρ c
  have e_b : ∀ f : Fin 512, Reg1.betaA (V3 m ρ) c (ix2 (0 : Fin 1) f) = beM m c (ix1 f) := Host.V3_beta m ρ c
  have e_b2 : Reg1.b2A (V3 m ρ) c (ix2 (0 : Fin 1) o) = b2M m c (ix1 o) := Host.V3_b2 m ρ c o
  have e_w2 : Reg1.w2A (V3 m ρ) c = w2M m c := Host.V3_w2 m ρ c
  refine (congrFun (W4_arr m ρ c 7) (ix2 r o)).trans ((Reg1.out_arr (V3 m ρ) c r o).trans ?_)
  show _ = Cert.Spec.tail (Cert.Spec.H (zM m c) (tblM m c) (w1M m c) (b1M m c)) (Cert.Spec.meanOf (Cert.Spec.H (zM m c) (tblM m c) (w1M m c) (b1M m c)))
      (fun f => Ideal.rsqrt (Cert.Spec.varK (Cert.Spec.H (zM m c) (tblM m c) (w1M m c) (b1M m c)) f + Cert.Spec.eps)) (gM m c) (beM m c) (w2M m c) (b2M m c) r o
  unfold Cert.Spec.tail
  rw [e_b2, e_w2]
  refine congrArg (· + _) (Finset.sum_congr rfl fun f _ => ?_)
  rw [e_h, e_mean, e_inv, e_g, e_b]

/-- Every weakly fair execution of the idealized kernel program ends with the result at the specification and the
    arguments as launched, where the atom table's words are below 256. -/
theorem run (hidx : ∀ (c : Dev nD) i, (tblM m c i).toNat < 256) :
    θ_run defs (onTc (τ := τ) (main (F := Ideal))) ⟨m, fun _ => 0, ρ⟩ (fun r => ∀ c : Dev nD,
      r.2.mem ((c.tc : Thread nD τ).loc main_v16)
        = Cert.Spec.outWith Cert.Spec.varK (zM m c) (tblM m c) (w1M m c) (b1M m c) (gM m c) (beM m c) (w2M m c) (b2M m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1.trans (result m ρ c (hidx c)), (h c).2⟩) (KRun.run m ρ)

end Cert.KernelIdeal.KValue

end
-- ==== Proof.RefOps.lean ====
/-
  The reference program's host operations as one list, in the order the program runs them: the 123 operations of
  its two windows of statements, each outlined function's operations written at its call over that call's buffers
  (the variance function's twenty-two after the column mean, its selection function's three among them; the
  rectifier's three before the second linear layer), and that every one of them touches TensorCore buffers only.
-/
import proofs.«415157_j83416854823432_1_alg».proof.Proof.Gen.ReferenceIdeal
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The program's 123 operations, in order. -/
abbrev ops : List (HloOp τ sig (Elt F)) :=
  [ nullary main_v0 (iotaInDim S64 32 0),
    unary main_v0 main_v1 (broadcastInDim S64x1 ![0] bcast_S64_S64x1_0 : (⟨S64, .i32⟩ : BufTy).Contents (Elt F) → (⟨S64x1, .i32⟩ : BufTy).Contents (Elt F)),
    unary main_arg1 main_v2 ((extractStridedSlice S64x2048x1 ![0, 0, 0] · slices_S64x2048x3_S64x2048x1_0_0_0) : (⟨S64x2048x3, .i32⟩ : BufTy).Contents (Elt F) → (⟨S64x2048x1, .i32⟩ : BufTy).Contents (Elt F)),
    reshape main_v2 main_v3 rfl shapeCasts_S64x2048x1_S64x2048,
    nullary main_c (constantI S_ 32 0#32),
    unary main_c main_v4 (broadcastInDim S64x1 ![] bcast_S_S64x1 : (⟨S_, .i32⟩ : BufTy).Contents (Elt F) → (⟨S64x1, .i32⟩ : BufTy).Contents (Elt F)),
    binary main_v1 main_v4 main_v5 (cmpi .slt : (⟨S64x1, .i32⟩ : BufTy).Contents (Elt F) → (⟨S64x1, .i32⟩ : BufTy).Contents (Elt F) → (⟨S64x1, .i1⟩ : BufTy).Contents (Elt F)),
    nullary main_c_0 (constantI S_ 32 64#32),
    unary main_c_0 main_v6 (broadcastInDim S64x1 ![] bcast_S_S64x1 : (⟨S_, .i32⟩ : BufTy).Contents (Elt F) → (⟨S64x1, .i32⟩ : BufTy).Contents (Elt F)),
    binary main_v1 main_v6 main_v7 (addi : (⟨S64x1, .i32⟩ : BufTy).Contents (Elt F) → (⟨S64x1, .i32⟩ : BufTy).Contents (Elt F) → (⟨S64x1, .i32⟩ : BufTy).Contents (Elt F)),
    ternary main_v5 main_v7 main_v1 main_v8 (select : (⟨S64x1, .i1⟩ : BufTy).Contents (Elt F) → (⟨S64x1, .i32⟩ : BufTy).Contents (Elt F) → (⟨S64x1, .i32⟩ : BufTy).Contents (Elt F) → (⟨S64x1, .i32⟩ : BufTy).Contents (Elt F)),
    nullary main_c_1 (constantI S_ 32 0#32),
    unary main_c_1 main_v9 (broadcastInDim S64x2048 ![] bcast_S_S64x2048 : (⟨S_, .i32⟩ : BufTy).Contents (Elt F) → (⟨S64x2048, .i32⟩ : BufTy).Contents (Elt F)),
    binary main_v3 main_v9 main_v10 (cmpi .slt : (⟨S64x2048, .i32⟩ : BufTy).Contents (Elt F) → (⟨S64x2048, .i32⟩ : BufTy).Contents (Elt F) → (⟨S64x2048, .i1⟩ : BufTy).Contents (Elt F)),
    nullary main_c_2 (constantI S_ 32 256#32),
    unary main_c_2 main_v11 (broadcastInDim S64x2048 ![] bcast_S_S64x2048 : (⟨S_, .i32⟩ : BufTy).Contents (Elt F) → (⟨S64x2048, .i32⟩ : BufTy).Contents (Elt F)),
    binary main_v3 main_v11 main_v12 (addi : (⟨S64x2048, .i32⟩ : BufTy).Contents (Elt F) → (⟨S64x2048, .i32⟩ : BufTy).Contents (Elt F) → (⟨S64x2048, .i32⟩ : BufTy).Contents (Elt F)),
    ternary main_v10 main_v12 main_v3 main_v13 (select : (⟨S64x2048, .i1⟩ : BufTy).Contents (Elt F) → (⟨S64x2048, .i32⟩ : BufTy).Contents (Elt F) → (⟨S64x2048, .i32⟩ : BufTy).Contents (Elt F) → (⟨S64x2048, .i32⟩ : BufTy).Contents (Elt F)),
    unary main_v8 main_v14 (broadcastInDim S64x2048 ![0, 1] bcast_S64x1_S64x2048_0_1 : (⟨S64x1, .i32⟩ : BufTy).Contents (Elt F) → (⟨S64x2048, .i32⟩ : BufTy).Contents (Elt F)),
    unary main_v14 main_v15 (broadcastInDim S64x2048x1 ![0, 1] bcast_S64x2048_S64x2048x1_0_1 : (⟨S64x2048, .i32⟩ : BufTy).Contents (Elt F) → (⟨S64x2048x1, .i32⟩ : BufTy).Contents (Elt F)),
    unary main_v13 main_v16 (broadcastInDim S64x2048x1 ![0, 1] bcast_S64x2048_S64x2048x1_0_1 : (⟨S64x2048, .i32⟩ : BufTy).Contents (Elt F) → (⟨S64x2048x1, .i32⟩ : BufTy).Contents (Elt F)),
    binary main_v15 main_v16 main_v17 ((fun a b => concatenate S64x2048x2 2 [⟨S64x2048x1, a⟩, ⟨S64x2048x1, b⟩] concatenates_S64x2048x1_S64x2048x1_S64x2048x2_d2) : (⟨S64x2048x1, .i32⟩ : BufTy).Contents (Elt F) → (⟨S64x2048x1, .i32⟩ : BufTy).Contents (Elt F) → (⟨S64x2048x2, .i32⟩ : BufTy).Contents (Elt F)),
    binary main_arg0 main_v17 main_v18 ((fun x i => Host.gather gather_S64x256x256_S64x2048x2_S64x2048x256_2_01_n_n_01_2_11256 x i) : (⟨S64x256x256, .f32⟩ : BufTy).Contents (Elt F) → (⟨S64x2048x2, .i32⟩ : BufTy).Contents (Elt F) → (⟨S64x2048x256, .f32⟩ : BufTy).Contents (Elt F)),
    unary main_arg1 main_v19 ((extractStridedSlice S64x2048x1 ![0, 0, 1] · slices_S64x2048x3_S64x2048x1_0_0_1) : (⟨S64x2048x3, .i32⟩ : BufTy).Contents (Elt F) → (⟨S64x2048x1, .i32⟩ : BufTy).Contents (Elt F)),
    reshape main_v19 main_v20 rfl shapeCasts_S64x2048x1_S64x2048,
    nullary main_c_3 (constantI S_ 32 0#32),
    unary main_c_3 main_v21 (broadcastInDim S64x1 ![] bcast_S_S64x1 : (⟨S_, .i32⟩ : BufTy).Contents (Elt F) → (⟨S64x1, .i32⟩ : BufTy).Contents (Elt F)),
    binary main_v1 main_v21 main_v22 (cmpi .slt : (⟨S64x1, .i32⟩ : BufTy).Contents (Elt F) → (⟨S64x1, .i32⟩ : BufTy).Contents (Elt F) → (⟨S64x1, .i1⟩ : BufTy).Contents (Elt F)),
    nullary main_c_4 (constantI S_ 32 64#32),
    unary main_c_4 main_v23 (broadcastInDim S64x1 ![] bcast_S_S64x1 : (⟨S_, .i32⟩ : BufTy).Contents (Elt F) → (⟨S64x1, .i32⟩ : BufTy).Contents (Elt F)),
    binary main_v1 main_v23 main_v24 (addi : (⟨S64x1, .i32⟩ : BufTy).Contents (Elt F) → (⟨S64x1, .i32⟩ : BufTy).Contents (Elt F) → (⟨S64x1, .i32⟩ : BufTy).Contents (Elt F)),
    ternary main_v22 main_v24 main_v1 main_v25 (select : (⟨S64x1, .i1⟩ : BufTy).Contents (Elt F) → (⟨S64x1, .i32⟩ : BufTy).Contents (Elt F) → (⟨S64x1, .i32⟩ : BufTy).Contents (Elt F) → (⟨S64x1, .i32⟩ : BufTy).Contents (Elt F)),
    nullary main_c_5 (constantI S_ 32 0#32),
    unary main_c_5 main_v26 (broadcastInDim S64x2048 ![] bcast_S_S64x2048 : (⟨S_, .i32⟩ : BufTy).Contents (Elt F) → (⟨S64x2048, .i32⟩ : BufTy).Contents (Elt F)),
    binary main_v20 main_v26 main_v27 (cmpi .slt : (⟨S64x2048, .i32⟩ : BufTy).Contents (Elt F) → (⟨S64x2048, .i32⟩ : BufTy).Contents (Elt F) → (⟨S64x2048, .i1⟩ : BufTy).Contents (Elt F)),
    nullary main_c_6 (constantI S_ 32 256#32),
    unary main_c_6 main_v28 (broadcastInDim S64x2048 ![] bcast_S_S64x2048 : (⟨S_, .i32⟩ : BufTy).Contents (Elt F) → (⟨S64x2048, .i32⟩ : BufTy).Contents (Elt F)),
    binary main_v20 main_v28 main_v29 (addi : (⟨S64x2048, .i32⟩ : BufTy).Contents (Elt F) → (⟨S64x2048, .i32⟩ : BufTy).Contents (Elt F) → (⟨S64x2048, .i32⟩ : BufTy).Contents (Elt F)),
    ternary main_v27 main_v29 main_v20 main_v30 (select : (⟨S64x2048, .i1⟩ : BufTy).Contents (Elt F) → (⟨S64x2048, .i32⟩ : BufTy).Contents (Elt F) → (⟨S64x2048, .i32⟩ : BufTy).Contents (Elt F) → (⟨S64x2048, .i32⟩ : BufTy).Contents (Elt F)),
    unary main_v25 main_v31 (broadcastInDim S64x2048 ![0, 1] bcast_S64x1_S64x2048_0_1 : (⟨S64x1, .i32⟩ : BufTy).Contents (Elt F) → (⟨S64x2048, .i32⟩ : BufTy).Contents (Elt F)),
    unary main_v31 main_v32 (broadcastInDim S64x2048x1 ![0, 1] bcast_S64x2048_S64x2048x1_0_1 : (⟨S64x2048, .i32⟩ : BufTy).Contents (Elt F) → (⟨S64x2048x1, .i32⟩ : BufTy).Contents (Elt F)),
    unary main_v30 main_v33 (broadcastInDim S64x2048x1 ![0, 1] bcast_S64x2048_S64x2048x1_0_1 : (⟨S64x2048, .i32⟩ : BufTy).Contents (Elt F) → (⟨S64x2048x1, .i32⟩ : BufTy).Contents (Elt F)),
    binary main_v32 main_v33 main_v34 ((fun a b => concatenate S64x2048x2 2 [⟨S64x2048x1, a⟩, ⟨S64x2048x1, b⟩] concatenates_S64x2048x1_S64x2048x1_S64x2048x2_d2) : (⟨S64x2048x1, .i32⟩ : BufTy).Contents (Elt F) → (⟨S64x2048x1, .i32⟩ : BufTy).Contents (Elt F) → (⟨S64x2048x2, .i32⟩ : BufTy).Contents (Elt F)),
    binary main_arg0 main_v34 main_v35 ((fun x i => Host.gather gather_S64x256x256_S64x2048x2_S64x2048x256_2_01_n_n_01_2_11256 x i) : (⟨S64x256x256, .f32⟩ : BufTy).Contents (Elt F) → (⟨S64x2048x2, .i32⟩ : BufTy).Contents (Elt F) → (⟨S64x2048x256, .f32⟩ : BufTy).Contents (Elt F)),
    binary main_v18 main_v35 main_v36 (addf : (⟨S64x2048x256, .f32⟩ : BufTy).Contents (Elt F) → (⟨S64x2048x256, .f32⟩ : BufTy).Contents (Elt F) → (⟨S64x2048x256, .f32⟩ : BufTy).Contents (Elt F)),
    unary main_arg1 main_v37 ((extractStridedSlice S64x2048x1 ![0, 0, 2] · slices_S64x2048x3_S64x2048x1_0_0_2) : (⟨S64x2048x3, .i32⟩ : BufTy).Contents (Elt F) → (⟨S64x2048x1, .i32⟩ : BufTy).Contents (Elt F)),
    reshape main_v37 main_v38 rfl shapeCasts_S64x2048x1_S64x2048,
    nullary main_c_7 (constantI S_ 32 0#32),
    unary main_c_7 main_v39 (broadcastInDim S64x1 ![] bcast_S_S64x1 : (⟨S_, .i32⟩ : BufTy).Contents (Elt F) → (⟨S64x1, .i32⟩ : BufTy).Contents (Elt F)),
    binary main_v1 main_v39 main_v40 (cmpi .slt : (⟨S64x1, .i32⟩ : BufTy).Contents (Elt F) → (⟨S64x1, .i32⟩ : BufTy).Contents (Elt F) → (⟨S64x1, .i1⟩ : BufTy).Contents (Elt F)),
    nullary main_c_8 (constantI S_ 32 64#32),
    unary main_c_8 main_v41 (broadcastInDim S64x1 ![] bcast_S_S64x1 : (⟨S_, .i32⟩ : BufTy).Contents (Elt F) → (⟨S64x1, .i32⟩ : BufTy).Contents (Elt F)),
    binary main_v1 main_v41 main_v42 (addi : (⟨S64x1, .i32⟩ : BufTy).Contents (Elt F) → (⟨S64x1, .i32⟩ : BufTy).Contents (Elt F) → (⟨S64x1, .i32⟩ : BufTy).Contents (Elt F)),
    ternary main_v40 main_v42 main_v1 main_v43 (select : (⟨S64x1, .i1⟩ : BufTy).Contents (Elt F) → (⟨S64x1, .i32⟩ : BufTy).Contents (Elt F) → (⟨S64x1, .i32⟩ : BufTy).Contents (Elt F) → (⟨S64x1, .i32⟩ : BufTy).Contents (Elt F)),
    nullary main_c_9 (constantI S_ 32 0#32),
    unary main_c_9 main_v44 (broadcastInDim S64x2048 ![] bcast_S_S64x2048 : (⟨S_, .i32⟩ : BufTy).Contents (Elt F) → (⟨S64x2048, .i32⟩ : BufTy).Contents (Elt F)),
    binary main_v38 main_v44 main_v45 (cmpi .slt : (⟨S64x2048, .i32⟩ : BufTy).Contents (Elt F) → (⟨S64x2048, .i32⟩ : BufTy).Contents (Elt F) → (⟨S64x2048, .i1⟩ : BufTy).Contents (Elt F)),
    nullary main_c_10 (constantI S_ 32 256#32),
    unary main_c_10 main_v46 (broadcastInDim S64x2048 ![] bcast_S_S64x2048 : (⟨S_, .i32⟩ : BufTy).Contents (Elt F) → (⟨S64x2048, .i32⟩ : BufTy).Contents (Elt F)),
    binary main_v38 main_v46 main_v47 (addi : (⟨S64x2048, .i32⟩ : BufTy).Contents (Elt F) → (⟨S64x2048, .i32⟩ : BufTy).Contents (Elt F) → (⟨S64x2048, .i32⟩ : BufTy).Contents (Elt F)),
    ternary main_v45 main_v47 main_v38 main_v48 (select : (⟨S64x2048, .i1⟩ : BufTy).Contents (Elt F) → (⟨S64x2048, .i32⟩ : BufTy).Contents (Elt F) → (⟨S64x2048, .i32⟩ : BufTy).Contents (Elt F) → (⟨S64x2048, .i32⟩ : BufTy).Contents (Elt F)),
    unary main_v43 main_v49 (broadcastInDim S64x2048 ![0, 1] bcast_S64x1_S64x2048_0_1 : (⟨S64x1, .i32⟩ : BufTy).Contents (Elt F) → (⟨S64x2048, .i32⟩ : BufTy).Contents (Elt F)),
    unary main_v49 main_v50 (broadcastInDim S64x2048x1 ![0, 1] bcast_S64x2048_S64x2048x1_0_1 : (⟨S64x2048, .i32⟩ : BufTy).Contents (Elt F) → (⟨S64x2048x1, .i32⟩ : BufTy).Contents (Elt F)),
    unary main_v48 main_v51 (broadcastInDim S64x2048x1 ![0, 1] bcast_S64x2048_S64x2048x1_0_1 : (⟨S64x2048, .i32⟩ : BufTy).Contents (Elt F) → (⟨S64x2048x1, .i32⟩ : BufTy).Contents (Elt F)),
    binary main_v50 main_v51 main_v52 ((fun a b => concatenate S64x2048x2 2 [⟨S64x2048x1, a⟩, ⟨S64x2048x1, b⟩] concatenates_S64x2048x1_S64x2048x1_S64x2048x2_d2) : (⟨S64x2048x1, .i32⟩ : BufTy).Contents (Elt F) → (⟨S64x2048x1, .i32⟩ : BufTy).Contents (Elt F) → (⟨S64x2048x2, .i32⟩ : BufTy).Contents (Elt F)),
    binary main_arg0 main_v52 main_v53 ((fun x i => Host.gather gather_S64x256x256_S64x2048x2_S64x2048x256_2_01_n_n_01_2_11256 x i) : (⟨S64x256x256, .f32⟩ : BufTy).Contents (Elt F) → (⟨S64x2048x2, .i32⟩ : BufTy).Contents (Elt F) → (⟨S64x2048x256, .f32⟩ : BufTy).Contents (Elt F)),
    binary main_v36 main_v53 main_v54 (addf : (⟨S64x2048x256, .f32⟩ : BufTy).Contents (Elt F) → (⟨S64x2048x256, .f32⟩ : BufTy).Contents (Elt F) → (⟨S64x2048x256, .f32⟩ : BufTy).Contents (Elt F)),
    reshape main_v54 main_v55 rfl shapeCasts_S64x2048x256_S131072x256,
    binary main_v55 main_arg2 main_v56 ((fun l r => Host.dotGeneral dot_S131072x256_S256x512_S131072x512_1_0_0_1_n_n none l r) : (⟨S131072x256, .f32⟩ : BufTy).Contents (Elt F) → (⟨S256x512, .f32⟩ : BufTy).Contents (Elt F) → (⟨S131072x512, .f32⟩ : BufTy).Contents (Elt F)),
    unary main_arg3 main_v57 (broadcastInDim S1x512 ![1] bcast_S512_S1x512_1 : (⟨S512, .f32⟩ : BufTy).Contents (Elt F) → (⟨S1x512, .f32⟩ : BufTy).Contents (Elt F)),
    unary main_v57 main_v58 (broadcastInDim S131072x512 ![0, 1] bcast_S1x512_S131072x512_0_1 : (⟨S1x512, .f32⟩ : BufTy).Contents (Elt F) → (⟨S131072x512, .f32⟩ : BufTy).Contents (Elt F)),
    binary main_v56 main_v58 main_v59 (addf : (⟨S131072x512, .f32⟩ : BufTy).Contents (Elt F) → (⟨S131072x512, .f32⟩ : BufTy).Contents (Elt F) → (⟨S131072x512, .f32⟩ : BufTy).Contents (Elt F)),
    nullary main_cst (constant S_ .f32 0x00000000#32),
    binary main_v59 main_cst main_v60 ((fun x v => Host.reduceAdd x v reducesTo_S131072x512_S512_d0 h_S_) : (⟨S131072x512, .f32⟩ : BufTy).Contents (Elt F) → (⟨S_, .f32⟩ : BufTy).Contents (Elt F) → (⟨S512, .f32⟩ : BufTy).Contents (Elt F)),
    nullary main_cst_11 (constant S_ .f32 0x48000000#32),
    unary main_cst_11 main_v61 (broadcastInDim S512 ![] bcast_S_S512 : (⟨S_, .f32⟩ : BufTy).Contents (Elt F) → (⟨S512, .f32⟩ : BufTy).Contents (Elt F)),
    binary main_v60 main_v61 main_v62 (Host.divf : (⟨S512, .f32⟩ : BufTy).Contents (Elt F) → (⟨S512, .f32⟩ : BufTy).Contents (Elt F) → (⟨S512, .f32⟩ : BufTy).Contents (Elt F)),
    nullary main_c_12 (constantI S_ 32 0#32),
    TRef.nullary main_call0.cst (constant S_ .f32 0x00000000#32),
    TRef.binary (.of main_v59 : TRef sig ⟨S131072x512, .f32⟩) main_call0.cst main_call0.v0 (fun x v => Host.reduceAdd x v reducesTo_S131072x512_S512_d0 h_S_),
    TRef.unary main_call0.v0 main_call0.v1 (broadcastInDim S1x512 ![1] bcast_S512_S1x512_1),
    TRef.nullary main_call0.cst_0 (constant S_ .f32 0x48000000#32),
    TRef.unary main_call0.cst_0 main_call0.v2 (broadcastInDim S1x512 ![] bcast_S_S1x512),
    TRef.binary main_call0.v1 main_call0.v2 main_call0.v3 Host.divf,
    TRef.unary main_call0.v3 main_call0.v4 (broadcastInDim S131072x512 ![0, 1] bcast_S1x512_S131072x512_0_1),
    TRef.binary (.of main_v59 : TRef sig ⟨S131072x512, .f32⟩) main_call0.v4 main_call0.v5 subf,
    TRef.binary main_call0.v5 main_call0.v5 main_call0.v6 mulf,
    TRef.unary (.of main_c_12 : TRef sig ⟨S_, .i32⟩) main_call0.v7 (sitofp .f32),
    TRef.nullary main_call0.cst_1 (constant S_ .f32 0x48000000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S131072x512_S512_d0 h_S_),
    TRef.unary main_call0.v8 main_call0.v10 (broadcastInDim S512 ![] bcast_S_S512),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S512 ![] bcast_S_S512),
    TRef.ternary main_call0.v12 main_call0.v11 main_call0.call0.v1 main_call0.call0.v2 (fun p a b => select (broadcastInDim S512 ![] bcast_S_S512 p) a b),
    unary main_v62 main_v64 (broadcastInDim S1x512 ![1] bcast_S512_S1x512_1 : (⟨S512, .f32⟩ : BufTy).Contents (Elt F) → (⟨S1x512, .f32⟩ : BufTy).Contents (Elt F)),
    unary main_v64 main_v65 (broadcastInDim S131072x512 ![0, 1] bcast_S1x512_S131072x512_0_1 : (⟨S1x512, .f32⟩ : BufTy).Contents (Elt F) → (⟨S131072x512, .f32⟩ : BufTy).Contents (Elt F)),
    binary main_v59 main_v65 main_v66 (subf : (⟨S131072x512, .f32⟩ : BufTy).Contents (Elt F) → (⟨S131072x512, .f32⟩ : BufTy).Contents (Elt F) → (⟨S131072x512, .f32⟩ : BufTy).Contents (Elt F)),
    nullary main_cst_13 (constant S_ .f32 0x3727C5AC#32),
    unary main_cst_13 main_v67 (broadcastInDim S512 ![] bcast_S_S512 : (⟨S_, .f32⟩ : BufTy).Contents (Elt F) → (⟨S512, .f32⟩ : BufTy).Contents (Elt F)),
    binary main_v63 main_v67 main_v68 (addf : (⟨S512, .f32⟩ : BufTy).Contents (Elt F) → (⟨S512, .f32⟩ : BufTy).Contents (Elt F) → (⟨S512, .f32⟩ : BufTy).Contents (Elt F)),
    unary main_v68 main_v69 (Host.rsqrt : (⟨S512, .f32⟩ : BufTy).Contents (Elt F) → (⟨S512, .f32⟩ : BufTy).Contents (Elt F)),
    unary main_v69 main_v70 (broadcastInDim S1x512 ![1] bcast_S512_S1x512_1 : (⟨S512, .f32⟩ : BufTy).Contents (Elt F) → (⟨S1x512, .f32⟩ : BufTy).Contents (Elt F)),
    unary main_v70 main_v71 (broadcastInDim S131072x512 ![0, 1] bcast_S1x512_S131072x512_0_1 : (⟨S1x512, .f32⟩ : BufTy).Contents (Elt F) → (⟨S131072x512, .f32⟩ : BufTy).Contents (Elt F)),
    binary main_v66 main_v71 main_v72 (mulf : (⟨S131072x512, .f32⟩ : BufTy).Contents (Elt F) → (⟨S131072x512, .f32⟩ : BufTy).Contents (Elt F) → (⟨S131072x512, .f32⟩ : BufTy).Contents (Elt F)),
    unary main_arg4 main_v73 (broadcastInDim S1x512 ![1] bcast_S512_S1x512_1 : (⟨S512, .f32⟩ : BufTy).Contents (Elt F) → (⟨S1x512, .f32⟩ : BufTy).Contents (Elt F)),
    unary main_v73 main_v74 (broadcastInDim S131072x512 ![0, 1] bcast_S1x512_S131072x512_0_1 : (⟨S1x512, .f32⟩ : BufTy).Contents (Elt F) → (⟨S131072x512, .f32⟩ : BufTy).Contents (Elt F)),
    binary main_v72 main_v74 main_v75 (mulf : (⟨S131072x512, .f32⟩ : BufTy).Contents (Elt F) → (⟨S131072x512, .f32⟩ : BufTy).Contents (Elt F) → (⟨S131072x512, .f32⟩ : BufTy).Contents (Elt F)),
    unary main_arg5 main_v76 (broadcastInDim S1x512 ![1] bcast_S512_S1x512_1 : (⟨S512, .f32⟩ : BufTy).Contents (Elt F) → (⟨S1x512, .f32⟩ : BufTy).Contents (Elt F)),
    unary main_v76 main_v77 (broadcastInDim S131072x512 ![0, 1] bcast_S1x512_S131072x512_0_1 : (⟨S1x512, .f32⟩ : BufTy).Contents (Elt F) → (⟨S131072x512, .f32⟩ : BufTy).Contents (Elt F)),
    binary main_v75 main_v77 main_v78 (addf : (⟨S131072x512, .f32⟩ : BufTy).Contents (Elt F) → (⟨S131072x512, .f32⟩ : BufTy).Contents (Elt F) → (⟨S131072x512, .f32⟩ : BufTy).Contents (Elt F)),
    TRef.nullary main_call1.cst (constant S_ .f32 0x00000000#32),
    TRef.unary main_call1.cst main_call1.v0 (broadcastInDim S131072x512 ![] bcast_S_S131072x512),
    TRef.binary (.of main_v78 : TRef sig ⟨S131072x512, .f32⟩) main_call1.v0 main_call1.v1 maximumf,
    binary main_v79 main_arg6 main_v80 ((fun l r => Host.dotGeneral dot_S131072x512_S512x256_S131072x256_1_0_0_1_n_n none l r) : (⟨S131072x512, .f32⟩ : BufTy).Contents (Elt F) → (⟨S512x256, .f32⟩ : BufTy).Contents (Elt F) → (⟨S131072x256, .f32⟩ : BufTy).Contents (Elt F)),
    unary main_arg7 main_v81 (broadcastInDim S1x256 ![1] bcast_S256_S1x256_1 : (⟨S256, .f32⟩ : BufTy).Contents (Elt F) → (⟨S1x256, .f32⟩ : BufTy).Contents (Elt F)),
    unary main_v81 main_v82 (broadcastInDim S131072x256 ![0, 1] bcast_S1x256_S131072x256_0_1 : (⟨S1x256, .f32⟩ : BufTy).Contents (Elt F) → (⟨S131072x256, .f32⟩ : BufTy).Contents (Elt F)),
    binary main_v80 main_v82 main_v83 (addf : (⟨S131072x256, .f32⟩ : BufTy).Contents (Elt F) → (⟨S131072x256, .f32⟩ : BufTy).Contents (Elt F) → (⟨S131072x256, .f32⟩ : BufTy).Contents (Elt F)) ]

/-- Every operation touches TensorCore buffers only. -/
theorem ops_sub : (ops : List (HloOp τ sig (Elt F))).Forall fun op => op.bufs ⊆ tcRefs τ sig :=
  ⟨nullary_bufs_sub .., unary_bufs_sub .., unary_bufs_sub .., reshape_bufs_sub .., nullary_bufs_sub .., unary_bufs_sub ..,
    binary_bufs_sub .., nullary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    unary_bufs_sub .., unary_bufs_sub .., unary_bufs_sub .., binary_bufs_sub .., binary_bufs_sub .., unary_bufs_sub ..,
    reshape_bufs_sub .., nullary_bufs_sub .., unary_bufs_sub .., binary_bufs_sub .., nullary_bufs_sub .., unary_bufs_sub ..,
    binary_bufs_sub .., ternary_bufs_sub .., nullary_bufs_sub .., unary_bufs_sub .., binary_bufs_sub .., nullary_bufs_sub ..,
    unary_bufs_sub .., binary_bufs_sub .., ternary_bufs_sub .., unary_bufs_sub .., unary_bufs_sub .., unary_bufs_sub ..,
    binary_bufs_sub .., binary_bufs_sub .., binary_bufs_sub .., unary_bufs_sub .., reshape_bufs_sub .., nullary_bufs_sub ..,
    unary_bufs_sub .., binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub ..,
    ternary_bufs_sub .., unary_bufs_sub .., unary_bufs_sub .., unary_bufs_sub .., binary_bufs_sub .., binary_bufs_sub ..,
    binary_bufs_sub .., reshape_bufs_sub .., binary_bufs_sub .., unary_bufs_sub .., unary_bufs_sub .., binary_bufs_sub ..,
    nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub .., binary_bufs_sub ..,
    unary_bufs_sub .., unary_bufs_sub .., binary_bufs_sub ..⟩

end Cert.ReferenceIdeal.Run

end
-- ==== Proof.RefTerm.lean ====
/-
  The reference program's result as one term of its argument arrays, stage by stage in the order the program
  computes them: the batch and atom start indices (negative ones wrapped by the axis extent), the three gathers
  added and flattened to 131072 rows, the first linear layer, its column mean and its column variance as the mean
  of squared deviations (guarded by a test that the count is positive), the inverse deviation, the normalised,
  scaled, shifted and rectified layer, the second linear layer.
-/
import proofs.«415157_j83416854823432_1_alg».proof.Proof.Gen.ReferenceIdeal

noncomputable section

namespace Cert.ReferenceIdeal.Term

open Cert.ReferenceIdeal Cert.ReferenceIdeal.Gen Idealize.ShloMosaic

variable {F : FTy → Type} [FloatOps F]

/-- The batch number of each batch, as a column; a negative one would be wrapped by 64. -/
def bcol : IVec S64x1 32 :=
  select (cmpi .slt (broadcastInDim S64x1 ![0] bcast_S64_S64x1_0 (iotaInDim S64 32 0))
      (broadcastInDim S64x1 ![] bcast_S_S64x1 (constantI S_ 32 0#32)))
    (addi (broadcastInDim S64x1 ![0] bcast_S64_S64x1_0 (iotaInDim S64 32 0))
      (broadcastInDim S64x1 ![] bcast_S_S64x1 (constantI S_ 32 64#32)))
    (broadcastInDim S64x1 ![0] bcast_S64_S64x1_0 (iotaInDim S64 32 0))

/-- One column of the atom table, a negative entry wrapped by 256. -/
def wrapT (s : IVec S64x2048 32) : IVec S64x2048 32 :=
  select (cmpi .slt s (broadcastInDim S64x2048 ![] bcast_S_S64x2048 (constantI S_ 32 0#32)))
    (addi s (broadcastInDim S64x2048 ![] bcast_S_S64x2048 (constantI S_ 32 256#32))) s

/-- The start indices (batch, atom) of one gather, from one column of the atom table. -/
def startIdx (s : IVec S64x2048 32) : IVec S64x2048x2 32 :=
  concatenate S64x2048x2 2
    [⟨S64x2048x1, broadcastInDim S64x2048x1 ![0, 1] bcast_S64x2048_S64x2048x1_0_1
        (broadcastInDim S64x2048 ![0, 1] bcast_S64x1_S64x2048_0_1 bcol)⟩,
     ⟨S64x2048x1, broadcastInDim S64x2048x1 ![0, 1] bcast_S64x2048_S64x2048x1_0_1 (wrapT s)⟩]
    concatenates_S64x2048x1_S64x2048x1_S64x2048x2_d2

/-- The three columns of the atom table. -/
def col0 (tbl : IVec S64x2048x3 32) : IVec S64x2048 32 :=
  shapeCast S64x2048 (extractStridedSlice S64x2048x1 ![0, 0, 0] tbl slices_S64x2048x3_S64x2048x1_0_0_0) shapeCasts_S64x2048x1_S64x2048
def col1 (tbl : IVec S64x2048x3 32) : IVec S64x2048 32 :=
  shapeCast S64x2048 (extractStridedSlice S64x2048x1 ![0, 0, 1] tbl slices_S64x2048x3_S64x2048x1_0_0_1) shapeCasts_S64x2048x1_S64x2048
def col2 (tbl : IVec S64x2048x3 32) : IVec S64x2048 32 :=
  shapeCast S64x2048 (extractStridedSlice S64x2048x1 ![0, 0, 2] tbl slices_S64x2048x3_S64x2048x1_0_0_2) shapeCasts_S64x2048x1_S64x2048

/-- One gather of atom rows. -/
def gath (z : FVec F S64x256x256 .f32) (s : IVec S64x2048 32) : FVec F S64x2048x256 .f32 :=
  Host.gather gather_S64x256x256_S64x2048x2_S64x2048x256_2_01_n_n_01_2_11256 z (startIdx s)

/-- The three gathered rows added, flattened to one row per angle. -/
def xs (z : FVec F S64x256x256 .f32) (tbl : IVec S64x2048x3 32) : FVec F S131072x256 .f32 :=
  shapeCast S131072x256 (addf (addf (gath z (col0 tbl)) (gath z (col1 tbl))) (gath z (col2 tbl))) shapeCasts_S64x2048x256_S131072x256

/-- A length-512 vector as a row under every one of the 131072 rows. -/
def rows512 (v : FVec F S512 .f32) : FVec F S131072x512 .f32 :=
  broadcastInDim S131072x512 ![0, 1] bcast_S1x512_S131072x512_0_1 (broadcastInDim S1x512 ![1] bcast_S512_S1x512_1 v)

/-- The first linear layer. -/
def hid (z : FVec F S64x256x256 .f32) (tbl : IVec S64x2048x3 32) (W1 : FVec F S256x512 .f32) (b1 : FVec F S512 .f32) :
    FVec F S131072x512 .f32 :=
  addf (Host.dotGeneral dot_S131072x256_S256x512_S131072x512_1_0_0_1_n_n none (xs z tbl) W1) (rows512 b1)

/-- The column mean of a 131072 × 512 array. -/
def mean (h : FVec F S131072x512 .f32) : FVec F S512 .f32 :=
  Host.divf (Host.reduceAdd h (constant S_ .f32 0x00000000#32) reducesTo_S131072x512_S512_d0 h_S_)
    (broadcastInDim S512 ![] bcast_S_S512 (constant S_ .f32 0x48000000#32))

/-- The count 131072 minus the degrees of freedom taken off, 0. -/
def dof : FVec F S_ .f32 := subf (constant S_ .f32 0x48000000#32) (sitofp .f32 (constantI S_ 32 0#32))

/-- The column variance as the mean of squared deviations from the column mean, where the count is positive
    (and the quiet not-a-number word otherwise). -/
def var (h : FVec F S131072x512 .f32) : FVec F S512 .f32 :=
  select (broadcastInDim S512 ![] bcast_S_S512 (cmpf .ogt (dof (F := F)) (constant S_ .f32 0x00000000#32)))
    (Host.divf
      (Host.reduceAdd
        (mulf
          (subf h (broadcastInDim S131072x512 ![0, 1] bcast_S1x512_S131072x512_0_1
            (Host.divf (broadcastInDim S1x512 ![1] bcast_S512_S1x512_1
                (Host.reduceAdd h (constant S_ .f32 0x00000000#32) reducesTo_S131072x512_S512_d0 h_S_))
              (broadcastInDim S1x512 ![] bcast_S_S1x512 (constant S_ .f32 0x48000000#32)))))
          (subf h (broadcastInDim S131072x512 ![0, 1] bcast_S1x512_S131072x512_0_1
            (Host.divf (broadcastInDim S1x512 ![1] bcast_S512_S1x512_1
                (Host.reduceAdd h (constant S_ .f32 0x00000000#32) reducesTo_S131072x512_S512_d0 h_S_))
              (broadcastInDim S1x512 ![] bcast_S_S1x512 (constant S_ .f32 0x48000000#32))))))
        (constant S_ .f32 0x00000000#32) reducesTo_S131072x512_S512_d0 h_S_)
      (broadcastInDim S512 ![] bcast_S_S512 (dof (F := F))))
    (broadcastInDim S512 ![] bcast_S_S512 (id (constant S_ .f32 0x7FC00000#32)))

/-- The inverse standard deviation. -/
def inv (h : FVec F S131072x512 .f32) : FVec F S512 .f32 :=
  Host.rsqrt (addf (var h) (broadcastInDim S512 ![] bcast_S_S512 (constant S_ .f32 0x3727C5AC#32)))

/-- Normalise, scale, shift, rectify. -/
def act (h : FVec F S131072x512 .f32) (γ β : FVec F S512 .f32) : FVec F S131072x512 .f32 :=
  maximumf (addf (mulf (mulf (subf h (rows512 (mean h))) (rows512 (inv h))) (rows512 γ)) (rows512 β))
    (broadcastInDim S131072x512 ![] bcast_S_S131072x512 (constant S_ .f32 0x00000000#32))

/-- The reference's result. -/
def out (z : FVec F S64x256x256 .f32) (tbl : IVec S64x2048x3 32) (W1 : FVec F S256x512 .f32) (b1 γ β : FVec F S512 .f32)
    (W2 : FVec F S512x256 .f32) (b2 : FVec F S256 .f32) : FVec F S131072x256 .f32 :=
  addf (Host.dotGeneral dot_S131072x512_S512x256_S131072x256_1_0_0_1_n_n none (act (hid z tbl W1 b1) γ β) W2)
    (broadcastInDim S131072x256 ![0, 1] bcast_S1x256_S131072x256_0_1 (broadcastInDim S1x256 ![1] bcast_S256_S1x256_1 b2))

end Cert.ReferenceIdeal.Term

end
-- ==== Proof.RefRun.lean ====
/-
  The reference program's run: that the program is the sequence of its host operations, and that every weakly fair
  execution ends with the result buffer at the term of the argument arrays the stages compose to, the arguments
  unchanged.
-/
import proofs.«415157_j83416854823432_1_alg».proof.Proof.RefOps
import proofs.«415157_j83416854823432_1_alg».proof.Proof.RefTerm
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- The program is that straight line: its two windows of statements run one after the other, each outlined
    function unfolded at its call and its record at its fields; once sequencing is reassociated both sides are
    one chain of the same steps. -/
theorem main_eq (c : Dev nD) : main (F := F) c = seq ops := by
  simp only [main, main_part0, main_part1, fn_var.body, fn_where.body, fn_relu.body, seq, bind_assoc, pure_bind]

/-- The signature scopes no TensorCore buffer. -/
theorem scopedRefs_eq : (Finset.univ.filter fun b : Ref sig .tc => b.isScoped) = ∅ := by decide
/-- The signature scopes no semaphore. -/
theorem scopedSems_eq : (Finset.univ.filter fun sm : SemLoc sig => sm.isScoped .tc) = ∅ := by decide

attribute [local irreducible] Host.reduceAdd Host.gather concatenate in
set_option maxRecDepth 65536 in
set_option maxHeartbeats 4000000 in
/-- The fold at the result buffer is the stages' composed term, by computation: the fold unrolled, each operation
    decides whether the buffer read is the one it writes, and a typed reference's transport is the identity at a
    literal reference. The column sums, the gathers and the concatenations are kept folded meanwhile: the equation
    compares the two sides' spines (the first layer occurs seven times under the result: in the deviation, in the
    mean, and five times in the variance) and never looks inside a sum over the 131072 rows. -/
theorem out_eq (V : Valuation τ sig (Elt F)) :
    after ops V (main_v83 : DevRef τ sig)
      = Term.out (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) := by
  simp only [after_cons, after_nil]
  rfl

/-! No operation writes an argument's buffer: each keeps its launch contents through the fold. -/

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

theorem arg4_eq (V : Valuation τ sig (Elt F)) :
    after ops V (main_arg4 : DevRef τ sig) = V (main_arg4 : DevRef τ sig) := by
  simp only [after_cons, after_nil]
  rfl

theorem arg5_eq (V : Valuation τ sig (Elt F)) :
    after ops V (main_arg5 : DevRef τ sig) = V (main_arg5 : DevRef τ sig) := by
  simp only [after_cons, after_nil]
  rfl

theorem arg6_eq (V : Valuation τ sig (Elt F)) :
    after ops V (main_arg6 : DevRef τ sig) = V (main_arg6 : DevRef τ sig) := by
  simp only [after_cons, after_nil]
  rfl

theorem arg7_eq (V : Valuation τ sig (Elt F)) :
    after ops V (main_arg7 : DevRef τ sig) = V (main_arg7 : DevRef τ sig) := by
  simp only [after_cons, after_nil]
  rfl

/-- Every weakly fair execution of the reference terminates with its result at the stages' composed term of the
    argument arrays, and the arguments as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v83) = Term.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  exact (θ_run defs _ _).mono (fun _ h c => ⟨(h c main_v83).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _)⟩)
    (run_seq scopedRefs_eq scopedSems_eq defs main (fun _ => ops) main_eq (fun _ => ops_sub) m ρ)

end Cert.ReferenceIdeal.Run

end
-- ==== Proof.RefRead.lean ====
/-
  The reference's term read index by index: with every atom-table word in 0 … 255 no start index is wrapped or
  clamped, each gather reads the named atom's row, and the term is the specification with the variance taken as the
  mean of squared deviations.
-/
import proofs.«415157_j83416854823432_1_alg».proof.Proof.RefTerm
import proofs.«415157_j83416854823432_1_alg».proof.Proof.Spec
import Idealize.ShloMosaic.Lib.ValueIdx
import Idealize.ShloMosaic.Lib.ValueLayout
import Idealize.ShloMosaic.Lib.Pipeline.Value
import Idealize.ShloMosaic.Lib.StableHlo.Predicate
import Idealize.ShloMosaic.Lib.StackMember
import Idealize.ShloMosaic.PureOps.Ideal.Laws

noncomputable section

open scoped BigOperators

namespace Cert.ReferenceIdeal.Read

open Cert.ReferenceIdeal Cert.ReferenceIdeal.Gen Idealize.ShloMosaic Idealize.ShloMosaic.ValueIdx

/-! ## The start indices -/

/-- A word below 2³¹ is not negative: the signed test "below zero" gives the bit 0. -/
theorem slt_zero_of_small (w : BitVec 32) (hw : w.toNat < 2 ^ 31) : IntOp.cmpi .slt w 0#32 = 0#1 := by
  refine eq_zero_of_ne_one fun h => ?_
  have := (StableHlo.Predicate.slt_iff_toNat (a := w) (b := 0#32) hw (by decide)).mp h
  simp at this

/-- The batch column holds, in row b, the number b: an iota along the batch axis, never negative, so never wrapped. -/
theorem bcol_apply (b : Fin 64) : Term.bcol (ix2 b (0 : Fin 1)) = BitVec.ofNat 32 b.val := by
  have hi : broadcastInDim S64x1 ![0] bcast_S64_S64x1_0 (iotaInDim S64 32 0) (ix2 b (0 : Fin 1)) = BitVec.ofNat 32 b.val :=
    broadcastInDim_apply ![0] bcast_S64_S64x1_0 (iotaInDim S64 32 0) (ix2 b (0 : Fin 1)) (ix1 b)
      (fun a => match a with | ⟨0, _⟩ => rfl)
  unfold Term.bcol
  rw [select_apply, hi]
  show Scalar.select (IntOp.cmpi .slt (BitVec.ofNat 32 b.val) 0#32) _ _ = _
  rw [slt_zero_of_small _ (by rw [BitVec.toNat_ofNat]; have := b.isLt; omega), select_zero]

/-- A table column whose word at an index is below 256 is not wrapped there. -/
theorem wrapT_apply (s : IVec S64x2048 32) (i : S64x2048.Idx) (hi : (s i).toNat < 256) : Term.wrapT s i = s i := by
  unfold Term.wrapT
  rw [select_apply]
  show Scalar.select (IntOp.cmpi .slt (s i) 0#32) _ _ = _
  rw [slt_zero_of_small _ (by omega), select_zero]

/-- One column of the atom table: the slice at offset K on the last axis, its unit axis dropped, reads the table at (b, t, K). -/
theorem slice_col_apply (tbl : IVec S64x2048x3 32) (off : Fin 3 → Nat) (h : S64x2048x3.Slices off S64x2048x1) (K : Fin 3)
    (h0 : off 0 = 0) (h1 : off 1 = 0) (h2 : off 2 = K.val) (b : Fin 64) (t : Fin 2048) :
    shapeCast S64x2048 (extractStridedSlice S64x2048x1 off tbl h) shapeCasts_S64x2048x1_S64x2048 (ix2 b t)
      = tbl (ix3 b t K) := by
  refine (shapeCast_apply _ shapeCasts_S64x2048x1_S64x2048 (ix2 b t) (ix3 b t (0 : Fin 1)) ?_).trans ?_
  · rw [Shape.rowMajor_val_three, Shape.rowMajor_val_two]
    show (b.val * 2048 + t.val) * 1 + 0 = b.val * 2048 + t.val
    omega
  · refine extractStridedSlice_apply off tbl h (ix3 b t (0 : Fin 1)) (ix3 b t K) fun a => ?_
    match a with
    | ⟨0, _⟩ => show b.val = off 0 + b.val; omega
    | ⟨1, _⟩ => show t.val = off 1 + t.val; omega
    | ⟨2, _⟩ => show K.val = off 2 + 0; omega

theorem col0_apply (tbl : IVec S64x2048x3 32) (b : Fin 64) (t : Fin 2048) :
    Term.col0 tbl (ix2 b t) = tbl (ix3 b t (0 : Fin 3)) :=
  slice_col_apply tbl ![0, 0, 0] slices_S64x2048x3_S64x2048x1_0_0_0 0 rfl rfl rfl b t
theorem col1_apply (tbl : IVec S64x2048x3 32) (b : Fin 64) (t : Fin 2048) :
    Term.col1 tbl (ix2 b t) = tbl (ix3 b t (1 : Fin 3)) :=
  slice_col_apply tbl ![0, 0, 1] slices_S64x2048x3_S64x2048x1_0_0_1 1 rfl rfl rfl b t
theorem col2_apply (tbl : IVec S64x2048x3 32) (b : Fin 64) (t : Fin 2048) :
    Term.col2 tbl (ix2 b t) = tbl (ix3 b t (2 : Fin 3)) :=
  slice_col_apply tbl ![0, 0, 2] slices_S64x2048x3_S64x2048x1_0_0_2 2 rfl rfl rfl b t

/-- A column over 64 rows, repeated along a new axis of 2048 and then given a trailing unit axis, reads its row. -/
theorem bcol_wide_apply (c : IVec S64x1 32) (b : Fin 64) (t : Fin 2048) :
    broadcastInDim S64x2048x1 ![0, 1] bcast_S64x2048_S64x2048x1_0_1
        (broadcastInDim S64x2048 ![0, 1] bcast_S64x1_S64x2048_0_1 c) (ix3 b t (0 : Fin 1))
      = c (ix2 b (0 : Fin 1)) := by
  refine (broadcastInDim_apply ![0, 1] bcast_S64x2048_S64x2048x1_0_1 _ (ix3 b t (0 : Fin 1)) (ix2 b t) fun a => ?_).trans ?_
  · match a with
    | ⟨0, _⟩ => rfl
    | ⟨1, _⟩ => rfl
  · exact broadcastInDim_apply ![0, 1] bcast_S64x1_S64x2048_0_1 c (ix2 b t) (ix2 b (0 : Fin 1)) fun a => by
      match a with
      | ⟨0, _⟩ => rfl
      | ⟨1, _⟩ => rfl

/-- A 64 × 2048 array given a trailing unit axis reads the same entry. -/
theorem unit_axis_apply (c : IVec S64x2048 32) (b : Fin 64) (t : Fin 2048) :
    broadcastInDim S64x2048x1 ![0, 1] bcast_S64x2048_S64x2048x1_0_1 c (ix3 b t (0 : Fin 1)) = c (ix2 b t) :=
  broadcastInDim_apply ![0, 1] bcast_S64x2048_S64x2048x1_0_1 c (ix3 b t (0 : Fin 1)) (ix2 b t) fun a => by
    match a with
    | ⟨0, _⟩ => rfl
    | ⟨1, _⟩ => rfl

/-- The start index of angle t of batch b: component 0 is the batch column's row b … -/
theorem startIdx_apply_zero (s : IVec S64x2048 32) (b : Fin 64) (t : Fin 2048) :
    Term.startIdx s (ix3 b t (0 : Fin 2)) = Term.bcol (ix2 b (0 : Fin 1)) := by
  unfold Term.startIdx
  refine (concatenate_pair_apply_left (2 : Fin S64x2048x2.rank) _ _ concatenates_S64x2048x1_S64x2048x1_S64x2048x2_d2
    (ix3 b t (0 : Fin 2)) rfl (ix3 b t (0 : Fin 1)) fun a => ?_).trans (bcol_wide_apply Term.bcol b t)
  match a with
  | ⟨0, _⟩ => rfl
  | ⟨1, _⟩ => rfl
  | ⟨2, _⟩ => rfl

/-- … and component 1 the (wrapped) table column's entry. -/
theorem startIdx_apply_one (s : IVec S64x2048 32) (b : Fin 64) (t : Fin 2048) :
    Term.startIdx s (ix3 b t (1 : Fin 2)) = Term.wrapT s (ix2 b t) := by
  unfold Term.startIdx
  refine (concatenate_pair_apply_right (2 : Fin S64x2048x2.rank) _ _ concatenates_S64x2048x1_S64x2048x1_S64x2048x2_d2
    (ix3 b t (1 : Fin 2)) rfl rfl (ix3 b t (0 : Fin 1)) (fun a ha => ?_) rfl).trans (unit_axis_apply (Term.wrapT s) b t)
  match a with
  | ⟨0, _⟩ => rfl
  | ⟨1, _⟩ => rfl
  | ⟨2, _⟩ => exact absurd rfl ha

/-! ## The gather -/

/-- The gather's dimension numbers: start indices (batch, atom) on the operand's axes 0 and 1, both collapsed; the
    whole feature axis as the offset axis. -/
abbrev GD : GatherDims S64x256x256 S64x2048x2 S64x2048x256 :=
  gather_S64x256x256_S64x2048x2_S64x2048x256_2_01_n_n_01_2_11256

/-- Operand axis 0 (batch): start component 0, read signed, clamped into 0 … 63; no batching or offset coordinate. -/
theorem gd_coord0 (idx : IVec S64x2048x2 32) (b : Fin 64) (t : Fin 2048) (d : Fin 256) :
    GD.start (ix3 b t d) idx 0 + GD.batchCoord (ix3 b t d) 0 + GD.offCoord (ix3 b t d) 0
      = min (idx (ix3 b t (0 : Fin 2))).toInt.toNat 63 := by
  have hb : (0 : Fin 3) ∉ GD.operandBatchingDims := List.not_mem_nil
  have hm : (0 : Fin 3) ∈ GD.startIndexMap := by show (0 : Fin 3) ∈ [0, 1]; decide
  have hk : (0 : Fin 3) ∉ GD.sKept := fun h => ((GD.mem_sKept 0).mp h).1 (by show (0 : Fin 3) ∈ [0, 1]; decide)
  rw [GatherDims.batchCoord_eq_zero _ _ _ hb, GatherDims.offCoord_eq_zero _ _ _ hk, Nat.add_zero]
  unfold GatherDims.start
  rw [dif_pos hm]
  have hsi : GD.siIdx (ix3 b t d) ⟨List.idxOf (0 : Fin 3) GD.startIndexMap, List.idxOf_lt_length_iff.2 hm⟩
      = ix3 b t (0 : Fin 2) := by
    funext c; refine Fin.ext ?_
    match c with
    | ⟨0, _⟩ => rfl
    | ⟨1, _⟩ => rfl
    | ⟨2, _⟩ => rfl
  rw [hsi]
  rfl

/-- Operand axis 1 (atom): start component 1, read signed, clamped into 0 … 255. -/
theorem gd_coord1 (idx : IVec S64x2048x2 32) (b : Fin 64) (t : Fin 2048) (d : Fin 256) :
    GD.start (ix3 b t d) idx 1 + GD.batchCoord (ix3 b t d) 1 + GD.offCoord (ix3 b t d) 1
      = min (idx (ix3 b t (1 : Fin 2))).toInt.toNat 255 := by
  have hb : (1 : Fin 3) ∉ GD.operandBatchingDims := List.not_mem_nil
  have hm : (1 : Fin 3) ∈ GD.startIndexMap := by show (1 : Fin 3) ∈ [0, 1]; decide
  have hk : (1 : Fin 3) ∉ GD.sKept := fun h => ((GD.mem_sKept 1).mp h).1 (by show (1 : Fin 3) ∈ [0, 1]; decide)
  rw [GatherDims.batchCoord_eq_zero _ _ _ hb, GatherDims.offCoord_eq_zero _ _ _ hk, Nat.add_zero]
  unfold GatherDims.start
  rw [dif_pos hm]
  have hsi : GD.siIdx (ix3 b t d) ⟨List.idxOf (1 : Fin 3) GD.startIndexMap, List.idxOf_lt_length_iff.2 hm⟩
      = ix3 b t (1 : Fin 2) := by
    funext c; refine Fin.ext ?_
    match c with
    | ⟨0, _⟩ => rfl
    | ⟨1, _⟩ => rfl
    | ⟨2, _⟩ => rfl
  rw [hsi]
  rfl

/-- Operand axis 2 (feature): no start component; the result's coordinate on its offset axis. -/
theorem gd_coord2 (idx : IVec S64x2048x2 32) (b : Fin 64) (t : Fin 2048) (d : Fin 256) :
    GD.start (ix3 b t d) idx 2 + GD.batchCoord (ix3 b t d) 2 + GD.offCoord (ix3 b t d) 2 = d.val := by
  have hb : (2 : Fin 3) ∉ GD.operandBatchingDims := List.not_mem_nil
  have hm : (2 : Fin 3) ∉ GD.startIndexMap := by show (2 : Fin 3) ∉ [0, 1]; decide
  have hk : (2 : Fin 3) ∈ GD.sKept :=
    (GD.mem_sKept 2).mpr ⟨by show (2 : Fin 3) ∉ [0, 1]; decide, List.not_mem_nil⟩
  rw [GatherDims.batchCoord_eq_zero _ _ _ hb, Nat.add_zero]
  unfold GatherDims.start GatherDims.offCoord
  rw [dif_neg hm, dif_pos hk, Nat.zero_add]
  rfl

/-- The gather at (b, t, d), where start component 0 is the word b and start component 1 a word whose value is the
    atom a: nothing is clamped, and it reads z at (b, a, d). -/
theorem gather_apply {α : Type} (z : S64x256x256.Idx → α) (idx : IVec S64x2048x2 32) (b : Fin 64) (t : Fin 2048)
    (d : Fin 256) (a : Fin 256) (h0 : idx (ix3 b t (0 : Fin 2)) = BitVec.ofNat 32 b.val)
    (h1 : (idx (ix3 b t (1 : Fin 2))).toNat = a.val) :
    Host.gather GD z idx (ix3 b t d) = z (ix3 b a d) := by
  have hb := b.isLt
  have ha := a.isLt
  have e0 : min (idx (ix3 b t (0 : Fin 2))).toInt.toNat 63 = b.val := by
    rw [h0, StableHlo.Predicate.toInt_ofNat_small _ (by omega), Int.toNat_natCast]; omega
  have e1 : min (idx (ix3 b t (1 : Fin 2))).toInt.toNat 255 = a.val := by
    rw [StableHlo.Predicate.toInt_eq_toNat_of_lt (by omega), Int.toNat_natCast, h1]; omega
  unfold Host.gather
  refine congrArg z (funext fun ax => Fin.ext ?_)
  match ax with
  | ⟨0, _⟩ => exact (gd_coord0 idx b t d).trans e0
  | ⟨1, _⟩ => exact (gd_coord1 idx b t d).trans e1
  | ⟨2, _⟩ => exact gd_coord2 idx b t d

/-- One gather of the term at (b, t, d), its table column's word at (b, t) below 256: z at batch b, the atom that word
    names, feature d. -/
theorem gath_apply (z : FVec Ideal S64x256x256 .f32) (s : IVec S64x2048 32) (b : Fin 64) (t : Fin 2048) (d : Fin 256)
    (hs : (s (ix2 b t)).toNat < 256) :
    Term.gath (F := Ideal) z s (ix3 b t d) = z (ix3 b (Cert.Spec.atom (s (ix2 b t))) d) := by
  unfold Term.gath
  refine gather_apply z (Term.startIdx s) b t d (Cert.Spec.atom (s (ix2 b t))) ?_ ?_
  · rw [startIdx_apply_zero, bcol_apply]
  · rw [startIdx_apply_one, wrapT_apply s _ hs]
    show _ = (s (ix2 b t)).toNat % 256
    rw [Nat.mod_eq_of_lt hs]

/-- The three gathered rows added and flattened: row r = 2048·b + t is angle t of batch b. -/
theorem xs_apply (z : FVec Ideal S64x256x256 .f32) (tbl : IVec S64x2048x3 32) (hidx : ∀ i, (tbl i).toNat < 256)
    (r : Fin 131072) (d : Fin 256) :
    Term.xs (F := Ideal) z tbl (ix2 r d) = Cert.Spec.X z tbl (Cert.Spec.rowB r) (Cert.Spec.rowT r) d := by
  unfold Term.xs
  refine (shapeCast_apply _ shapeCasts_S64x2048x256_S131072x256 (ix2 r d)
    (ix3 (Cert.Spec.rowB r) (Cert.Spec.rowT r) d) ?_).trans ?_
  · rw [Shape.rowMajor_val_three, Shape.rowMajor_val_two]
    show (r.val / 2048 * 2048 + r.val % 2048) * 256 + d.val = r.val * 256 + d.val
    omega
  · rw [addf_apply, addf_apply,
      gath_apply z _ _ _ _ (by rw [col0_apply]; exact hidx _),
      gath_apply z _ _ _ _ (by rw [col1_apply]; exact hidx _),
      gath_apply z _ _ _ _ (by rw [col2_apply]; exact hidx _), col0_apply, col1_apply, col2_apply]
    rfl

/-! ## The first linear layer -/

/-- A length-512 vector laid under every one of the 131072 rows reads its entry. -/
theorem rows512_apply (v : FVec Ideal S512 .f32) (r : Fin 131072) (f : Fin 512) :
    Term.rows512 (F := Ideal) v (ix2 r f) = v (ix1 f) := by
  unfold Term.rows512
  refine (broadcastInDim_apply ![0, 1] bcast_S1x512_S131072x512_0_1 _ (ix2 r f) (ix2 (0 : Fin 1) f) fun a => ?_).trans ?_
  · match a with
    | ⟨0, _⟩ => rfl
    | ⟨1, _⟩ => rfl
  · exact broadcastInDim_apply ![1] bcast_S512_S1x512_1 v (ix2 (0 : Fin 1) f) (ix1 f) fun a => by
      match a with
      | ⟨0, _⟩ => rfl

/-- The first product at (r, f): the sum over the 256 features of row r of the left factor times column f of the right. -/
theorem dot1_apply (A : FVec Ideal S131072x256 .f32) (W : FVec Ideal S256x512 .f32) (r : Fin 131072) (f : Fin 512) :
    Host.dotGeneral (F := Ideal) dot_S131072x256_S256x512_S131072x512_1_0_0_1_n_n none A W (ix2 r f)
      = ∑ d : Fin 256, A (ix2 r d) * W (ix2 d f) :=
  StackMember.dotGeneral_plain_apply (m := 131072) (n := 512) (k := 256) none A W r f

/-- The first linear layer is the specification's. -/
theorem hid_apply (z : FVec Ideal S64x256x256 .f32) (tbl : IVec S64x2048x3 32) (W1 : FVec Ideal S256x512 .f32)
    (b1 : FVec Ideal S512 .f32) (hidx : ∀ i, (tbl i).toNat < 256) (r : Fin 131072) (f : Fin 512) :
    Term.hid (F := Ideal) z tbl W1 b1 (ix2 r f) = Cert.Spec.H z tbl W1 b1 r f := by
  unfold Term.hid Cert.Spec.H
  rw [addf_apply, dot1_apply, rows512_apply]
  refine congrArg (· + b1 (ix1 f)) (Finset.sum_congr rfl fun d _ => ?_)
  rw [xs_apply z tbl hidx]

/-! ## Column mean and variance -/

/-- The sum over the 131072 rows, from the zero word: at column f, the sum of that column. -/
theorem colsum_apply (h : FVec Ideal S131072x512 .f32) (f : Fin 512) :
    Host.reduceAdd (F := Ideal) h (constant (F := Ideal) S_ .f32 0x00000000#32) reducesTo_S131072x512_S512_d0 h_S_ (ix1 f)
      = ∑ r : Fin 131072, h (ix2 r f) := by
  have hR : S131072x512.Reduces [0] S512 := by decide
  show Ideal.hostReduceAdd reducesTo_S131072x512_S512_d0 h (Ideal.ofBits .f32 0x00000000#32) (ix1 f) = _
  rw [Ideal.hostReduceAdd_single reducesTo_S131072x512_S512_d0 hR, Ideal.ofBits_zero_f32, zero_add]
  show ∑ r : Fin 131072, h (hR.lift (ix1 f) r) = _
  refine Finset.sum_congr rfl fun r _ => congrArg h (funext fun a => Fin.ext ?_)
  match a with
  | ⟨0, _⟩ => rfl
  | ⟨1, _⟩ => rfl

/-- The column mean is the specification's: the column sum divided by the row count's word. -/
theorem mean_apply (h : FVec Ideal S131072x512 .f32) (A : Fin 131072 → Fin 512 → EReal)
    (hA : ∀ r f, h (ix2 r f) = A r f) (f : Fin 512) :
    Term.mean (F := Ideal) h (ix1 f) = Cert.Spec.meanOf A f := by
  unfold Term.mean Cert.Spec.meanOf
  show Ideal.div (Host.reduceAdd (F := Ideal) h (constant (F := Ideal) S_ .f32 0x00000000#32)
    reducesTo_S131072x512_S512_d0 h_S_ (ix1 f)) Cert.Spec.cnt = _
  rw [colsum_apply]
  simp only [hA]

/-- The count less the zero degrees of freedom taken off is the count. -/
theorem dof_apply (i : S_.Idx) : Term.dof (F := Ideal) i = Cert.Spec.cnt := by
  show Cert.Spec.cnt - (((0#32 : BitVec 32).toInt : ℝ) : EReal) = _
  rw [show (0#32 : BitVec 32).toInt = 0 from by decide]
  simp

/-- The count is positive: the guard's bit is 1. -/
theorem guard_apply (i : S_.Idx) :
    cmpf (F := Ideal) .ogt (Term.dof (F := Ideal)) (constant (F := Ideal) S_ .f32 0x00000000#32) i = 1#1 := by
  show Ideal.cmp .ogt (Term.dof (F := Ideal) i) (Ideal.ofBits .f32 0x00000000#32) = 1#1
  rw [dof_apply, Ideal.ofBits_zero_f32, Cert.Spec.cnt_eq]
  have hpos : (0 : EReal) < ((131072 : ℝ) : EReal) := by exact_mod_cast (by norm_num : (0 : ℝ) < 131072)
  unfold Ideal.cmp
  simp [hpos]

/-- The column mean laid under every row, as the variance computes it, is the specification's mean. -/
theorem meanRows_apply (h : FVec Ideal S131072x512 .f32) (A : Fin 131072 → Fin 512 → EReal)
    (hA : ∀ r f, h (ix2 r f) = A r f) (r : Fin 131072) (f : Fin 512) :
    broadcastInDim S131072x512 ![0, 1] bcast_S1x512_S131072x512_0_1
        (Host.divf (F := Ideal) (broadcastInDim S1x512 ![1] bcast_S512_S1x512_1
            (Host.reduceAdd (F := Ideal) h (constant (F := Ideal) S_ .f32 0x00000000#32) reducesTo_S131072x512_S512_d0 h_S_))
          (broadcastInDim S1x512 ![] bcast_S_S1x512 (constant (F := Ideal) S_ .f32 0x48000000#32))) (ix2 r f)
      = Cert.Spec.meanOf A f := by
  refine (broadcastInDim_apply ![0, 1] bcast_S1x512_S131072x512_0_1 _ (ix2 r f) (ix2 (0 : Fin 1) f) fun a => ?_).trans ?_
  · match a with
    | ⟨0, _⟩ => rfl
    | ⟨1, _⟩ => rfl
  · show Ideal.div (broadcastInDim S1x512 ![1] bcast_S512_S1x512_1
        (Host.reduceAdd (F := Ideal) h (constant (F := Ideal) S_ .f32 0x00000000#32) reducesTo_S131072x512_S512_d0 h_S_)
        (ix2 (0 : Fin 1) f)) Cert.Spec.cnt = _
    rw [broadcastInDim_apply ![1] bcast_S512_S1x512_1 _ (ix2 (0 : Fin 1) f) (ix1 f) (fun a => by
      match a with
      | ⟨0, _⟩ => rfl), colsum_apply]
    unfold Cert.Spec.meanOf
    simp only [hA]

/-- The column variance is the specification's mean of squared deviations: the guard holds, so the quotient is taken,
    and its divisor is the count. -/
theorem var_apply (h : FVec Ideal S131072x512 .f32) (A : Fin 131072 → Fin 512 → EReal)
    (hA : ∀ r f, h (ix2 r f) = A r f) (f : Fin 512) :
    Term.var (F := Ideal) h (ix1 f) = Cert.Spec.varR A f := by
  unfold Term.var Cert.Spec.varR
  rw [select_apply]
  show Scalar.select (cmpf (F := Ideal) .ogt (Term.dof (F := Ideal)) (constant (F := Ideal) S_ .f32 0x00000000#32) _) _ _ = _
  rw [guard_apply, select_one]
  show Ideal.div (Host.reduceAdd (F := Ideal) _ (constant (F := Ideal) S_ .f32 0x00000000#32)
    reducesTo_S131072x512_S512_d0 h_S_ (ix1 f)) (Term.dof (F := Ideal) _) = _
  rw [colsum_apply, dof_apply]
  refine congrArg (fun s => Ideal.div s Cert.Spec.cnt) (Finset.sum_congr rfl fun r _ => ?_)
  rw [mulf_apply, subf_apply, meanRows_apply h A hA, hA]

/-! ## The normalised layer and the second linear layer -/

/-- The inverse deviation: the reciprocal square root of the variance plus the guard word. -/
theorem inv_apply (h : FVec Ideal S131072x512 .f32) (A : Fin 131072 → Fin 512 → EReal)
    (hA : ∀ r f, h (ix2 r f) = A r f) (f : Fin 512) :
    Term.inv (F := Ideal) h (ix1 f) = Ideal.rsqrt (Cert.Spec.varR A f + Cert.Spec.eps) := by
  unfold Term.inv
  show Ideal.rsqrt (Term.var (F := Ideal) h (ix1 f) + Cert.Spec.eps) = _
  rw [var_apply h A hA]

/-- Normalised, scaled, shifted, rectified. -/
theorem act_apply (h : FVec Ideal S131072x512 .f32) (γ β : FVec Ideal S512 .f32) (A : Fin 131072 → Fin 512 → EReal)
    (hA : ∀ r f, h (ix2 r f) = A r f) (r : Fin 131072) (f : Fin 512) :
    Term.act (F := Ideal) h γ β (ix2 r f)
      = max ((A r f - Cert.Spec.meanOf A f) * Ideal.rsqrt (Cert.Spec.varR A f + Cert.Spec.eps) * γ (ix1 f) + β (ix1 f)) 0 := by
  unfold Term.act
  rw [maximumf_apply, addf_apply, mulf_apply, mulf_apply, subf_apply, rows512_apply, rows512_apply, rows512_apply,
    rows512_apply, mean_apply h A hA, inv_apply h A hA, hA]
  show max _ (Ideal.ofBits .f32 0x00000000#32) = _
  rw [Ideal.ofBits_zero_f32]

/-- The second product at (r, o): the sum over the 512 hidden features. -/
theorem dot2_apply (A : FVec Ideal S131072x512 .f32) (W : FVec Ideal S512x256 .f32) (r : Fin 131072) (o : Fin 256) :
    Host.dotGeneral (F := Ideal) dot_S131072x512_S512x256_S131072x256_1_0_0_1_n_n none A W (ix2 r o)
      = ∑ f : Fin 512, A (ix2 r f) * W (ix2 f o) :=
  StackMember.dotGeneral_plain_apply (m := 131072) (n := 256) (k := 512) none A W r o

/-- A length-256 vector laid under every one of the 131072 rows reads its entry. -/
theorem rows256_apply (v : FVec Ideal S256 .f32) (r : Fin 131072) (o : Fin 256) :
    broadcastInDim S131072x256 ![0, 1] bcast_S1x256_S131072x256_0_1
        (broadcastInDim S1x256 ![1] bcast_S256_S1x256_1 v) (ix2 r o) = v (ix1 o) := by
  refine (broadcastInDim_apply ![0, 1] bcast_S1x256_S131072x256_0_1 _ (ix2 r o) (ix2 (0 : Fin 1) o) fun a => ?_).trans ?_
  · match a with
    | ⟨0, _⟩ => rfl
    | ⟨1, _⟩ => rfl
  · exact broadcastInDim_apply ![1] bcast_S256_S1x256_1 v (ix2 (0 : Fin 1) o) (ix1 o) fun a => by
      match a with
      | ⟨0, _⟩ => rfl

/-- The reference's term is the specification (variance as mean of squared deviations) where the table is in range. -/
theorem out_eq_spec (z : FVec Ideal S64x256x256 .f32) (tbl : IVec S64x2048x3 32) (W1 : FVec Ideal S256x512 .f32)
    (b1 γ β : FVec Ideal S512 .f32) (W2 : FVec Ideal S512x256 .f32) (b2 : FVec Ideal S256 .f32)
    (hidx : ∀ i, (tbl i).toNat < 256) :
    Term.out (F := Ideal) z tbl W1 b1 γ β W2 b2 = Cert.Spec.outWith Cert.Spec.varR z tbl W1 b1 γ β W2 b2 := by
  funext j
  obtain ⟨r, o, rfl⟩ : ∃ (r : Fin 131072) (o : Fin 256), j = ix2 r o := ⟨j 0, j 1, eq_ix2 j⟩
  show _ = Cert.Spec.tail (Cert.Spec.H z tbl W1 b1) (Cert.Spec.meanOf (Cert.Spec.H z tbl W1 b1))
    (fun f => Ideal.rsqrt (Cert.Spec.varR (Cert.Spec.H z tbl W1 b1) f + Cert.Spec.eps)) γ β W2 b2 r o
  unfold Term.out Cert.Spec.tail
  rw [addf_apply, dot2_apply, rows256_apply]
  refine congrArg (· + b2 (ix1 o)) (Finset.sum_congr rfl fun f _ => ?_)
  rw [act_apply (Term.hid (F := Ideal) z tbl W1 b1) γ β (Cert.Spec.H z tbl W1 b1)
    (fun r f => hid_apply z tbl W1 b1 hidx r f)]

end Cert.ReferenceIdeal.Read

end
-- ==== Proof.lean ====
/-
  The certificate: a kernel that gathers three atom embeddings per angle by a one-hot matrix product, applies a
  linear layer, batch-normalises over all 131072 angle rows with statistics accumulated block by block, rectifies and
  applies a second linear layer, against the same network written with an indexed gather and the library's mean and
  variance. Under the precondition every float input is finite and every atom index lies in 0 … 255.

  The frames of the two kernel programs are the generated ones; the reference's frame is its run with the result
  dropped. The ideal pass rewrote nothing, so the idealization claim is trivial. For the value claim both programs end
  at one function of the arguments: in range, the one-hot product picks exactly the rows the gather reads (no index is
  wrapped or clamped); and on finite data the mean of squares minus the squared mean is the mean of squared deviations.
-/
import proofs.«415157_j83416854823432_1_alg».proof.Defs
import proofs.«415157_j83416854823432_1_alg».proof.Proof.Gen.Kernel
import proofs.«415157_j83416854823432_1_alg».proof.Proof.Gen.Kernel.Frame
import proofs.«415157_j83416854823432_1_alg».proof.Proof.Gen.KernelIdeal
import proofs.«415157_j83416854823432_1_alg».proof.Proof.Gen.KernelIdeal.Frame
import proofs.«415157_j83416854823432_1_alg».proof.Proof.Gen.ReferenceIdeal
import proofs.«415157_j83416854823432_1_alg».proof.Proof.Gen.Pre_finite_inputs
import proofs.«415157_j83416854823432_1_alg».proof.Proof.Spec
import proofs.«415157_j83416854823432_1_alg».proof.Proof.PreRead
import proofs.«415157_j83416854823432_1_alg».proof.Proof.KValue
import proofs.«415157_j83416854823432_1_alg».proof.Proof.RefRun
import proofs.«415157_j83416854823432_1_alg».proof.Proof.RefRead
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Run.run (F := Ideal) m ρ)

/-- Both programs end at the specification: the kernel with the variance as mean of squares minus squared mean, the
    reference with it as mean of squared deviations; the precondition makes the first layer real, where the two agree,
    and puts every atom index in range, where the one-hot product and the gather read the same rows. -/
theorem algebraic : Cert.algebraic_KernelIdeal_ReferenceIdeal := by
  intro m ρ m' ρ' hpre hagree
  have hP := fun c : Dev Cert.KernelIdeal.nD => Cert.PreRead.of_pre _ _ _ _ _ _ _ _ (hpre c)
  refine ⟨_, Cert.KernelIdeal.KValue.run m ρ (fun c i => (hP c).2.2.2 i), ?_⟩
  refine (θ_run Cert.ReferenceIdeal.defs _ _).mono (fun _ h c => ⟨(h c).1.trans ?_, (h c).2⟩)
    (Cert.ReferenceIdeal.Run.run (F := Ideal) m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]
  exact (Cert.ReferenceIdeal.Read.out_eq_spec _ _ _ _ _ _ _ _ (hP c).2.2.2).trans
    (Cert.Spec.outWith_varR_eq _ _ _ _ _ _ _ _ (hP c).1 (hP c).2.1 (hP c).2.2.1)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
